-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x19x512x1024 : Shape := ⟨4, ![8, 19, 512, 1024]⟩
abbrev S8x512x1024 : Shape := ⟨3, ![8, 512, 1024]⟩
abbrev S_ : Shape := ⟨0, ![]⟩

class Facts : Prop where
  bcast_S_S8x19x512x1024 : S_.BroadcastsInDim S8x19x512x1024 (![] : Fin 0 → Fin S8x19x512x1024.rank)
  reducesTo_S8x19x512x1024_S_d0_1_2_3 : S8x19x512x1024.ReducesTo [0, 1, 2, 3] S_
  h_S_ : 0 < S_.numel
  bcast_S_S8x512x1024 : S_.BroadcastsInDim S8x512x1024 (![] : Fin 0 → Fin S8x512x1024.rank)
  reducesTo_S8x512x1024_S_d0_1_2 : S8x512x1024.ReducesTo [0, 1, 2] S_

variable [Facts]

def fn {F : FTy → Type} [FloatOps F] (main_arg0 : FVec F S8x19x512x1024 .f32) (main_arg1 : IVec S8x512x1024 32) : IVec S_ 1 :=
  let main_v0 : FVec F S8x19x512x1024 .f32 := Host.absf main_arg0
  let main_cst : FVec F S_ .f32 := constant S_ .f32 0x7F800000#32
  let main_v1 : FVec F S8x19x512x1024 .f32 := broadcastInDim S8x19x512x1024 ![] bcast_S_S8x19x512x1024 main_cst
  let main_v2 : IVec S8x19x512x1024 1 := cmpf .olt main_v0 main_v1
  let main_c : IVec S_ 1 := constantI S_ 1 1#1
  let main_v3 : IVec S_ 1 := (fun x v => Host.reduce IntOp.andi x v reducesTo_S8x19x512x1024_S_d0_1_2_3 h_S_) main_v2 main_c
  let main_c_0 : IVec S_ 32 := constantI S_ 32 0#32
  let main_v4 : IVec S8x512x1024 32 := broadcastInDim S8x512x1024 ![] bcast_S_S8x512x1024 main_c_0
  let main_v5 : IVec S8x512x1024 1 := cmpi .sge main_arg1 main_v4
  let main_c_1 : IVec S_ 1 := constantI S_ 1 1#1
  let main_v6 : IVec S_ 1 := (fun x v => Host.reduce IntOp.andi x v reducesTo_S8x512x1024_S_d0_1_2 h_S_) main_v5 main_c_1
  let main_v7 : IVec S_ 1 := andi main_v3 main_v6
  let main_c_2 : IVec S_ 32 := constantI S_ 32 19#32
  let main_v8 : IVec S8x512x1024 32 := broadcastInDim S8x512x1024 ![] bcast_S_S8x512x1024 main_c_2
  let main_v9 : IVec S8x512x1024 1 := cmpi .slt main_arg1 main_v8
  let main_c_3 : IVec S_ 1 := constantI S_ 1 1#1
  let main_v10 : IVec S_ 1 := (fun x v => Host.reduce IntOp.andi x v reducesTo_S8x512x1024_S_d0_1_2 h_S_) main_v9 main_c_3
  let main_v11 : IVec S_ 1 := andi main_v7 main_v10
  main_v11
-- ==== Kernel.lean ====
abbrev S8x19x512x1024 : Shape := ⟨4, ![8, 19, 512, 1024]⟩
abbrev S8x512x1024 : Shape := ⟨3, ![8, 512, 1024]⟩
abbrev S8x8x128 : Shape := ⟨3, ![8, 8, 128]⟩
abbrev S1x19x128x1024 : Shape := ⟨4, ![1, 19, 128, 1024]⟩
abbrev S1x128x1024 : Shape := ⟨3, ![1, 128, 1024]⟩
abbrev S1x8x128 : Shape := ⟨3, ![1, 8, 128]⟩
abbrev S128x1024 : Shape := ⟨2, ![128, 1024]⟩
abbrev S1x1x128x1024 : Shape := ⟨4, ![1, 1, 128, 1024]⟩
abbrev S128 : Shape := ⟨1, ![128]⟩
abbrev S128x1 : Shape := ⟨2, ![128, 1]⟩
abbrev S1 : Shape := ⟨1, ![1]⟩
abbrev S1x1 : Shape := ⟨2, ![1, 1]⟩
abbrev S1x1x1 : Shape := ⟨3, ![1, 1, 1]⟩
abbrev S_ : Shape := ⟨0, ![]⟩
abbrev S8x128 : Shape := ⟨2, ![8, 128]⟩
abbrev S1x19 : Shape := ⟨2, ![1, 19]⟩
abbrev S19 : Shape := ⟨1, ![19]⟩

abbrev nBuf : Space → Nat
  | .hbm => 23
  | .vmem => 6
  | .smem => 0
  | _ => 0

abbrev bufTy : (tb : Table) → Fin (tcTables nBuf tb) → BufTy
  | .hbm, ⟨0, _⟩ => ⟨S8x19x512x1024, .f32⟩
  | .hbm, ⟨1, _⟩ => ⟨S8x512x1024, .i32⟩
  | .hbm, ⟨2, _⟩ => ⟨S8x8x128, .f32⟩
  | .hbm, ⟨3, _⟩ => ⟨S_, .f32⟩
  | .hbm, ⟨4, _⟩ => ⟨S8x128, .f32⟩
  | .hbm, ⟨5, _⟩ => ⟨S1x19, .f32⟩
  | .hbm, ⟨6, _⟩ => ⟨S19, .f32⟩
  | .hbm, ⟨7, _⟩ => ⟨S1x19, .f32⟩
  | .hbm, ⟨8, _⟩ => ⟨S19, .f32⟩
  | .hbm, ⟨9, _⟩ => ⟨S_, .f32⟩
  | .hbm, ⟨10, _⟩ => ⟨S19, .f32⟩
  | .hbm, ⟨11, _⟩ => ⟨S19, .f32⟩
  | .hbm, ⟨12, _⟩ => ⟨S_, .f32⟩
  | .hbm, ⟨13, _⟩ => ⟨S19, .f32⟩
  | .hbm, ⟨14, _⟩ => ⟨S19, .f32⟩
  | .hbm, ⟨15, _⟩ => ⟨S19, .f32⟩
  | .hbm, ⟨16, _⟩ => ⟨S_, .f32⟩
  | .hbm, ⟨17, _⟩ => ⟨S_, .f32⟩
  | .hbm, ⟨18, _⟩ => ⟨S19, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1x19x128x1024, .f32⟩
  | .local _ .vmem, ⟨1, _⟩ => ⟨S1x19x128x1024, .f32⟩
  | .local _ .vmem, ⟨2, _⟩ => ⟨S1x128x1024, .i32⟩
  | .local _ .vmem, ⟨3, _⟩ => ⟨S1x128x1024, .i32⟩
  | .local _ .vmem, ⟨4, _⟩ => ⟨S1x8x128, .f32⟩
  | .local _ .vmem, ⟨5, _⟩ => ⟨S1x8x128, .f32⟩
  | _, _ => ⟨S8x19x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x19x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  inb_S1x19x128x1024_S1x1x128x1024_0_0_0_0 : ∀ a, (![0, 0, 0, 0] : Fin 4 → Nat) a + S1x1x128x1024.size a ≤ S1x19x128x1024.size a
  h_S1x1x128x1024 : 0 < S1x1x128x1024.numel
  shapeCasts_S1x1x128x1024_S128x1024 : S1x1x128x1024.ShapeCasts S128x1024
  inb_S1x19x128x1024_S1x1x128x1024_0_1_0_0 : ∀ a, (![0, 1, 0, 0] : Fin 4 → Nat) a + S1x1x128x1024.size a ≤ S1x19x128x1024.size a
  inb_S1x19x128x1024_S1x1x128x1024_0_2_0_0 : ∀ a, (![0, 2, 0, 0] : Fin 4 → Nat) a + S1x1x128x1024.size a ≤ S1x19x128x1024.size a
  inb_S1x19x128x1024_S1x1x128x1024_0_3_0_0 : ∀ a, (![0, 3, 0, 0] : Fin 4 → Nat) a + S1x1x128x1024.size a ≤ S1x19x128x1024.size a
  inb_S1x19x128x1024_S1x1x128x1024_0_4_0_0 : ∀ a, (![0, 4, 0, 0] : Fin 4 → Nat) a + S1x1x128x1024.size a ≤ S1x19x128x1024.size a
  inb_S1x19x128x1024_S1x1x128x1024_0_5_0_0 : ∀ a, (![0, 5, 0, 0] : Fin 4 → Nat) a + S1x1x128x1024.size a ≤ S1x19x128x1024.size a
  inb_S1x19x128x1024_S1x1x128x1024_0_6_0_0 : ∀ a, (![0, 6, 0, 0] : Fin 4 → Nat) a + S1x1x128x1024.size a ≤ S1x19x128x1024.size a
  inb_S1x19x128x1024_S1x1x128x1024_0_7_0_0 : ∀ a, (![0, 7, 0, 0] : Fin 4 → Nat) a + S1x1x128x1024.size a ≤ S1x19x128x1024.size a
  inb_S1x19x128x1024_S1x1x128x1024_0_8_0_0 : ∀ a, (![0, 8, 0, 0] : Fin 4 → Nat) a + S1x1x128x1024.size a ≤ S1x19x128x1024.size a
  inb_S1x19x128x1024_S1x1x128x1024_0_9_0_0 : ∀ a, (![0, 9, 0, 0] : Fin 4 → Nat) a + S1x1x128x1024.size a ≤ S1x19x128x1024.size a
  inb_S1x19x128x1024_S1x1x128x1024_0_10_0_0 : ∀ a, (![0, 10, 0, 0] : Fin 4 → Nat) a + S1x1x128x1024.size a ≤ S1x19x128x1024.size a
  inb_S1x19x128x1024_S1x1x128x1024_0_11_0_0 : ∀ a, (![0, 11, 0, 0] : Fin 4 → Nat) a + S1x1x128x1024.size a ≤ S1x19x128x1024.size a
  inb_S1x19x128x1024_S1x1x128x1024_0_12_0_0 : ∀ a, (![0, 12, 0, 0] : Fin 4 → Nat) a + S1x1x128x1024.size a ≤ S1x19x128x1024.size a
  inb_S1x19x128x1024_S1x1x128x1024_0_13_0_0 : ∀ a, (![0, 13, 0, 0] : Fin 4 → Nat) a + S1x1x128x1024.size a ≤ S1x19x128x1024.size a
  inb_S1x19x128x1024_S1x1x128x1024_0_14_0_0 : ∀ a, (![0, 14, 0, 0] : Fin 4 → Nat) a + S1x1x128x1024.size a ≤ S1x19x128x1024.size a
  inb_S1x19x128x1024_S1x1x128x1024_0_15_0_0 : ∀ a, (![0, 15, 0, 0] : Fin 4 → Nat) a + S1x1x128x1024.size a ≤ S1x19x128x1024.size a
  inb_S1x19x128x1024_S1x1x128x1024_0_16_0_0 : ∀ a, (![0, 16, 0, 0] : Fin 4 → Nat) a + S1x1x128x1024.size a ≤ S1x19x128x1024.size a
  inb_S1x19x128x1024_S1x1x128x1024_0_17_0_0 : ∀ a, (![0, 17, 0, 0] : Fin 4 → Nat) a + S1x1x128x1024.size a ≤ S1x19x128x1024.size a
  inb_S1x19x128x1024_S1x1x128x1024_0_18_0_0 : ∀ a, (![0, 18, 0, 0] : Fin 4 → Nat) a + S1x1x128x1024.size a ≤ S1x19x128x1024.size a
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  iota_S1x8x128_d2_w32 : S1x8x128.Iotas .tc 32 [2]
  iota_S1x8x128_d1_w32 : S1x8x128.Iotas .tc 32 [1]
  natLt_1_32 : 1 < 32
  reduces_S128x1024_S128 : S128x1024.Reduces [1] S128
  shapeCasts_S128_S128x1 : S128.ShapeCasts S128x1
  reduces_S128x1_S1 : S128x1.Reduces [0] S1
  shapeCasts_S1_S1x1 : S1.ShapeCasts S1x1
  shapeCasts_S1x1_S1x1x1 : S1x1.ShapeCasts S1x1x1
  broadcasts_S1x1x1_S1x8x128 : S1x1x1.Broadcasts S1x8x128
  shapeCasts_S1x8x128_S1x8x128 : S1x8x128.ShapeCasts S1x8x128
  reducesTo_S8x8x128_S8x128_d0 : S8x8x128.ReducesTo [0] S8x128
  h_S_ : 0 < S_.numel
  slices_S8x128_S1x19_0_0 : S8x128.Slices ![0, 0] S1x19
  shapeCasts_S1x19_S19 : S1x19.ShapeCasts S19
  slices_S8x128_S1x19_1_0 : S8x128.Slices ![1, 0] S1x19
  bcast_S_S19 : S_.BroadcastsInDim S19 (![] : Fin 0 → Fin S19.rank)
  reducesTo_S19_S_d0 : S19.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x128x1024.size a ≤ S8x19x512x1024.size a
  hwx0_0 : ∀ i : grid0.Coords, EltTy.bits .f32 = 32 ∨ (Rect.block (s := S8x19x512x1024) S1x19x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1024.size a ≤ S8x512x1024.size a
  hwx0_1 : ∀ i : grid0.Coords, EltTy.bits .i32 = 32 ∨ (Rect.block (s := S8x512x1024) S1x128x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S8x8x128.size a
  hwx0_2 : ∀ i : grid0.Coords, EltTy.bits .f32 = 32 ∨ (Rect.block (s := S8x8x128) S1x8x128.size (cc0_transform_2 i) (hinb0_2 i)).WholeWords (EltTy.packing .f32)

variable [Facts₀]

abbrev win0_0 : Pipeline.Window sig grid0 :=
  Pipeline.Window.ofSpec (Memref.whole main_arg0) S1x19x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x19x512x1024 : Shape := ⟨4, ![8, 19, 512, 1024]⟩
abbrev S8x512x1024 : Shape := ⟨3, ![8, 512, 1024]⟩
abbrev S4194304 : Shape := ⟨1, ![4194304]⟩
abbrev S_ : Shape := ⟨0, ![]⟩
abbrev S19 : Shape := ⟨1, ![19]⟩
abbrev S4194304x1 : Shape := ⟨2, ![4194304, 1]⟩
abbrev S8x1x512x1024 : Shape := ⟨4, ![8, 1, 512, 1024]⟩
abbrev S8x1x512x1024x1 : Shape := ⟨5, ![8, 1, 512, 1024, 1]⟩
abbrev S1 : Shape := ⟨1, ![1]⟩
abbrev S1x1x1x1x1 : Shape := ⟨5, ![1, 1, 1, 1, 1]⟩
abbrev S8x512x1024x1 : Shape := ⟨4, ![8, 512, 1024, 1]⟩

abbrev nBuf : Space → Nat
  | .hbm => 95
  | .vmem => 0
  | .smem => 0
  | _ => 0

abbrev bufTy : (tb : Table) → Fin (tcTables nBuf tb) → BufTy
  | .hbm, ⟨0, _⟩ => ⟨S8x19x512x1024, .f32⟩
  | .hbm, ⟨1, _⟩ => ⟨S8x512x1024, .i32⟩
  | .hbm, ⟨2, _⟩ => ⟨S4194304, .i32⟩
  | .hbm, ⟨3, _⟩ => ⟨S_, .i32⟩
  | .hbm, ⟨4, _⟩ => ⟨S19, .i32⟩
  | .hbm, ⟨5, _⟩ => ⟨S_, .i32⟩
  | .hbm, ⟨6, _⟩ => ⟨S_, .i32⟩
  | .hbm, ⟨7, _⟩ => ⟨S4194304, .i32⟩
  | .hbm, ⟨8, _⟩ => ⟨S4194304, .i32⟩
  | .hbm, ⟨9, _⟩ => ⟨S_, .i32⟩
  | .hbm, ⟨10, _⟩ => ⟨S4194304, .i32⟩
  | .hbm, ⟨11, _⟩ => ⟨S4194304, .i1⟩
  | .hbm, ⟨12, _⟩ => ⟨S_, .i32⟩
  | .hbm, ⟨13, _⟩ => ⟨S4194304, .i32⟩
  | .hbm, ⟨14, _⟩ => ⟨S4194304, .i32⟩
  | .hbm, ⟨15, _⟩ => ⟨S4194304, .i32⟩
  | .hbm, ⟨16, _⟩ => ⟨S4194304x1, .i32⟩
  | .hbm, ⟨17, _⟩ => ⟨S_, .i32⟩
  | .hbm, ⟨18, _⟩ => ⟨S4194304, .i32⟩
  | .hbm, ⟨19, _⟩ => ⟨S19, .i32⟩
  | .hbm, ⟨20, _⟩ => ⟨S19, .f32⟩
  | .hbm, ⟨21, _⟩ => ⟨S_, .f32⟩
  | .hbm, ⟨22, _⟩ => ⟨S19, .f32⟩
  | .hbm, ⟨23, _⟩ => ⟨S19, .f32⟩
  | .hbm, ⟨24, _⟩ => ⟨S_, .f32⟩
  | .hbm, ⟨25, _⟩ => ⟨S19, .f32⟩
  | .hbm, ⟨26, _⟩ => ⟨S19, .f32⟩
  | .hbm, ⟨27, _⟩ => ⟨S_, .f32⟩
  | .hbm, ⟨28, _⟩ => ⟨S8x512x1024, .f32⟩
  | .hbm, ⟨29, _⟩ => ⟨S_, .f32⟩
  | .hbm, ⟨30, _⟩ => ⟨S8x512x1024, .f32⟩
  | .hbm, ⟨31, _⟩ => ⟨S8x512x1024, .f32⟩
  | .hbm, ⟨32, _⟩ => ⟨S8x1x512x1024, .f32⟩
  | .hbm, ⟨33, _⟩ => ⟨S8x19x512x1024, .f32⟩
  | .hbm, ⟨34, _⟩ => ⟨S8x19x512x1024, .f32⟩
  | .hbm, ⟨35, _⟩ => ⟨S8x19x512x1024, .f32⟩
  | .hbm, ⟨36, _⟩ => ⟨S_, .f32⟩
  | .hbm, ⟨37, _⟩ => ⟨S8x512x1024, .f32⟩
  | .hbm, ⟨38, _⟩ => ⟨S8x1x512x1024, .f32⟩
  | .hbm, ⟨39, _⟩ => ⟨S8x1x512x1024, .f32⟩
  | .hbm, ⟨40, _⟩ => ⟨S8x19x512x1024, .f32⟩
  | .hbm, ⟨41, _⟩ => ⟨S8x19x512x1024, .f32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S8x512x1024, .i32⟩
  | .hbm, ⟨46, _⟩ => ⟨S8x512x1024, .i32⟩
  | .hbm, ⟨47, _⟩ => ⟨S_, .i32⟩
  | .hbm, ⟨48, _⟩ => ⟨S8x512x1024, .i32⟩
  | .hbm, ⟨49, _⟩ => ⟨S8x512x1024, .i32⟩
  | .hbm, ⟨50, _⟩ => ⟨S8x1x512x1024, .i32⟩
  | .hbm, ⟨51, _⟩ => ⟨S_, .i32⟩
  | .hbm, ⟨52, _⟩ => ⟨S8x1x512x1024, .i32⟩
  | .hbm, ⟨53, _⟩ => ⟨S8x1x512x1024, .i1⟩
  | .hbm, ⟨54, _⟩ => ⟨S_, .i32⟩
  | .hbm, ⟨55, _⟩ => ⟨S8x1x512x1024, .i32⟩
  | .hbm, ⟨56, _⟩ => ⟨S8x1x512x1024, .i32⟩
  | .hbm, ⟨57, _⟩ => ⟨S8x1x512x1024, .i32⟩
  | .hbm, ⟨58, _⟩ => ⟨S8x1x512x1024x1, .i32⟩
  | .hbm, ⟨59, _⟩ => ⟨S1, .i32⟩
  | .hbm, ⟨60, _⟩ => ⟨S_, .i32⟩
  | .hbm, ⟨61, _⟩ => ⟨S8x1x512x1024x1, .i32⟩
  | .hbm, ⟨62, _⟩ => ⟨S8x1x512x1024x1, .i1⟩
  | .hbm, ⟨63, _⟩ => ⟨S1x1x1x1x1, .i32⟩
  | .hbm, ⟨64, _⟩ => ⟨S8x1x512x1024x1, .i32⟩
  | .hbm, ⟨65, _⟩ => ⟨S8x1x512x1024x1, .i1⟩
  | .hbm, ⟨66, _⟩ => ⟨S8x1x512x1024x1, .i1⟩
  | .hbm, ⟨67, _⟩ => ⟨S_, .i1⟩
  | .hbm, ⟨68, _⟩ => ⟨S8x1x512x1024, .i1⟩
  | .hbm, ⟨69, _⟩ => ⟨S8x1x512x1024, .f32⟩
  | .hbm, ⟨70, _⟩ => ⟨S_, .f32⟩
  | .hbm, ⟨71, _⟩ => ⟨S8x1x512x1024, .f32⟩
  | .hbm, ⟨72, _⟩ => ⟨S8x1x512x1024, .f32⟩
  | .hbm, ⟨73, _⟩ => ⟨S8x512x1024, .f32⟩
  | .hbm, ⟨74, _⟩ => ⟨S_, .i32⟩
  | .hbm, ⟨75, _⟩ => ⟨S8x512x1024, .i32⟩
  | .hbm, ⟨76, _⟩ => ⟨S8x512x1024, .i1⟩
  | .hbm, ⟨77, _⟩ => ⟨S8x512x1024, .f32⟩
  | .hbm, ⟨78, _⟩ => ⟨S_, .i32⟩
  | .hbm, ⟨79, _⟩ => ⟨S8x512x1024, .i32⟩
  | .hbm, ⟨80, _⟩ => ⟨S8x512x1024, .i1⟩
  | .hbm, ⟨81, _⟩ => ⟨S_, .i32⟩
  | .hbm, ⟨82, _⟩ => ⟨S8x512x1024, .i32⟩
  | .hbm, ⟨83, _⟩ => ⟨S8x512x1024, .i32⟩
  | .hbm, ⟨84, _⟩ => ⟨S8x512x1024, .i32⟩
  | .hbm, ⟨85, _⟩ => ⟨S8x512x1024x1, .i32⟩
  | .hbm, ⟨86, _⟩ => ⟨S8x512x1024, .f32⟩
  | .hbm, ⟨87, _⟩ => ⟨S8x512x1024, .f32⟩
  | .hbm, ⟨88, _⟩ => ⟨S8x512x1024, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S8x19x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_c_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_call1_cst : Ref sig .tc := ⟨.hbm, 27, rfl⟩
abbrev main_call1_v0 : Ref sig .tc := ⟨.hbm, 28, rfl⟩
abbrev main_call1_cst_0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_cst_1 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_v16 : Ref sig .tc := ⟨.hbm, 41, rfl⟩
abbrev main_c_5 : Ref sig .tc := ⟨.hbm, 42, rfl⟩
abbrev main_c_6 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v17 : Ref sig .tc := ⟨.hbm, 49, rfl⟩
abbrev main_v18 : Ref sig .tc := ⟨.hbm, 50, rfl⟩
abbrev main_call3_c : Ref sig .tc := ⟨.hbm, 51, rfl⟩
abbrev main_call3_v0 : Ref sig .tc := ⟨.hbm, 52, rfl⟩
abbrev main_call3_v1 : Ref sig .tc := ⟨.hbm, 53, rfl⟩
abbrev main_call3_c_0 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_call3_v5 : Ref sig .tc := ⟨.hbm, 58, rfl⟩
abbrev main_call3_c_1 : Ref sig .tc := ⟨.hbm, 59, rfl⟩
abbrev main_call3_c_2 : Ref sig .tc := ⟨.hbm, 60, rfl⟩
abbrev main_call3_v6 : Ref sig .tc := ⟨.hbm, 61, rfl⟩
abbrev main_call3_v7 : Ref sig .tc := ⟨.hbm, 62, rfl⟩
abbrev main_call3_v8 : Ref sig .tc := ⟨.hbm, 63, rfl⟩
abbrev main_call3_v9 : Ref sig .tc := ⟨.hbm, 64, rfl⟩
abbrev main_call3_v10 : Ref sig .tc := ⟨.hbm, 65, rfl⟩
abbrev main_call3_v11 : Ref sig .tc := ⟨.hbm, 66, rfl⟩
abbrev main_call3_c_3 : Ref sig .tc := ⟨.hbm, 67, rfl⟩
abbrev main_call3_v12 : Ref sig .tc := ⟨.hbm, 68, rfl⟩
abbrev main_call3_v13 : Ref sig .tc := ⟨.hbm, 69, rfl⟩
abbrev main_call3_cst : Ref sig .tc := ⟨.hbm, 70, rfl⟩
abbrev main_call3_v14 : Ref sig .tc := ⟨.hbm, 71, rfl⟩
abbrev main_v19 : Ref sig .tc := ⟨.hbm, 72, rfl⟩
abbrev main_v20 : Ref sig .tc := ⟨.hbm, 73, rfl⟩
abbrev main_c_7 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_c_8 : Ref sig .tc := ⟨.hbm, 78, rfl⟩
abbrev main_v24 : Ref sig .tc := ⟨.hbm, 79, rfl⟩
abbrev main_v25 : Ref sig .tc := ⟨.hbm, 80, rfl⟩
abbrev main_c_9 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_cst_10 : Ref sig .tc := ⟨.hbm, 89, rfl⟩
abbrev main_v33 : Ref sig .tc := ⟨.hbm, 90, rfl⟩
abbrev main_v34 : Ref sig .tc := ⟨.hbm, 91, rfl⟩
abbrev main_cst_11 : Ref sig .tc := ⟨.hbm, 92, rfl⟩
abbrev main_v35 : Ref sig .tc := ⟨.hbm, 93, rfl⟩
abbrev main_v36 : Ref sig .tc := ⟨.hbm, 94, rfl⟩

abbrev nD : Nat := 1
abbrev τ : Topo := Topo.v7x

variable {F : FTy → Type} [FloatOps F]

class Facts₀ : Prop where
  shapeCasts_S8x512x1024_S4194304 : S8x512x1024.ShapeCasts S4194304
  bcast_S_S19 : S_.BroadcastsInDim S19 (![] : Fin 0 → Fin S19.rank)
  bcast_S_S4194304 : S_.BroadcastsInDim S4194304 (![] : Fin 0 → Fin S4194304.rank)
  bcast_S4194304_S4194304x1_0 : S4194304.BroadcastsInDim S4194304x1 (![0] : Fin 1 → Fin S4194304x1.rank)
  reducesTo_S8x19x512x1024_S8x512x1024_d1 : S8x19x512x1024.ReducesTo [1] S8x512x1024
  h_S_ : 0 < S_.numel
  bcast_S_S8x512x1024 : S_.BroadcastsInDim S8x512x1024 (![] : Fin 0 → Fin S8x512x1024.rank)
  bcast_S8x512x1024_S8x1x512x1024_0_2_3 : S8x512x1024.BroadcastsInDim S8x1x512x1024 (![0, 2, 3] : Fin 3 → Fin S8x1x512x1024.rank)
  bcast_S8x1x512x1024_S8x19x512x1024_0_1_2_3 : S8x1x512x1024.BroadcastsInDim S8x19x512x1024 (![0, 1, 2, 3] : Fin 4 → Fin S8x19x512x1024.rank)
  bcast_S_S8x1x512x1024 : S_.BroadcastsInDim S8x1x512x1024 (![] : Fin 0 → Fin S8x1x512x1024.rank)
  shapeCasts_S8x1x512x1024_S8x1x512x1024x1 : S8x1x512x1024.ShapeCasts S8x1x512x1024x1
  bcast_S_S8x1x512x1024x1 : S_.BroadcastsInDim S8x1x512x1024x1 (![] : Fin 0 → Fin S8x1x512x1024x1.rank)
  bcast_S1_S1x1x1x1x1_4 : S1.BroadcastsInDim S1x1x1x1x1 (![4] : Fin 1 → Fin S1x1x1x1x1.rank)
  bcast_S1x1x1x1x1_S8x1x512x1024x1_0_1_2_3_4 : S1x1x1x1x1.BroadcastsInDim S8x1x512x1024x1 (![0, 1, 2, 3, 4] : Fin 5 → Fin S8x1x512x1024x1.rank)
  reducesTo_S8x1x512x1024x1_S8x1x512x1024_d4 : S8x1x512x1024x1.ReducesTo [4] S8x1x512x1024
  shapeCasts_S8x1x512x1024_S8x512x1024 : S8x1x512x1024.ShapeCasts S8x512x1024
  bcast_S8x512x1024_S8x512x1024x1_0_1_2 : S8x512x1024.BroadcastsInDim S8x512x1024x1 (![0, 1, 2] : Fin 3 → Fin S8x512x1024x1.rank)
  reducesTo_S8x512x1024_S_d0_1_2 : S8x512x1024.ReducesTo [0, 1, 2] S_
  scatter_S19_S4194304x1_S4194304_n_0_0_1_wf : ScatterDims.WF S19 S4194304x1 S4194304 [] [0] [0] 1
  gather_S8x19x512x1024_S8x1x512x1024x1_S8x1x512x1024_n_1_023_023_1_4_1111_wf : GatherDims.WF S8x19x512x1024 S8x1x512x1024x1 S8x1x512x1024 [] [1] [0, 2, 3] [1] [0, 2, 3] 4 ![1, 1, 1, 1]
  gather_S19_S8x512x1024x1_S8x512x1024_n_0_n_n_0_3_1_wf : GatherDims.WF S19 S8x512x1024x1 S8x512x1024 [] [0] [] [0] [] 3 ![1]

variable [Facts₀]

def scatter_S19_S4194304x1_S4194304_n_0_0_1 : ScatterDims S19 S4194304x1 S4194304 where
  updateWindowDims := []
  insertedWindowDims := [0]
  scatterDimsToOperandDims := [0]
  indexVectorDim := 1
  wf := scatter_S19_S4194304x1_S4194304_n_0_0_1_wf
def gather_S8x19x512x1024_S8x1x512x1024x1_S8x1x512x1024_n_1_023_023_1_4_1111 : GatherDims S8x19x512x1024 S8x1x512x1024x1 S8x1x512x1024 where
  offsetDims := []
  collapsedSliceDims := [1]
  operandBatchingDims := [0, 2, 3]
  startIndicesBatchingDims := [0, 2, 3]
  startIndexMap := [1]
  indexVectorDim := 4
  sliceSizes := ![1, 1, 1, 1]
  wf := gather_S8x19x512x1024_S8x1x512x1024x1_S8x1x512x1024_n_1_023_023_1_4_1111_wf
def gather_S19_S8x512x1024x1_S8x512x1024_n_0_n_n_0_3_1 : GatherDims S19 S8x512x1024x1 S8x512x1024 where
  offsetDims := []
  collapsedSliceDims := [0]
  operandBatchingDims := []
  startIndicesBatchingDims := []
  startIndexMap := [0]
  indexVectorDim := 3
  sliceSizes := ![1]
  wf := gather_S19_S8x512x1024x1_S8x512x1024_n_0_n_n_0_3_1_wf

class Facts : Prop extends Facts₀ where

variable [Facts]
-- ==== Proof.Spec.lean ====
/-
  The mathematics both programs compute, stated once over the real numbers.

  The inputs are an array of logits `x` of shape [8, 19, 512, 1024] (batch, class, row, column) and an array of class labels
  of shape [8, 512, 1024]. At a pixel the 19 logits `v` give the log-probabilities `v c - (max v + log ∑ exp (v - max v))`.
  With `N c` the number of pixels labelled `c`, `S c` the sum over those pixels of the log-probability of class `c`, and
  the class weight `w c = 1 - N c / 4194304`, the loss is `-(∑ w c · S c) / (∑ w c · N c)` — the arrangement by classes —,
  and equally `-(∑ₚ w (label p) · logp (label p) at p) / (∑ₚ w (label p))` — the arrangement by pixels.

  The first arrangement is also stated the way a grid of blocks produces it: every grid point (batch `b`, row tile `hq` of
  128 rows) contributes to a [1, 8, 128] tile whose row 0 holds the block's counts per class (lane = class) and whose row 1
  holds the block's log-probability sums; the tiles of one batch are added over the four row tiles, then over the batches.
-/
import Idealize.ShloMosaic.PureOps.Ideal
import Idealize.ShloMosaic.Lib.ValueIdx

noncomputable section

open scoped BigOperators

namespace Cert.Spec

open Idealize.ShloMosaic Idealize.ShloMosaic.ValueIdx

/-- The logits array, the label array. -/
abbrev SX : Shape := ⟨4, ![8, 19, 512, 1024]⟩
abbrev ST : Shape := ⟨3, ![8, 512, 1024]⟩
/-- One grid point's blocks: 128 rows of one batch; the accumulator tile. -/
abbrev BX : Shape := ⟨4, ![1, 19, 128, 1024]⟩
abbrev BT : Shape := ⟨3, ![1, 128, 1024]⟩
abbrev BO : Shape := ⟨3, ![1, 8, 128]⟩
/-- The pixels of a block. -/
abbrev PX : Shape := ⟨2, ![128, 1024]⟩
/-- The per-batch accumulator array. -/
abbrev SA : Shape := ⟨3, ![8, 8, 128]⟩

/-- Class `c` as the 32-bit word a label array holds. -/
abbrev cw (c : Fin 19) : BitVec 32 := BitVec.ofNat 32 c.val

/-! ## One pixel: the log-softmax of 19 logits -/

/-- The largest of the 19 logits. -/
def vmax (v : Fin 19 → ℝ) : ℝ := Finset.univ.sup' ⟨0, Finset.mem_univ _⟩ v
/-- The shifted sum of exponentials. -/
def vsum (v : Fin 19 → ℝ) : ℝ := ∑ c : Fin 19, Real.exp (v c - vmax v)
/-- The log-probability of class `c`. -/
def vlp (v : Fin 19 → ℝ) (c : Fin 19) : ℝ := v c - (vmax v + Real.log (vsum v))

/-! ## The whole arrays -/

/-- The index of class `c`'s logit at pixel `p`. -/
def atX (p : ST.Idx) (c : Fin 19) : SX.Idx := ix4 (n0 := 8) (n1 := 19) (n2 := 512) (n3 := 1024) (p 0) c (p 1) (p 2)
/-- The 19 logits at pixel `p`. -/
def logits (x : SX.Idx → ℝ) (p : ST.Idx) : Fin 19 → ℝ := fun c => x (atX p c)

/-- The class weight from a count. -/
def wgtOf (n : ℝ) : ℝ := 1 - n / 4194304

/-- How many pixels carry label `c`. -/
def cnt (tc : ST.Idx → Fin 19) (c : Fin 19) : ℝ := ∑ p : ST.Idx, if tc p = c then 1 else 0
/-- The sum over the pixels labelled `c` of class `c`'s log-probability. -/
def slp (x : SX.Idx → ℝ) (tc : ST.Idx → Fin 19) (c : Fin 19) : ℝ := ∑ p : ST.Idx, if tc p = c then vlp (logits x p) c else 0

/-- Numerator and denominator, arranged by pixels (every pixel valid: factor 1). -/
def numR (x : SX.Idx → ℝ) (tc : ST.Idx → Fin 19) : ℝ := ∑ p : ST.Idx, (wgtOf (cnt tc (tc p)) * 1) * vlp (logits x p) (tc p)
def denR (tc : ST.Idx → Fin 19) : ℝ := ∑ p : ST.Idx, wgtOf (cnt tc (tc p)) * 1

/-! ## One block -/

/-- The 19 logits at pixel `q` of a block. -/
def blkLogits (x0 : BX.Idx → ℝ) (q : PX.Idx) : Fin 19 → ℝ :=
  fun c => x0 (ix4 (n0 := 1) (n1 := 19) (n2 := 128) (n3 := 1024) 0 c (q 0) (q 1))
/-- The label word at pixel `q` of a block. -/
def blkT (x1 : BT.Idx → BitVec 32) (q : PX.Idx) : BitVec 32 := x1 (ix3 (n0 := 1) (n1 := 128) (n2 := 1024) 0 (q 0) (q 1))
/-- The block's count of label `c`, -/
def cntBlk (x1 : BT.Idx → BitVec 32) (c : Fin 19) : ℝ := ∑ q : PX.Idx, if blkT x1 q = cw c then 1 else 0
/-- and its log-probability sum. -/
def slpBlk (x0 : BX.Idx → ℝ) (x1 : BT.Idx → BitVec 32) (c : Fin 19) : ℝ :=
  ∑ q : PX.Idx, if blkT x1 q = cw c then vlp (blkLogits x0 q) c else 0
/-- What one grid point adds to the accumulator tile: row 0, lane `c < 19`: the count; row 1, lane `c < 19`: the sum; else 0. -/
def Ublk (x0 : BX.Idx → ℝ) (x1 : BT.Idx → BitVec 32) (j : BO.Idx) : ℝ :=
  if h : (j 2).val < 19 then
    (if (j 1).val = 0 then cntBlk x1 ⟨(j 2).val, h⟩ else if (j 1).val = 1 then slpBlk x0 x1 ⟨(j 2).val, h⟩ else 0)
  else 0

/-- Block (batch `b`, row tile `hq`) of the logits, -/
def blockX (x : SX.Idx → ℝ) (b : Fin 8) (hq : Fin 4) : BX.Idx → ℝ := fun i =>
  x (ix4 (n0 := 8) (n1 := 19) (n2 := 512) (n3 := 1024) b (i 1)
    ⟨128 * hq.val + (i 2).val, by have h2 : (i 2).val < 128 := (i 2).isLt; have := hq.isLt; show _ < 512; omega⟩ (i 3))
/-- and of the labels. -/
def blockT (t : ST.Idx → BitVec 32) (b : Fin 8) (hq : Fin 4) : BT.Idx → BitVec 32 := fun i =>
  t (ix3 (n0 := 8) (n1 := 512) (n2 := 1024) b
    ⟨128 * hq.val + (i 1).val, by have h1 : (i 1).val < 128 := (i 1).isLt; have := hq.isLt; show _ < 512; omega⟩ (i 2))

/-- The accumulator array after the grid: per batch, the four row tiles' contributions added. -/
def accK (x : SX.Idx → ℝ) (t : ST.Idx → BitVec 32) (i : SA.Idx) : ℝ :=
  ∑ hq : Fin 4, Ublk (blockX x (i 0) hq) (blockT t (i 0) hq) (ix3 (n0 := 1) (n1 := 8) (n2 := 128) 0 (i 1) (i 2))
/-- The batches added. -/
def totK (x : SX.Idx → ℝ) (t : ST.Idx → BitVec 32) (r : Fin 8) (l : Fin 128) : ℝ :=
  ∑ b : Fin 8, accK x t (ix3 (n0 := 8) (n1 := 8) (n2 := 128) b r l)
/-- Row 0's first 19 lanes: the counts; row 1's: the sums. -/
def cntK (x : SX.Idx → ℝ) (t : ST.Idx → BitVec 32) (c : Fin 19) : ℝ := totK x t 0 ⟨c.val, by have := c.isLt; omega⟩
def slpK (x : SX.Idx → ℝ) (t : ST.Idx → BitVec 32) (c : Fin 19) : ℝ := totK x t 1 ⟨c.val, by have := c.isLt; omega⟩
/-- Numerator and denominator, arranged by classes over the blockwise totals. -/
def numK (x : SX.Idx → ℝ) (t : ST.Idx → BitVec 32) : ℝ := ∑ c : Fin 19, wgtOf (cntK x t c) * slpK x t c
def denK (x : SX.Idx → ℝ) (t : ST.Idx → BitVec 32) : ℝ := ∑ c : Fin 19, wgtOf (cntK x t c) * cntK x t c

/-! ## The result -/

/-- The loss as both programs form it from numerator and denominator: negate, then divide (the extended reals' division:
    both programs meet the same value also where the denominator is zero). -/
def result (num den : ℝ) : EReal := Ideal.div (-((num : ℝ) : EReal)) ((den : ℝ) : EReal)

end Cert.Spec

end
-- ==== Proof.Algebra.lean ====
/-
  The two arrangements of the loss are one number: the blockwise totals are the global counts and sums, and a sum over
  pixels regrouped by the pixel's label is the sum over classes.
-/
import proofs.«430136_j16260746182668_3_alg».proof.Proof.Spec

noncomputable section

open scoped BigOperators

namespace Cert.Spec

open Idealize.ShloMosaic Idealize.ShloMosaic.ValueIdx

/-! ## One pixel -/

/-- The maximum of the 19 logits as the extended reals' fold of `max` from `⊥`. -/
theorem vmax_coe_fold (v : Fin 19 → ℝ) :
    (Finset.univ : Finset (Fin 19)).fold max (⊥ : EReal) (fun c => ((v c : ℝ) : EReal)) = ((vmax v : ℝ) : EReal) := by
  unfold vmax
  rw [Finset.apply_sup'_eq_sup'_comp (⟨0, Finset.mem_univ _⟩) (fun r : ℝ => (r : EReal))
    (fun x y => EReal.coe_strictMono.monotone.map_max)]
  exact (Finset.sup'_eq_sup _ _).symm

/-- The shifted sum of exponentials is positive, so its logarithm is the real one. -/
theorem vsum_pos (v : Fin 19 → ℝ) : 0 < vsum v :=
  Finset.sum_pos (fun c _ => Real.exp_pos _) Finset.univ_nonempty

/-! ## The blocks tile the arrays -/

/-- Distinct classes are distinct 32-bit words. -/
theorem cw_injective : Function.Injective cw := by
  intro a c h
  have h' := congrArg BitVec.toNat h
  simp only [cw, BitVec.toNat_ofNat] at h'
  have ha := a.isLt
  have hc := c.isLt
  apply Fin.ext
  omega

/-- Pixel `q` of block (batch `b`, row tile `hq`) as a pixel of the whole array: row `128 * hq + q 0`. -/
def pix (b : Fin 8) (hq : Fin 4) (q : PX.Idx) : ST.Idx :=
  ix3 (n0 := 8) (n1 := 512) (n2 := 1024) b
    ⟨128 * hq.val + (q 0).val, by have h0 : (q 0).val < 128 := (q 0).isLt; have := hq.isLt; show _ < 512; omega⟩ (q 1)

/-- The blocks' pixels are the array's pixels, each once: the row splits into its tile and its row within the tile. -/
def pixEquiv : Fin 8 × Fin 4 × PX.Idx ≃ ST.Idx where
  toFun a := pix a.1 a.2.1 a.2.2
  invFun p := (p 0, ⟨(p 1).val / 128, by have h1 : (p 1).val < 512 := (p 1).isLt; omega⟩,
    ix2 (n0 := 128) (n1 := 1024) ⟨(p 1).val % 128, Nat.mod_lt _ (by norm_num)⟩ (p 2))
  left_inv a := by
    obtain ⟨b, hq, q⟩ := a
    have h0 : (q 0).val < 128 := (q 0).isLt
    refine Prod.ext rfl (Prod.ext (Fin.ext ?_) ?_)
    · show (128 * hq.val + (q 0).val) / 128 = hq.val
      omega
    · show ix2 (n0 := 128) (n1 := 1024) ⟨(128 * hq.val + (q 0).val) % 128, _⟩ (q 1) = q
      rw [eq_ix2 q]
      congr 1
      apply Fin.ext
      show (128 * hq.val + (q 0).val) % 128 = (q 0).val
      omega
  right_inv p := by
    show pix (p 0) ⟨(p 1).val / 128, _⟩ (ix2 (n0 := 128) (n1 := 1024) ⟨(p 1).val % 128, _⟩ (p 2)) = p
    rw [eq_ix3 p]
    unfold pix
    congr 1
    apply Fin.ext
    show 128 * ((p 1).val / 128) + (p 1).val % 128 = (p 1).val
    omega

/-- A sum over the grid of blocks and each block's pixels is the sum over all pixels. -/
theorem sum_blocks (f : ST.Idx → ℝ) :
    ∑ b : Fin 8, ∑ hq : Fin 4, ∑ q : PX.Idx, f (pix b hq q) = ∑ p : ST.Idx, f p := by
  rw [← Equiv.sum_comp pixEquiv f, Fintype.sum_prod_type]
  refine Finset.sum_congr rfl fun b _ => ?_
  rw [Fintype.sum_prod_type]
  rfl

/-- A block's label word at its pixel `q` is the array's at that pixel. -/
theorem blkT_blockT (t : ST.Idx → BitVec 32) (b : Fin 8) (hq : Fin 4) (q : PX.Idx) :
    blkT (blockT t b hq) q = t (pix b hq q) := rfl

/-- A block's logits at its pixel `q` are the array's at that pixel. -/
theorem blkLogits_blockX (x : SX.Idx → ℝ) (b : Fin 8) (hq : Fin 4) (q : PX.Idx) :
    blkLogits (blockX x b hq) q = logits x (pix b hq q) := rfl

/-- Row 0, lane `c` of a grid point's contribution is the block's count of `c`. -/
theorem Ublk_row0 (x0 : BX.Idx → ℝ) (x1 : BT.Idx → BitVec 32) (c : Fin 19) (h : c.val < 128) :
    Ublk x0 x1 (ix3 (n0 := 1) (n1 := 8) (n2 := 128) 0 0 ⟨c.val, h⟩) = cntBlk x1 c := by
  unfold Ublk
  rw [dif_pos (show ((ix3 (n0 := 1) (n1 := 8) (n2 := 128) 0 0 ⟨c.val, h⟩) 2).val < 19 from c.isLt)]
  rw [if_pos (show ((ix3 (n0 := 1) (n1 := 8) (n2 := 128) 0 0 ⟨c.val, h⟩) 1).val = 0 from rfl)]

/-- Row 1, lane `c` is the block's log-probability sum of `c`. -/
theorem Ublk_row1 (x0 : BX.Idx → ℝ) (x1 : BT.Idx → BitVec 32) (c : Fin 19) (h : c.val < 128) :
    Ublk x0 x1 (ix3 (n0 := 1) (n1 := 8) (n2 := 128) 0 1 ⟨c.val, h⟩) = slpBlk x0 x1 c := by
  unfold Ublk
  rw [dif_pos (show ((ix3 (n0 := 1) (n1 := 8) (n2 := 128) 0 1 ⟨c.val, h⟩) 2).val < 19 from c.isLt)]
  rw [if_neg (show ¬ ((ix3 (n0 := 1) (n1 := 8) (n2 := 128) 0 1 ⟨c.val, h⟩) 1).val = 0 from Nat.one_ne_zero)]
  rw [if_pos (show ((ix3 (n0 := 1) (n1 := 8) (n2 := 128) 0 1 ⟨c.val, h⟩) 1).val = 1 from rfl)]

/-- The blockwise counts add up to the global count, when the label words are the classes `tc`. -/
theorem cntK_eq (x : SX.Idx → ℝ) (t : ST.Idx → BitVec 32) (tc : ST.Idx → Fin 19) (ht : ∀ p, t p = cw (tc p)) (c : Fin 19) :
    cntK x t c = cnt tc c := by
  have hc : c.val < 128 := by have := c.isLt; omega
  have h1 : cntK x t c = ∑ b : Fin 8, ∑ hq : Fin 4, cntBlk (blockT t b hq) c := by
    unfold cntK totK accK
    refine Finset.sum_congr rfl fun b _ => Finset.sum_congr rfl fun hq _ => ?_
    exact Ublk_row0 _ _ c hc
  rw [h1, cnt, ← sum_blocks]
  refine Finset.sum_congr rfl fun b _ => Finset.sum_congr rfl fun hq _ => ?_
  unfold cntBlk
  refine Finset.sum_congr rfl fun q _ => ?_
  rw [blkT_blockT, ht]
  exact if_congr cw_injective.eq_iff rfl rfl

/-- The blockwise log-probability sums add up to the global sum. -/
theorem slpK_eq (x : SX.Idx → ℝ) (t : ST.Idx → BitVec 32) (tc : ST.Idx → Fin 19) (ht : ∀ p, t p = cw (tc p)) (c : Fin 19) :
    slpK x t c = slp x tc c := by
  have hc : c.val < 128 := by have := c.isLt; omega
  have h1 : slpK x t c = ∑ b : Fin 8, ∑ hq : Fin 4, slpBlk (blockX x b hq) (blockT t b hq) c := by
    unfold slpK totK accK
    refine Finset.sum_congr rfl fun b _ => Finset.sum_congr rfl fun hq _ => ?_
    exact Ublk_row1 _ _ c hc
  rw [h1, slp, ← sum_blocks]
  refine Finset.sum_congr rfl fun b _ => Finset.sum_congr rfl fun hq _ => ?_
  unfold slpBlk
  refine Finset.sum_congr rfl fun q _ => ?_
  rw [blkT_blockT, blkLogits_blockX, ht]
  exact if_congr cw_injective.eq_iff rfl rfl

/-! ## By classes = by pixels -/

/-- A sum over classes of a class factor times the sum over that class's pixels is the sum over the pixels, each with
    its own class's factor. -/
theorem sum_regroup {P : Type} [Fintype P] (tc : P → Fin 19) (w : Fin 19 → ℝ) (g : P → Fin 19 → ℝ) :
    ∑ c : Fin 19, w c * (∑ p : P, if tc p = c then g p c else 0) = ∑ p : P, (w (tc p) * 1) * g p (tc p) := by
  simp only [Finset.mul_sum]
  rw [Finset.sum_comm]
  refine Finset.sum_congr rfl fun p _ => ?_
  simp only [mul_ite, mul_zero, mul_one]
  rw [Finset.sum_ite_eq]
  simp

/-- Numerators: by classes over the blocks = by pixels. -/
theorem numK_eq_numR (x : SX.Idx → ℝ) (t : ST.Idx → BitVec 32) (tc : ST.Idx → Fin 19) (ht : ∀ p, t p = cw (tc p)) :
    numK x t = numR x tc := by
  unfold numK numR
  simp only [cntK_eq x t tc ht, slpK_eq x t tc ht]
  exact sum_regroup tc (fun c => wgtOf (cnt tc c)) (fun p c => vlp (logits x p) c)

/-- Denominators. -/
theorem denK_eq_denR (x : SX.Idx → ℝ) (t : ST.Idx → BitVec 32) (tc : ST.Idx → Fin 19) (ht : ∀ p, t p = cw (tc p)) :
    denK x t = denR tc := by
  unfold denK denR
  simp only [cntK_eq x t tc ht]
  have h := sum_regroup tc (fun c => wgtOf (cnt tc c)) (fun _ _ => (1 : ℝ))
  simp only [mul_one] at h ⊢
  exact h

end Cert.Spec

end
-- ==== Proof.PreDecode.lean ====
/-
  Reading the precondition: every logit is a real number, and every label word is a class in [0, 19).
-/
import proofs.«430136_j16260746182668_3_alg».proof.Proof.Spec
import proofs.«430136_j16260746182668_3_alg».proof.Proof.Gen.Pre_finite_inputs
import Idealize.ShloMosaic.Lib.ReduceAll
import Idealize.ShloMosaic.Lib.StableHlo.Predicate

noncomputable section

namespace Cert.PreDecode

open Idealize.ShloMosaic Cert.Pre_finite_inputs

/-- The result of a reduction over all axes has one index. -/
local instance : Subsingleton S_.Idx := ⟨fun a b => funext fun d => d.elim0⟩

/-- An extended real whose absolute value `max x (-x)` lies below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- A 32-bit word that is, read signed, at least 0 and below 19 is the word of a class. -/
theorem word_class (a : BitVec 32) (h0 : (0#32 : BitVec 32).sle a = true) (h1 : a.slt 19#32 = true) :
    a.toNat < 19 := by
  have e0 : (0#32 : BitVec 32).toInt = 0 := by decide
  have e19 : (19#32 : BitVec 32).toInt = 19 := by decide
  have hlt := a.isLt
  simp only [BitVec.sle, BitVec.slt, e0, e19, decide_eq_true_eq] at h0 h1
  rw [BitVec.toInt_eq_toNat_cond] at h0 h1
  split at h0 <;> omega

/-- From the printed precondition evaluating to all ones: the logits are reals `x`, the labels are classes `tc`. -/
theorem decode [Cert.Pre_finite_inputs.Facts] (a0 : FVec Ideal S8x19x512x1024 .f32) (a1 : IVec S8x512x1024 32)
    (h : Cert.Pre_finite_inputs.fn (F := Ideal) a0 a1 = fun _ => 1#1) :
    ∃ (x : Cert.Spec.SX.Idx → ℝ) (tc : Cert.Spec.ST.Idx → Fin 19),
      a0 = (fun i => ((x i : ℝ) : EReal)) ∧ a1 = (fun p => Cert.Spec.cw (tc p)) := by
  have h1 := congrFun h ValueIdx.ix0
  unfold Cert.Pre_finite_inputs.fn at h1
  dsimp only at h1
  obtain ⟨h12, h3⟩ := IntOp.andi_eq_one.1 h1
  obtain ⟨hf, hge⟩ := IntOp.andi_eq_one.1 h12
  have hF := Host.reduce_andi_all _ _ _ _ _ hf
  have hG := Host.reduce_andi_all _ _ _ _ _ hge
  have hL := Host.reduce_andi_all _ _ _ _ _ h3
  have htop : Ideal.ofBits .f32 0x7F800000#32 = ⊤ := by simp [Ideal.ofBits, Ideal.ieee]
  have hx : ∀ i, ∃ r : ℝ, a0 i = (r : EReal) := by
    intro i
    apply real_of_abs_lt_top
    have e : Ideal.cmp .olt (max (a0 i) (-(a0 i))) (Ideal.ofBits .f32 0x7F800000#32) = 1#1 := hF i
    rw [htop] at e
    simpa [Ideal.cmp, StableHlo.Predicate.ofBool_eq_one_iff] using e
  have ht : ∀ p, (a1 p).toNat < 19 := by
    intro p
    have e0 : BitVec.ofBool ((0#32 : BitVec 32).sle (a1 p)) = 1#1 := hG p
    have e1 : BitVec.ofBool ((a1 p).slt (19#32 : BitVec 32)) = 1#1 := hL p
    exact word_class (a1 p) ((StableHlo.Predicate.ofBool_eq_one_iff _).1 e0) ((StableHlo.Predicate.ofBool_eq_one_iff _).1 e1)
  refine ⟨fun i => (a0 i).toReal, fun p => ⟨(a1 p).toNat, ht p⟩, ?_, ?_⟩
  · funext i
    obtain ⟨r, hr⟩ := hx i
    show a0 i = (((a0 i).toReal : ℝ) : EReal)
    rw [hr, EReal.toReal_coe]
  · funext p
    show a1 p = BitVec.ofNat 32 (a1 p).toNat
    rw [BitVec.ofNat_toNat, BitVec.setWidth_eq]

end Cert.PreDecode

end
-- ==== Proof.KDefs.lean ====
/-
  The kernel body's arithmetic, written once for all 19 classes.

  A grid point holds the 19 class slabs of its logits block (each [1,1,128,1024]) and the label block. The body first
  takes the running maximum of the slabs from -inf, then the running sum of exp (slab - max) from 0, and forms
  `mb = max + log sum`. Then, class by class, it adds to a [1,8,128] tile (starting from zero) the class's pixel count
  — the mask `label = c` as 0/1 floats summed over the lanes, then over the rows — times the lane indicator `lane = c`
  times the indicator of row 0, and the class's sum of `slab c - mb` over the masked pixels times the lane indicator times
  the indicator of row 1.
-/
import proofs.«430136_j16260746182668_3_alg».proof.Proof.Gen.KernelIdeal

noncomputable section

namespace Cert.KernelIdeal.KBody

open Cert.KernelIdeal Idealize.ShloMosaic

variable {F : FTy → Type} [FloatOps F]

/-- A class slab as a [128,1024] vector. -/
def sc (l : Vec F S1x1x128x1024 .f32) : FVec F S128x1024 .f32 :=
  shapeCast S128x1024 l Gen.shapeCasts_S1x1x128x1024_S128x1024

/-- The running maximum over the slabs, from -inf. -/
def mxOf (ls : List (Vec F S1x1x128x1024 .f32)) : FVec F S128x1024 .f32 :=
  ls.foldl (fun a l => maximumf a (sc l)) (broadcast S128x1024 (Scalar.ofBits .f32 0xFF800000#32))

/-- The running sum of exp (slab - M) over the slabs, from 0. -/
def seOf (M : FVec F S128x1024 .f32) (ls : List (Vec F S1x1x128x1024 .f32)) : FVec F S128x1024 .f32 :=
  ls.foldl (fun a l => addf a (exp (subf (sc l) M))) (broadcast S128x1024 (Scalar.ofBits .f32 0x00000000#32))

/-- max + log sum. -/
def mbOf (ls : List (Vec F S1x1x128x1024 .f32)) : FVec F S128x1024 .f32 :=
  addf (mxOf ls) (log (seOf (mxOf ls) ls))

/-- A [128,1024] vector summed over its lanes, then over its rows, and spread over a [1,8,128] tile. -/
def redAll (v : FVec F S128x1024 .f32) : FVec F S1x8x128 .f32 :=
  broadcastTo S1x8x128
    (shapeCast S1x1x1
      (shapeCast S1x1
        (multiReduction .add [0] S1
          (shapeCast S128x1 (multiReduction .add [1] S128 v 0x00000000#32 Gen.reduces_S128x1024_S128 (.inl rfl) rfl)
            Gen.shapeCasts_S128_S128x1)
          0x00000000#32 Gen.reduces_S128x1_S1 (.inl rfl) rfl)
        Gen.shapeCasts_S1_S1x1)
      Gen.shapeCasts_S1x1_S1x1x1)
    Gen.broadcasts_S1x1x1_S1x8x128

/-- The 0/1 float of a one-bit vector. -/
def bitf {s : Shape} (b : IVec s 1) : FVec F s .f32 := sitofp .f32 (extui 32 b Gen.natLt_1_32)

/-- One class's step: the tile `upd` plus count · lane indicator · row-0 indicator plus sum · lane indicator · row-1 indicator. -/
def clsStep (cword : BitVec 32) (tgt : IVec S128x1024 32) (lane : IVec S1x8x128 32) (rowN rowS : FVec F S1x8x128 .f32)
    (mb : FVec F S128x1024 .f32) (l : Vec F S1x1x128x1024 .f32) (upd : FVec F S1x8x128 .f32) : FVec F S1x8x128 .f32 :=
  addf
    (addf upd
      (mulf (mulf (redAll (bitf (cmpi .eq tgt (broadcast S128x1024 cword)))) (bitf (cmpi .eq lane (broadcast S1x8x128 cword)))) rowN))
    (mulf
      (mulf
        (redAll (select (cmpi .eq tgt (broadcast S128x1024 cword)) (subf (sc l) mb)
          (broadcast S128x1024 (Scalar.ofBits .f32 0x00000000#32))))
        (bitf (cmpi .eq lane (broadcast S1x8x128 cword))))
      rowS)

/-- All classes in order, from the zero tile. -/
def updOf (tgt : IVec S128x1024 32) (lane : IVec S1x8x128 32) (rowN rowS : FVec F S1x8x128 .f32) (mb : FVec F S128x1024 .f32)
    (zero : FVec F S1x8x128 .f32) (cls : List (BitVec 32 × Vec F S1x1x128x1024 .f32)) : FVec F S1x8x128 .f32 :=
  cls.foldl (fun u p => clsStep p.1 tgt lane rowN rowS mb p.2 u) zero

end Cert.KernelIdeal.KBody

end
-- ==== Proof.KMath1a.lean ====
/-
  One class's step of the kernel body, read at an entry of the [1,8,128] tile, over real data.
-/
import proofs.«430136_j16260746182668_3_alg».proof.Proof.Spec
import proofs.«430136_j16260746182668_3_alg».proof.Proof.KDefs
import proofs.«430136_j16260746182668_3_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.KBody

open Cert.KernelIdeal Idealize.ShloMosaic Idealize.ShloMosaic.ValueIdx

/-- The number of pixels of the block whose label word is `w`, -/
def cntW (tgt : IVec S128x1024 32) (w : BitVec 32) : ℝ := ∑ q : S128x1024.Idx, if tgt q = w then 1 else 0
/-- and the sum of `g` over those pixels. -/
def sumW (tgt : IVec S128x1024 32) (w : BitVec 32) (g : S128x1024.Idx → ℝ) : ℝ := ∑ q : S128x1024.Idx, if tgt q = w then g q else 0

/-- The lane coordinates of the tile (`tpu.iota` along axis 2). -/
abbrev laneIota : IVec S1x8x128 32 := iota .tc S1x8x128 32 [2] Gen.iota_S1x8x128_d2_w32

/-! ## Reading the operations at an index -/

/-- The coercion of a finite sum of reals is the sum of the coercions. -/
theorem coe_finset_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- An `if` between two coerced reals is the coerced `if`. -/
theorem ite_coe (p : Prop) [Decidable p] (a b : ℝ) :
    (if p then ((a : ℝ) : EReal) else ((b : ℝ) : EReal)) = ((if p then a else b : ℝ) : EReal) := by
  split <;> rfl

/-- The one index of the one-element vector. -/
theorem S1_idx (k : S1.Idx) : k = ix1 (n := 1) 0 := by
  funext a
  match a with
  | ⟨0, _⟩ => exact Fin.ext (by have h : (k 0).val < 1 := (k 0).isLt; show (k 0).val = 0; omega)

/-- A [128,1024] vector summed over its lanes, then its rows, and spread over the tile: every entry is the double sum. -/
theorem redAll_apply (v : FVec Ideal S128x1024 .f32) (j : S1x8x128.Idx) :
    redAll (F := Ideal) v j = ∑ i : Fin 128, ∑ k : Fin 1024, v (ix2 i k) := by
  have hspread : ∀ (R : S1.Idx → EReal),
      broadcastTo S1x8x128 (shapeCast S1x1x1 (shapeCast S1x1 R Gen.shapeCasts_S1_S1x1) Gen.shapeCasts_S1x1_S1x1x1)
        Gen.broadcasts_S1x1x1_S1x8x128 j = R (ix1 (n := 1) 0) := fun R => by
    unfold broadcastTo shapeCast
    exact congrArg R (S1_idx _)
  unfold redAll
  rw [hspread]
  refine (Ideal.multiReduction_add_single _ _ Gen.reduces_S128x1_S1 _ _ _).trans ?_
  show ∑ i : Fin 128, _ = _
  refine Finset.sum_congr rfl fun i _ => ?_
  have hlift : Gen.reduces_S128x1_S1.lift (ix1 (n := 1) 0) i = ix2 (n0 := 128) (n1 := 1) i 0 := by
    funext c
    match c with
    | ⟨0, _⟩ => exact Fin.ext rfl
    | ⟨1, _⟩ => exact Fin.ext rfl
  rw [hlift]
  rw [shapeCast_apply _ Gen.shapeCasts_S128_S128x1 (ix2 (n0 := 128) (n1 := 1) i 0) (ix1 (n := 128) i) (by
    rw [Shape.rowMajor_val_one, Shape.rowMajor_val_two]
    show i.val = i.val * 1 + 0
    omega)]
  refine (Ideal.multiReduction_add_single _ _ Gen.reduces_S128x1024_S128 _ _ _).trans ?_
  show ∑ k : Fin 1024, _ = _
  refine Finset.sum_congr rfl fun k _ => ?_
  congr 1
  funext c
  match c with
  | ⟨0, _⟩ => exact Fin.ext rfl
  | ⟨1, _⟩ => exact Fin.ext rfl

/-- An equality test of two words is the bit `1` exactly when they are equal. -/
theorem cmpi_eq_one_iff (x y : BitVec 32) : IntOp.cmpi .eq x y = 1#1 ↔ x = y := by
  show BitVec.ofBool (x == y) = 1#1 ↔ x = y
  by_cases h : x = y
  · subst h; simp
  · have hb : (x == y) = false := by simpa using h
    rw [hb]
    exact ⟨fun h1 => absurd h1 (by decide), fun h1 => absurd h1 h⟩

/-- The 0/1 float of an equality test: one where the words agree, zero elsewhere. -/
theorem bitf_cmpi_eq {s : Shape} (a b : IVec s 32) (q : s.Idx) :
    bitf (F := Ideal) (cmpi .eq a b) q = ((if a q = b q then 1 else 0 : ℝ) : EReal) := by
  show (((((IntOp.cmpi .eq (a q) (b q)).setWidth 32).toInt : ℤ) : ℝ) : EReal) = _
  by_cases h : a q = b q
  · rw [if_pos h, (cmpi_eq_one_iff _ _).2 h]
    norm_num
  · rw [if_neg h, eq_zero_of_ne_one (fun h1 => h ((cmpi_eq_one_iff _ _).1 h1))]
    norm_num

/-- A select on an equality test with a constant word. -/
theorem select_cmpi_eq (tgt : IVec S128x1024 32) (w : BitVec 32) (g z : FVec Ideal S128x1024 .f32) (q : S128x1024.Idx) :
    select (cmpi .eq tgt (broadcast S128x1024 w)) g z q = if tgt q = w then g q else z q := by
  show Scalar.select (IntOp.cmpi .eq (tgt q) w) (g q) (z q) = _
  unfold Scalar.select
  exact if_congr (cmpi_eq_one_iff _ _) rfl rfl

/-- A small number's word is `w` exactly when the number is `w`'s. -/
theorem ofNat_eq_iff (n : ℕ) (hn : n < 128) (w : BitVec 32) : BitVec.ofNat 32 n = w ↔ n = w.toNat := by
  constructor
  · intro h
    rw [← h, BitVec.toNat_ofNat]
    omega
  · intro h
    apply BitVec.eq_of_toNat_eq
    rw [BitVec.toNat_ofNat, h]
    omega

/-- The lane indicator of the tile: one where the lane is `w`'s number. -/
theorem lane_ind (w : BitVec 32) (a : Fin 1) (r : Fin 8) (l : Fin 128) :
    bitf (F := Ideal) (cmpi .eq laneIota (broadcast S1x8x128 w)) (ix3 (n0 := 1) (n1 := 8) (n2 := 128) a r l)
      = ((if l.val = w.toNat then 1 else 0 : ℝ) : EReal) := by
  rw [bitf_cmpi_eq]
  congr 1
  refine if_congr ?_ rfl rfl
  show iota .tc S1x8x128 32 [2] Gen.iota_S1x8x128_d2_w32 (ix3 (n0 := 1) (n1 := 8) (n2 := 128) a r l) = w ↔ _
  rw [iota_single_apply]
  exact ofNat_eq_iff l.val l.isLt w

/-- The row-0 indicator of the tile. -/
theorem row0_ind (a : Fin 1) (r : Fin 8) (l : Fin 128) :
    Gen.k0_pay12 (F := Ideal) (ix3 (n0 := 1) (n1 := 8) (n2 := 128) a r l) = ((if r.val = 0 then 1 else 0 : ℝ) : EReal) := by
  show bitf (F := Ideal) (cmpi .eq (iota .tc S1x8x128 32 [1] Gen.iota_S1x8x128_d1_w32) (broadcast S1x8x128 0#32))
      (ix3 (n0 := 1) (n1 := 8) (n2 := 128) a r l) = _
  rw [bitf_cmpi_eq]
  congr 1
  refine if_congr ?_ rfl rfl
  show iota .tc S1x8x128 32 [1] Gen.iota_S1x8x128_d1_w32 (ix3 (n0 := 1) (n1 := 8) (n2 := 128) a r l) = 0#32 ↔ _
  rw [iota_single_apply]
  exact ofNat_eq_iff r.val (by have := r.isLt; omega) 0#32

/-- The row-1 indicator of the tile. -/
theorem row1_ind (a : Fin 1) (r : Fin 8) (l : Fin 128) :
    Gen.k0_pay13 (F := Ideal) (ix3 (n0 := 1) (n1 := 8) (n2 := 128) a r l) = ((if r.val = 1 then 1 else 0 : ℝ) : EReal) := by
  show bitf (F := Ideal) (cmpi .eq (iota .tc S1x8x128 32 [1] Gen.iota_S1x8x128_d1_w32) (broadcast S1x8x128 1#32))
      (ix3 (n0 := 1) (n1 := 8) (n2 := 128) a r l) = _
  rw [bitf_cmpi_eq]
  congr 1
  refine if_congr ?_ rfl rfl
  show iota .tc S1x8x128 32 [1] Gen.iota_S1x8x128_d1_w32 (ix3 (n0 := 1) (n1 := 8) (n2 := 128) a r l) = 1#32 ↔ _
  rw [iota_single_apply]
  exact ofNat_eq_iff r.val (by have := r.isLt; omega) 1#32

/-- A class slab read at a pixel of the block. -/
theorem sc_apply (l : Vec Ideal S1x1x128x1024 .f32) (q : S128x1024.Idx) :
    sc (F := Ideal) l q = l (ix4 (n0 := 1) (n1 := 1) (n2 := 128) (n3 := 1024) 0 0 (q 0) (q 1)) := by
  unfold sc
  refine shapeCast_apply _ _ q _ ?_
  rw [Shape.rowMajor_val_four, Shape.rowMajor_val_two]
  show ((0 * 1 + 0) * 128 + (q 0).val) * 1024 + (q 1).val = (q 0).val * 1024 + (q 1).val
  omega

/-- The count of the class's pixels, as the tile's reduction reads it. -/
theorem redAll_count (tgt : IVec S128x1024 32) (w : BitVec 32) (j : S1x8x128.Idx) :
    redAll (F := Ideal) (bitf (cmpi .eq tgt (broadcast S128x1024 w))) j = ((cntW tgt w : ℝ) : EReal) := by
  rw [redAll_apply, cntW, sum_idx2, coe_finset_sum]
  refine Finset.sum_congr rfl fun i _ => ?_
  rw [coe_finset_sum]
  refine Finset.sum_congr rfl fun k _ => ?_
  exact bitf_cmpi_eq _ _ _

/-- The sum of `slab - shift` over the class's pixels, as the tile's reduction reads it. -/
theorem redAll_sum (tgt : IVec S128x1024 32) (w : BitVec 32) (mbr : S128x1024.Idx → ℝ) (slr : S1x1x128x1024.Idx → ℝ)
    (j : S1x8x128.Idx) :
    redAll (F := Ideal) (select (cmpi .eq tgt (broadcast S128x1024 w))
        (subf (sc (F := Ideal) (fun y => ((slr y : ℝ) : EReal))) (fun q => ((mbr q : ℝ) : EReal)))
        (broadcast S128x1024 (Scalar.ofBits .f32 0x00000000#32))) j
      = ((sumW tgt w (fun q => slr (ix4 (n0 := 1) (n1 := 1) (n2 := 128) (n3 := 1024) 0 0 (q 0) (q 1)) - mbr q) : ℝ) : EReal) := by
  rw [redAll_apply, sumW, sum_idx2, coe_finset_sum]
  refine Finset.sum_congr rfl fun i _ => ?_
  rw [coe_finset_sum]
  refine Finset.sum_congr rfl fun k _ => ?_
  rw [select_cmpi_eq, ← ite_coe]
  refine if_congr Iff.rfl ?_ ?_
  · show sc (F := Ideal) (fun y => ((slr y : ℝ) : EReal)) (ix2 i k) - ((mbr (ix2 i k) : ℝ) : EReal) = _
    rw [sc_apply, EReal.coe_sub]
  · show Ideal.ofBits .f32 0x00000000#32 = _
    rw [Ideal.ofBits_zero_f32]
    rfl

/-- One class's step at entry `j` of the tile: what was there, plus the class's pixel count if `j` is in row 0 and its
    lane is the class, plus the class's sum of `slab - shift` over its pixels if `j` is in row 1 and its lane is the class.
    (`Gen.k0_pay12` / `Gen.k0_pay13` are the 0/1 floats of "row = 0" / "row = 1".) -/
theorem clsStep_real (w : BitVec 32) (hw : w.toNat < 128) (tgt : IVec S128x1024 32) (mbr : S128x1024.Idx → ℝ)
    (slr : S1x1x128x1024.Idx → ℝ) (u : S1x8x128.Idx → ℝ) (j : S1x8x128.Idx) :
    clsStep (F := Ideal) w tgt laneIota Gen.k0_pay12 Gen.k0_pay13 (fun q => ((mbr q : ℝ) : EReal)) (fun y => ((slr y : ℝ) : EReal))
        (fun j => ((u j : ℝ) : EReal)) j
      = ((u j + cntW tgt w * (if (j 2).val = w.toNat then 1 else 0) * (if (j 1).val = 0 then 1 else 0)
            + sumW tgt w (fun q => slr (ix4 (n0 := 1) (n1 := 1) (n2 := 128) (n3 := 1024) 0 0 (q 0) (q 1)) - mbr q)
                * (if (j 2).val = w.toNat then 1 else 0) * (if (j 1).val = 1 then 1 else 0) : ℝ) : EReal) := by
  obtain ⟨a, r, l, rfl⟩ : ∃ a r l, j = ix3 (n0 := 1) (n1 := 8) (n2 := 128) a r l := ⟨j 0, j 1, j 2, eq_ix3 j⟩
  have hL := lane_ind w a r l
  have h0 := row0_ind a r l
  have h1 := row1_ind a r l
  have hc := redAll_count tgt w (ix3 (n0 := 1) (n1 := 8) (n2 := 128) a r l)
  have hs := redAll_sum tgt w mbr slr (ix3 (n0 := 1) (n1 := 8) (n2 := 128) a r l)
  unfold clsStep
  rw [addf_apply, addf_apply, mulf_apply, mulf_apply, mulf_apply, mulf_apply, hc, hs, hL, h0, h1]
  rw [← EReal.coe_mul, ← EReal.coe_mul, ← EReal.coe_mul, ← EReal.coe_mul, ← EReal.coe_add, ← EReal.coe_add]

end Cert.KernelIdeal.KBody

end
-- ==== Proof.KMath1b.lean ====
/-
  All 19 class steps of the kernel body from the zero tile: the block's contribution to the accumulator tile.
-/
import proofs.«430136_j16260746182668_3_alg».proof.Proof.Spec
import proofs.«430136_j16260746182668_3_alg».proof.Proof.KDefs
import proofs.«430136_j16260746182668_3_alg».proof.Proof.Gen.KernelIdeal.Skeleton
import Idealize.ShloMosaic.Lib.ValueIdx
import Idealize.ShloMosaic.Lib.Pipeline.Value
import Idealize.ShloMosaic.PureOps.Ideal.Laws
import proofs.«430136_j16260746182668_3_alg».proof.Proof.KMath1a

noncomputable section

open scoped BigOperators

namespace Cert.KernelIdeal.KBody

open Cert.KernelIdeal Idealize.ShloMosaic Idealize.ShloMosaic.ValueIdx

/-- The two terms class `c` adds at entry `j` of the tile. -/
def clsTerm (tgt : IVec S128x1024 32) (mbr : S128x1024.Idx → ℝ) (slr : Fin 19 → S1x1x128x1024.Idx → ℝ) (c : Fin 19)
    (j : S1x8x128.Idx) : ℝ :=
  cntW tgt (BitVec.ofNat 32 c.val) * (if (j 2).val = c.val then 1 else 0) * (if (j 1).val = 0 then 1 else 0)
    + sumW tgt (BitVec.ofNat 32 c.val) (fun q => slr c (ix4 (n0 := 1) (n1 := 1) (n2 := 128) (n3 := 1024) 0 0 (q 0) (q 1)) - mbr q)
        * (if (j 2).val = c.val then 1 else 0) * (if (j 1).val = 1 then 1 else 0)

/-- A class's word is the class. -/
theorem toNat_cls (c : Fin 19) : (BitVec.ofNat 32 c.val).toNat = c.val := by
  rw [BitVec.toNat_ofNat]
  exact Nat.mod_eq_of_lt (by have := c.isLt; omega)

/-- The class steps over any list of classes, from any real tile: every class adds its two terms. -/
theorem updOf_list (tgt : IVec S128x1024 32) (mbr : S128x1024.Idx → ℝ) (slr : Fin 19 → S1x1x128x1024.Idx → ℝ)
    (cs : List (Fin 19)) (u : S1x8x128.Idx → ℝ) :
    updOf (F := Ideal) tgt laneIota Gen.k0_pay12 Gen.k0_pay13 (fun q => ((mbr q : ℝ) : EReal)) (fun j => ((u j : ℝ) : EReal))
        (cs.map fun c => ((BitVec.ofNat 32 c.val, fun y => ((slr c y : ℝ) : EReal)) : BitVec 32 × Vec Ideal S1x1x128x1024 .f32))
      = fun j => ((u j + (cs.map fun c => clsTerm tgt mbr slr c j).sum : ℝ) : EReal) := by
  induction cs generalizing u with
  | nil =>
    funext j
    show ((u j : ℝ) : EReal) = _
    simp
  | cons c cs ih =>
    have hstep : clsStep (F := Ideal) (BitVec.ofNat 32 c.val) tgt laneIota Gen.k0_pay12 Gen.k0_pay13
        (fun q => ((mbr q : ℝ) : EReal)) (fun y => ((slr c y : ℝ) : EReal)) (fun j => ((u j : ℝ) : EReal))
          = fun j => ((u j + clsTerm tgt mbr slr c j : ℝ) : EReal) := by
      funext j
      rw [clsStep_real (BitVec.ofNat 32 c.val) (by rw [toNat_cls]; have := c.isLt; omega) tgt mbr (slr c) u j, toNat_cls]
      unfold clsTerm
      rw [add_assoc]
    unfold updOf at ih ⊢
    rw [List.map_cons, List.foldl_cons]
    show List.foldl _ (clsStep (F := Ideal) (BitVec.ofNat 32 c.val) tgt laneIota Gen.k0_pay12 Gen.k0_pay13
        (fun q => ((mbr q : ℝ) : EReal)) (fun y => ((slr c y : ℝ) : EReal)) (fun j => ((u j : ℝ) : EReal))) _ = _
    rw [hstep, ih (fun j => u j + clsTerm tgt mbr slr c j)]
    funext j
    rw [List.map_cons, List.sum_cons, add_assoc]

/-- The zero tile. -/
theorem pay14_zero : Gen.k0_pay14 (F := Ideal) = fun _ : S1x8x128.Idx => (((0 : ℝ) : ℝ) : EReal) := by
  funext j
  show Ideal.ofBits .f32 0x00000000#32 = _
  rw [Ideal.ofBits_zero_f32, EReal.coe_zero]

/-- The indicator of the lane picks the class of the lane, if there is one. -/
theorem sum_lane (A B : Fin 19 → ℝ) (l r : Nat) :
    ∑ c : Fin 19, (A c * (if l = c.val then 1 else 0) * (if r = 0 then 1 else 0)
        + B c * (if l = c.val then 1 else 0) * (if r = 1 then 1 else 0))
      = if h : l < 19 then (if r = 0 then A ⟨l, h⟩ else if r = 1 then B ⟨l, h⟩ else 0) else 0 := by
  by_cases h : l < 19
  · rw [dif_pos h, Finset.sum_eq_single (⟨l, h⟩ : Fin 19)]
    · rw [if_pos rfl]
      by_cases h0 : r = 0
      · rw [if_pos h0, if_pos h0, if_neg (by omega)]; ring
      · by_cases h1 : r = 1
        · rw [if_neg h0, if_neg h0, if_pos h1, if_pos h1]; ring
        · rw [if_neg h0, if_neg h0, if_neg h1, if_neg h1]; ring
    · intro c _ hc
      have hne : ¬ l = c.val := fun e => hc (Fin.ext e.symm)
      rw [if_neg hne]; ring
    · intro hn; exact absurd (Finset.mem_univ _) hn
  · rw [dif_neg h]
    refine Finset.sum_eq_zero fun c _ => ?_
    have hne : ¬ l = c.val := by have := c.isLt; omega
    rw [if_neg hne]; ring

/-- Over a block of real logits `x0` (class slabs `sl`, shift `mb`) and labels `x1` (`tgt`), the 19 class steps from the zero
    tile leave the block's contribution `Spec.Ublk`: row 0 the counts per class, row 1 the log-probability sums, lanes ≥ 19
    and rows ≥ 2 zero. -/
theorem updOf_real (x0 : Cert.Spec.BX.Idx → ℝ) (x1 : Cert.Spec.BT.Idx → BitVec 32)
    (tgt : IVec S128x1024 32) (htgt : ∀ q : S128x1024.Idx, tgt q = Cert.Spec.blkT x1 q)
    (mb : FVec Ideal S128x1024 .f32)
    (hmb : ∀ q : S128x1024.Idx, mb q
      = ((Cert.Spec.vmax (Cert.Spec.blkLogits x0 q) + Real.log (Cert.Spec.vsum (Cert.Spec.blkLogits x0 q)) : ℝ) : EReal))
    (sl : Fin 19 → Vec Ideal S1x1x128x1024 .f32)
    (hsl : ∀ (c : Fin 19) (y : S1x1x128x1024.Idx), sl c y = ((x0 (Idealize.ShloMosaic.ValueIdx.ix4 (n0 := 1) (n1 := 19) (n2 := 128) (n3 := 1024) 0 c (y 2) (y 3)) : ℝ) : EReal))
    (j : S1x8x128.Idx) :
    updOf (F := Ideal) tgt laneIota Gen.k0_pay12 Gen.k0_pay13 mb Gen.k0_pay14
        (List.ofFn fun c : Fin 19 => (BitVec.ofNat 32 c.val, sl c)) j
      = ((Cert.Spec.Ublk x0 x1 j : ℝ) : EReal) := by
  have hmb' : mb = fun q => ((Cert.Spec.vmax (Cert.Spec.blkLogits x0 q) + Real.log (Cert.Spec.vsum (Cert.Spec.blkLogits x0 q)) : ℝ) : EReal) :=
    funext hmb
  have hsl' : sl = fun c => fun y => ((x0 (ix4 (n0 := 1) (n1 := 19) (n2 := 128) (n3 := 1024) 0 c (y 2) (y 3)) : ℝ) : EReal) :=
    funext fun c => funext (hsl c)
  have htgt' : tgt = Cert.Spec.blkT x1 := funext htgt
  subst hmb' hsl' htgt'
  rw [pay14_zero, List.ofFn_eq_map]
  rw [updOf_list (Cert.Spec.blkT x1)
    (fun q => Cert.Spec.vmax (Cert.Spec.blkLogits x0 q) + Real.log (Cert.Spec.vsum (Cert.Spec.blkLogits x0 q)))
    (fun c y => x0 (ix4 (n0 := 1) (n1 := 19) (n2 := 128) (n3 := 1024) 0 c (y 2) (y 3))) (List.finRange 19) (fun _ => 0)]
  show (((0 : ℝ) + _ : ℝ) : EReal) = _
  rw [zero_add, ← Fin.sum_univ_def]
  unfold clsTerm
  rw [sum_lane]
  rfl

end Cert.KernelIdeal.KBody

end
-- ==== Proof.KMath2.lean ====
/-
  The kernel body's shift `max + log ∑ exp (· - max)` over the 19 class slabs of a block of real logits.
-/
import proofs.«430136_j16260746182668_3_alg».proof.Proof.Spec
import proofs.«430136_j16260746182668_3_alg».proof.Proof.KDefs
import proofs.«430136_j16260746182668_3_alg».proof.Proof.Algebra
import proofs.«430136_j16260746182668_3_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.KBody

open Cert.KernelIdeal Idealize.ShloMosaic Idealize.ShloMosaic.ValueIdx

/-- A coerced finite sum of reals is the sum of the coerced reals. -/
theorem coe_finset_sum' {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A class slab as a [128,1024] vector reads, at pixel `q`, the slab at `(0, 0, q 0, q 1)`. -/
theorem sc_at (l : Vec Ideal S1x1x128x1024 .f32) (q : S128x1024.Idx) :
    sc (F := Ideal) l q = l (ix4 (n0 := 1) (n1 := 1) (n2 := 128) (n3 := 1024) 0 0 (q 0) (q 1)) := by
  unfold sc
  exact shapeCast_apply l Gen.shapeCasts_S1x1x128x1024_S128x1024 q _
    (by rewrite [Shape.rowMajor_val_four, Shape.rowMajor_val_two]
        show (((0 : Nat) * 1 + 0) * 128 + (q 0).val) * 1024 + (q 1).val = (q 0).val * 1024 + (q 1).val
        omega)

/-- The running maximum read at a pixel is the running maximum of the slabs' values there. -/
theorem foldl_max_apply (ls : List (Vec Ideal S1x1x128x1024 .f32)) (a0 : FVec Ideal S128x1024 .f32) (q : S128x1024.Idx) :
    (ls.foldl (fun a l => maximumf a (sc l)) a0) q = ls.foldl (fun (a : EReal) l => max a (sc (F := Ideal) l q)) (a0 q) := by
  induction ls generalizing a0 with
  | nil => rfl
  | cons l ls ih => rw [List.foldl_cons, List.foldl_cons, ih]; rfl

/-- The running sum of exponentials read at a pixel is the running sum of the exponentials there. -/
theorem foldl_se_apply (M : FVec Ideal S128x1024 .f32) (ls : List (Vec Ideal S1x1x128x1024 .f32)) (a0 : FVec Ideal S128x1024 .f32)
    (q : S128x1024.Idx) :
    (ls.foldl (fun a l => addf a (exp (subf (sc l) M))) a0) q
      = ls.foldl (fun (a : EReal) l => a + Ideal.exp (sc (F := Ideal) l q - M q)) (a0 q) := by
  induction ls generalizing a0 with
  | nil => rfl
  | cons l ls ih => rw [List.foldl_cons, List.foldl_cons, ih]; rfl

/-- A left fold of a commutative associative operation over the list of a function's values is the fold over the index set. -/
theorem foldl_ofFn_eq_fold {α : Type} (op : α → α → α) [Std.Commutative op] [Std.Associative op] {n : Nat} (f : Fin n → α) (b : α) :
    (List.ofFn f).foldl op b = (Finset.univ : Finset (Fin n)).fold op b f := by
  show _ = Multiset.fold op b ((Finset.univ : Finset (Fin n)).val.map f)
  rw [Fin.univ_val_map, Multiset.coe_fold_l]

/-- At pixel `q` of a block of real logits `x0`, whose class slabs are `sl`, the body's shift is the pixel's
    `max + log ∑ exp (logit - max)`. -/
theorem mbOf_real (x0 : Cert.Spec.BX.Idx → ℝ) (sl : Fin 19 → Vec Ideal S1x1x128x1024 .f32)
    (hsl : ∀ (c : Fin 19) (y : S1x1x128x1024.Idx), sl c y = ((x0 (Idealize.ShloMosaic.ValueIdx.ix4 (n0 := 1) (n1 := 19) (n2 := 128) (n3 := 1024) 0 c (y 2) (y 3)) : ℝ) : EReal))
    (q : S128x1024.Idx) :
    mbOf (F := Ideal) (List.ofFn sl) q
      = ((Cert.Spec.vmax (Cert.Spec.blkLogits x0 q) + Real.log (Cert.Spec.vsum (Cert.Spec.blkLogits x0 q)) : ℝ) : EReal) := by
  have hsc : ∀ c, sc (F := Ideal) (sl c) q = ((Cert.Spec.blkLogits x0 q c : ℝ) : EReal) := by
    intro c
    rw [sc_at, hsl]
    rfl
  have hbot : Ideal.ofBits .f32 0xFF800000#32 = ⊥ := by simp [Ideal.ofBits, Ideal.ieee]
  have hM : mxOf (F := Ideal) (List.ofFn sl) q = ((Cert.Spec.vmax (Cert.Spec.blkLogits x0 q) : ℝ) : EReal) := by
    unfold mxOf
    rw [foldl_max_apply]
    show (List.ofFn sl).foldl (fun (a : EReal) l => max a (sc (F := Ideal) l q)) (Ideal.ofBits .f32 0xFF800000#32) = _
    rw [hbot, ← List.foldl_map (f := fun l => sc (F := Ideal) l q) (g := max), List.map_ofFn, foldl_ofFn_eq_fold,
      ← Cert.Spec.vmax_coe_fold]
    congr 1
    funext c
    exact hsc c
  have hS : seOf (F := Ideal) (mxOf (List.ofFn sl)) (List.ofFn sl) q
      = ((Cert.Spec.vsum (Cert.Spec.blkLogits x0 q) : ℝ) : EReal) := by
    unfold seOf
    rw [foldl_se_apply, hM]
    show (List.ofFn sl).foldl (fun (a : EReal) l => a + Ideal.exp (sc (F := Ideal) l q - _)) (Ideal.ofBits .f32 0x00000000#32) = _
    rw [Ideal.ofBits_zero_f32,
      ← List.foldl_map (f := fun l => Ideal.exp (sc (F := Ideal) l q - ((Cert.Spec.vmax (Cert.Spec.blkLogits x0 q) : ℝ) : EReal))) (g := (· + ·)),
      List.map_ofFn, ← List.sum_eq_foldl, List.sum_ofFn]
    unfold Cert.Spec.vsum
    rw [coe_finset_sum']
    refine Finset.sum_congr rfl fun c _ => ?_
    show Ideal.exp (sc (F := Ideal) (sl c) q - _) = _
    rw [hsc c, ← EReal.coe_sub, Ideal.exp_coe]
  show mxOf (F := Ideal) (List.ofFn sl) q + Ideal.log (seOf (F := Ideal) (mxOf (List.ofFn sl)) (List.ofFn sl) q) = _
  rw [hM, hS, Ideal.log_coe, if_neg (not_le.2 (Cert.Spec.vsum_pos _)), ← EReal.coe_add]

end Cert.KernelIdeal.KBody

end
-- ==== Proof.KBridge.lean ====
/-
  The generated run of the kernel body names the values it computes; those values are the body's arithmetic of
  KDefs.lean applied to the 19 class slabs loaded from the logits block and to the label block — by unfolding, for each
  of the two control cases — and, over real logits, the class steps leave the block's contribution to the tile.
-/
import proofs.«430136_j16260746182668_3_alg».proof.Proof.Spec
import proofs.«430136_j16260746182668_3_alg».proof.Proof.KDefs
import proofs.«430136_j16260746182668_3_alg».proof.Proof.KMath1b
import proofs.«430136_j16260746182668_3_alg».proof.Proof.KMath2
import proofs.«430136_j16260746182668_3_alg».proof.Proof.Gen.KernelIdeal.Frame
import Idealize.ShloMosaic.Lib.Pipeline.Value

set_option maxRecDepth 16384

noncomputable section

namespace Cert.KernelIdeal.KBody

open Cert.KernelIdeal Cert.KernelIdeal.Gen Idealize.ShloMosaic Idealize.ShloMosaic.TcCoe Idealize.ShloMosaic.ValueIdx

variable {F : FTy → Type} [FloatOps F]

/-- Class `c`'s slab lies inside the logits block. -/
theorem slab_inb (c : Fin 19) : ∀ a, (![0, c.val, 0, 0] : Fin 4 → Nat) a + S1x1x128x1024.size a ≤ S1x19x128x1024.size a := by
  intro a
  have hc := c.isLt
  fin_cases a
  · show 0 + 1 ≤ 1; omega
  · show c.val + 1 ≤ 19; omega
  · show 0 + 128 ≤ 128; omega
  · show 0 + 1024 ≤ 1024; omega

/-- Class `c`'s slab [1,1,128,1024] as the body loads it from the staging buffer holding the block `x0`. -/
def slab (arg2 : Memref sig .tc .vmem S1x19x128x1024 .f32) (harg2 : arg2.IsWhole) (x0 : Vec F S1x19x128x1024 .f32) (c : Fin 19) :
    Vec F S1x1x128x1024 .f32 :=
  View.readAt (Elt F) arg2.view (Rect.unit (s := S1x19x128x1024) ![0, c.val, 0, 0] S1x1x128x1024.size (slab_inb c)).toLoadRect
    (harg2.unread x0)

/-- The 19 slabs in class order; the same paired with the class words. -/
def slabs (arg2 : Memref sig .tc .vmem S1x19x128x1024 .f32) (harg2 : arg2.IsWhole) (x0 : Vec F S1x19x128x1024 .f32) :
    List (Vec F S1x1x128x1024 .f32) := List.ofFn (slab arg2 harg2 x0)
def clss (arg2 : Memref sig .tc .vmem S1x19x128x1024 .f32) (harg2 : arg2.IsWhole) (x0 : Vec F S1x19x128x1024 .f32) :
    List (BitVec 32 × Vec F S1x1x128x1024 .f32) := List.ofFn (fun c : Fin 19 => (BitVec.ofNat 32 c.val, slab arg2 harg2 x0 c))

/-! ## The run's named values are the body's arithmetic (both control cases) -/

set_option maxHeartbeats 4000000 in
theorem mbB (c : Dev nD) (arg2 : Memref sig .tc .vmem S1x19x128x1024 .f32) (harg2 : arg2.IsWhole) (x0 : Vec F S1x19x128x1024 .f32) :
    kernelRun0_B.sl.r_9 c arg2 harg2 x0 = mbOf (slabs arg2 harg2 x0) := rfl

set_option maxHeartbeats 4000000 in
theorem updB (c : Dev nD) (arg2 : Memref sig .tc .vmem S1x19x128x1024 .f32) (harg2 : arg2.IsWhole)
    (arg3 : Memref sig .tc .vmem S1x128x1024 .i32) (harg3 : arg3.IsWhole) (x0 : Vec F S1x19x128x1024 .f32) (x1 : Vec F S1x128x1024 .i32) :
    kernelRun0_B.sl.r_49 c arg2 harg2 arg3 harg3 x0 x1
      = updOf (kernelRun0_B.sl.r_10 c arg3 harg3 x1) laneIota k0_pay12 k0_pay13 (kernelRun0_B.sl.r_9 c arg2 harg2 x0) k0_pay14
          (clss arg2 harg2 x0) := rfl

set_option maxHeartbeats 4000000 in
theorem mbA (c : Dev nD) (arg2 : Memref sig .tc .vmem S1x19x128x1024 .f32) (harg2 : arg2.IsWhole) (x0 : Vec F S1x19x128x1024 .f32) :
    kernelRun0_A.sl.r_9 c arg2 harg2 x0 = mbOf (slabs arg2 harg2 x0) := rfl

set_option maxHeartbeats 4000000 in
theorem updA (c : Dev nD) (arg2 : Memref sig .tc .vmem S1x19x128x1024 .f32) (harg2 : arg2.IsWhole)
    (arg3 : Memref sig .tc .vmem S1x128x1024 .i32) (harg3 : arg3.IsWhole) (x0 : Vec F S1x19x128x1024 .f32) (x1 : Vec F S1x128x1024 .i32) :
    kernelRun0_A.sl.r_49 c arg2 harg2 arg3 harg3 x0 x1
      = updOf (kernelRun0_A.sl.r_10 c arg3 harg3 x1) laneIota k0_pay12 k0_pay13 (kernelRun0_A.sl.r_9 c arg2 harg2 x0) k0_pay14
          (clss arg2 harg2 x0) := rfl

/-! ## The loads, read at an index -/

theorem hz3 : (![0, 0, 0] : Fin 3 → Nat) = fun _ => 0 := funext fun a => by fin_cases a <;> rfl

/-- A slab entry is the block's entry at the slab's class. -/
theorem slab_apply (arg2 : Memref sig .tc .vmem S1x19x128x1024 .f32) (harg2 : arg2.IsWhole) (x0 : Vec F S1x19x128x1024 .f32)
    (c : Fin 19) (y : S1x1x128x1024.Idx) :
    slab arg2 harg2 x0 c y = x0 (ix4 (n0 := 1) (n1 := 19) (n2 := 128) (n3 := 1024) 0 c (y 2) (y 3)) := by
  unfold slab
  rw [View.readAt_eq_ld, harg2.read_unread]
  show x0 _ = x0 _
  congr 1
  funext a
  apply Fin.ext
  have h0 : (y 0).val < 1 := (y 0).isLt
  have h1 : (y 1).val < 1 := (y 1).isLt
  match a with
  | ⟨0, _⟩ => show 0 + 1 * (y 0).val = 0; omega
  | ⟨1, _⟩ => show c.val + 1 * (y 1).val = c.val; omega
  | ⟨2, _⟩ => show 0 + 1 * (y 2).val = (y 2).val; omega
  | ⟨3, _⟩ => show 0 + 1 * (y 3).val = (y 3).val; omega

end Cert.KernelIdeal.KBody

end
-- ==== Proof.KBody.lean ====
/-
  One grid point of the kernel: what the body leaves in the accumulator tile.

  The body's single covering store writes `held + update`, where `held` is what the tile held (at a first row tile: the
  zero tile the body has just stored and reads back) and `update` is the result of the 19 class steps from the zero tile.
  Over a block of real logits the update is the block's contribution: per class the pixel count in row 0 and the sum of
  log-probabilities in row 1.
-/
import proofs.«430136_j16260746182668_3_alg».proof.Proof.Spec
import proofs.«430136_j16260746182668_3_alg».proof.Proof.KBridge
import proofs.«430136_j16260746182668_3_alg».proof.Proof.Gen.KernelIdeal.Frame

set_option maxRecDepth 16384

noncomputable section

namespace Cert.KernelIdeal.KBody

open Cert.KernelIdeal Cert.KernelIdeal.Gen Idealize.ShloMosaic Idealize.ShloMosaic.TcCoe Idealize.SL.Sem
open Idealize.ShloMosaic.ValueIdx Idealize.ShloMosaic.Tactic

/-- The label block as the body holds it ([128,1024]) is the block's labels pixel by pixel. -/
theorem labels_apply (v159 : Vec Ideal S1x128x1024 .i32) (q : S128x1024.Idx) :
    k0_pay11 (F := Ideal) v159 q = Cert.Spec.blkT v159 q := by
  unfold k0_pay11
  exact shapeCast_apply v159 Gen.shapeCasts_S1x128x1024_S128x1024 q _
    (by rewrite [Shape.rowMajor_val_three, Shape.rowMajor_val_two]
        show ((0 : Nat) * 128 + (q 0).val) * 1024 + (q 1).val = (q 0).val * 1024 + (q 1).val
        omega)

/-- Over a block of real logits the class steps of case B leave the block's contribution. -/
theorem updB_real (c : Dev nD) (arg2 : Memref sig .tc .vmem S1x19x128x1024 .f32) (harg2 : arg2.IsWhole)
    (arg3 : Memref sig .tc .vmem S1x128x1024 .i32) (harg3 : arg3.IsWhole) (x0 : Cert.Spec.BX.Idx → ℝ) (x1 : Vec Ideal S1x128x1024 .i32)
    (j : S1x8x128.Idx) :
    kernelRun0_B.sl.r_49 (F := Ideal) c arg2 harg2 arg3 harg3 (fun k => ((x0 k : ℝ) : EReal)) x1 j
      = ((Cert.Spec.Ublk x0 x1 j : ℝ) : EReal) := by
  rw [updB]
  refine updOf_real x0 x1 _ (fun q => ?_) _ (fun q => ?_) (slab arg2 harg2 (fun k => ((x0 k : ℝ) : EReal))) (fun c y => ?_) j
  · unfold kernelRun0_B.sl.r_10
    rw [View.readAt_eq_ld, harg3.read_unread, View.ld_unit_zero (S := S1x128x1024) hz3]
    exact labels_apply x1 q
  · rw [mbB]
    exact mbOf_real x0 (slab arg2 harg2 (fun k => ((x0 k : ℝ) : EReal))) (fun c y => slab_apply arg2 harg2 _ c y) q
  · exact slab_apply arg2 harg2 _ c y

/-- The same in case A. -/
theorem updA_real (c : Dev nD) (arg2 : Memref sig .tc .vmem S1x19x128x1024 .f32) (harg2 : arg2.IsWhole)
    (arg3 : Memref sig .tc .vmem S1x128x1024 .i32) (harg3 : arg3.IsWhole) (x0 : Cert.Spec.BX.Idx → ℝ) (x1 : Vec Ideal S1x128x1024 .i32)
    (j : S1x8x128.Idx) :
    kernelRun0_A.sl.r_49 (F := Ideal) c arg2 harg2 arg3 harg3 (fun k => ((x0 k : ℝ) : EReal)) x1 j
      = ((Cert.Spec.Ublk x0 x1 j : ℝ) : EReal) := by
  rw [updA]
  refine updOf_real x0 x1 _ (fun q => ?_) _ (fun q => ?_) (slab arg2 harg2 (fun k => ((x0 k : ℝ) : EReal))) (fun c y => ?_) j
  · unfold kernelRun0_A.sl.r_10
    rw [View.readAt_eq_ld, harg3.read_unread, View.ld_unit_zero (S := S1x128x1024) hz3]
    exact labels_apply x1 q
  · rw [mbA]
    exact mbOf_real x0 (slab arg2 harg2 (fun k => ((x0 k : ℝ) : EReal))) (fun c y => slab_apply arg2 harg2 _ c y) q
  · exact slab_apply arg2 harg2 _ c y

/-- At the first row tile of a batch the body resets the tile and leaves the block's contribution. -/
theorem out_A (c : Dev nD) (i : grid0.Coords) (arg2 : Memref sig .tc .vmem S1x19x128x1024 .f32) (harg2 : arg2.IsWhole)
    (arg3 : Memref sig .tc .vmem S1x128x1024 .i32) (harg3 : arg3.IsWhole) (arg4 : Memref sig .tc .vmem S1x8x128 .f32) (harg4 : arg4.IsWhole)
    (hc0 : cond0_0 i) (x0 : Cert.Spec.BX.Idx → ℝ) (x1 : Vec Ideal S1x128x1024 .i32) :
    out0_A_2 (F := Ideal) c i arg2 harg2 arg3 harg3 arg4 harg4 hc0 (fun k => ((x0 k : ℝ) : EReal)) x1
      = fun j => ((Cert.Spec.Ublk x0 x1 j : ℝ) : EReal) := by
  unfold out0_A_2
  rw [View.read_writes_eq_canon _ _ _ (cover0_A_2 c i arg2 harg2 arg3 harg3 arg4 harg4 hc0 _ x1)]
  unfold kernelRun0_A
  dsimp only
  rw [View.canon_cons_unit_zero (S := S1x8x128) hz3]
  funext j
  show (kernelRun0_A.sl.r_50 (F := Ideal) c arg4 j) + kernelRun0_A.sl.r_49 (F := Ideal) c arg2 harg2 arg3 harg3 _ x1 j = _
  rw [updA_real]
  have hheld : kernelRun0_A.sl.r_50 (F := Ideal) c arg4 j = ((0 : ℝ) : EReal) := by
    unfold kernelRun0_A.sl.r_50 kernelRun0_A.sl.v761
    sl_unfold_words
    rw [View.readCov_unit_zero (S := S1x8x128) _ hz3]
    unfold k0_pay70 k0_pay2
    rw [shapeCast_self]
    show Ideal.ofBits .f32 0x00000000#32 = _
    rw [Ideal.ofBits_zero_f32]; rfl
  rw [hheld, ← EReal.coe_add, zero_add]

/-- At the other row tiles it adds the block's contribution to what the tile held. -/
theorem out_B (c : Dev nD) (i : grid0.Coords) (arg2 : Memref sig .tc .vmem S1x19x128x1024 .f32) (harg2 : arg2.IsWhole)
    (arg3 : Memref sig .tc .vmem S1x128x1024 .i32) (harg3 : arg3.IsWhole) (arg4 : Memref sig .tc .vmem S1x8x128 .f32) (harg4 : arg4.IsWhole)
    (hc0 : ¬cond0_0 i) (x0 : Cert.Spec.BX.Idx → ℝ) (x1 : Vec Ideal S1x128x1024 .i32) (xo : Cert.Spec.BO.Idx → ℝ) :
    out0_B_2 (F := Ideal) c i arg2 harg2 arg3 harg3 arg4 harg4 hc0 (fun k => ((x0 k : ℝ) : EReal)) x1 (fun j => ((xo j : ℝ) : EReal))
      = fun j => ((xo j + Cert.Spec.Ublk x0 x1 j : ℝ) : EReal) := by
  unfold out0_B_2
  rw [View.read_writes_eq_canon _ _ _ (cover0_B_2 c i arg2 harg2 arg3 harg3 arg4 harg4 hc0 _ x1 _)]
  unfold kernelRun0_B
  dsimp only
  rw [View.canon_unit_zero hz3]
  funext j
  show (kernelRun0_B.sl.r_50 (F := Ideal) c arg4 harg4 _ j) + kernelRun0_B.sl.r_49 (F := Ideal) c arg2 harg2 arg3 harg3 _ x1 j = _
  rw [updB_real]
  have hheld : kernelRun0_B.sl.r_50 (F := Ideal) c arg4 harg4 (fun j => ((xo j : ℝ) : EReal)) j = ((xo j : ℝ) : EReal) := by
    unfold kernelRun0_B.sl.r_50 k0_pay70
    rw [shapeCast_self, View.readAt_eq_ld, harg4.read_unread, View.ld_unit_zero (S := S1x8x128) hz3]
  rw [hheld, ← EReal.coe_add]

end Cert.KernelIdeal.KBody

end
-- ==== Proof.KAcc.lean ====
/-
  The kernel's accumulator array after the grid: per batch, the sum over the four row tiles of the blocks' contributions.
-/
import proofs.«430136_j16260746182668_3_alg».proof.Proof.KBody
import Idealize.ShloMosaic.Lib.Pipeline.Value

noncomputable section

namespace Cert.KernelIdeal.KAcc

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Grid point `t` is batch `t / 4`, row tile `t % 4`. -/
def bOf (t : Fin cfg0.N) : Fin 8 := ⟨t.val / 4, by have h : t.val < 32 := lt_of_lt_of_eq t.isLt (show cfg0.N = 32 from N_0); omega⟩
def hqOf (t : Fin cfg0.N) : Fin 4 := ⟨t.val % 4, by omega⟩

/-- The windows' block indices at every grid point: the logits window is at (batch, 0, row tile, 0), the label window at
    (batch, row tile, 0), the accumulator window at (batch, 0, 0). -/
theorem idx_facts : ∀ t : Fin cfg0.N,
    (win0_0.index t 0 = t.val / 4 ∧ win0_0.index t 1 = 0 ∧ win0_0.index t 2 = t.val % 4 ∧ win0_0.index t 3 = 0)
    ∧ (win0_1.index t 0 = t.val / 4 ∧ win0_1.index t 1 = t.val % 4 ∧ win0_1.index t 2 = 0)
    ∧ (win0_2.index t 0 = t.val / 4 ∧ win0_2.index t 1 = 0 ∧ win0_2.index t 2 = 0) :=
  (by decide +kernel : ∀ t : Fin grid0.N,
    (win0_0.index t 0 = t.val / 4 ∧ win0_0.index t 1 = 0 ∧ win0_0.index t 2 = t.val % 4 ∧ win0_0.index t 3 = 0)
    ∧ (win0_1.index t 0 = t.val / 4 ∧ win0_1.index t 1 = t.val % 4 ∧ win0_1.index t 2 = 0)
    ∧ (win0_2.index t 0 = t.val / 4 ∧ win0_2.index t 1 = 0 ∧ win0_2.index t 2 = 0))

/-- The logits window's block at point `t` is block (batch, row tile) of the logits array. -/
theorem iblk0_eq (c : Dev nD) (x : Cert.Spec.SX.Idx → ℝ)
    (hx : m ((c.tc : Thread nD τ).loc main_arg0) = fun i => ((x i : ℝ) : EReal)) (t : Fin cfg0.N) :
    (iblk m c 0 t : Vec Ideal S1x19x128x1024 .f32) = fun k => ((Cert.Spec.blockX x (bOf t) (hqOf t) k : ℝ) : EReal) := by
  obtain ⟨⟨h0, h1, h2, h3⟩, -, -⟩ := idx_facts t
  funext k
  unfold iblk
  rw [View.read_apply]
  show V m c main_arg0 _ = _
  rw [V_main_arg0, hx]
  unfold Cert.Spec.blockX
  congr 2
  funext a
  apply Fin.ext
  have k0 : (k 0).val < 1 := (k 0).isLt
  match a with
  | ⟨0, _⟩ => show win0_0.index t 0 * 1 + 1 * (k 0).val = t.val / 4; rw [h0]; omega
  | ⟨1, _⟩ => show win0_0.index t 1 * 19 + 1 * (k 1).val = (k 1).val; rw [h1]; omega
  | ⟨2, _⟩ => show win0_0.index t 2 * 128 + 1 * (k 2).val = 128 * (t.val % 4) + (k 2).val; rw [h2]; omega
  | ⟨3, _⟩ => show win0_0.index t 3 * 1024 + 1 * (k 3).val = (k 3).val; rw [h3]; omega

/-- The label window's block likewise. -/
theorem iblk1_eq (c : Dev nD) (t : Fin cfg0.N) :
    (iblk m c 1 t : Vec Ideal S1x128x1024 .i32) = Cert.Spec.blockT (m ((c.tc : Thread nD τ).loc main_arg1)) (bOf t) (hqOf t) := by
  obtain ⟨-, ⟨h0, h1, h2⟩, -⟩ := idx_facts t
  funext k
  unfold iblk
  rw [View.read_apply]
  show V m c main_arg1 _ = _
  rw [V_main_arg1]
  unfold Cert.Spec.blockT
  congr 1
  funext a
  apply Fin.ext
  have k0 : (k 0).val < 1 := (k 0).isLt
  match a with
  | ⟨0, _⟩ => show win0_1.index t 0 * 1 + 1 * (k 0).val = t.val / 4; rw [h0]; omega
  | ⟨1, _⟩ => show win0_1.index t 1 * 128 + 1 * (k 1).val = 128 * (t.val % 4) + (k 1).val; rw [h1]; omega
  | ⟨2, _⟩ => show win0_1.index t 2 * 1024 + 1 * (k 2).val = (k 2).val; rw [h2]; omega

/-! ## The tile after each grid point -/

/-- What grid point `n` (batch `n / 4`, row tile `n % 4`) adds to the accumulator tile. -/
def contrib (x : Cert.Spec.SX.Idx → ℝ) (tl : Cert.Spec.ST.Idx → BitVec 32) (n : ℕ) : Cert.Spec.BO.Idx → ℝ :=
  Cert.Spec.Ublk (Cert.Spec.blockX x ⟨n / 4 % 8, Nat.mod_lt _ (by norm_num)⟩ ⟨n % 4, Nat.mod_lt _ (by norm_num)⟩)
    (Cert.Spec.blockT tl ⟨n / 4 % 8, Nat.mod_lt _ (by norm_num)⟩ ⟨n % 4, Nat.mod_lt _ (by norm_num)⟩)

theorem contrib_eq (x : Cert.Spec.SX.Idx → ℝ) (tl : Cert.Spec.ST.Idx → BitVec 32) (t : Fin cfg0.N) :
    contrib x tl t.val
      = Cert.Spec.Ublk (Cert.Spec.blockX x (bOf t) (hqOf t)) (Cert.Spec.blockT tl (bOf t) (hqOf t)) := by
  have hN : t.val < 32 := lt_of_lt_of_eq t.isLt (show cfg0.N = 32 from N_0)
  have hb : (⟨t.val / 4 % 8, Nat.mod_lt _ (by norm_num)⟩ : Fin 8) = bOf t :=
    Fin.ext (by show t.val / 4 % 8 = t.val / 4; omega)
  unfold contrib
  rw [hb]
  rfl

/-- The tile after point `n`: the point's contribution at the first row tile of a batch, added to what the point before
    left at the others. -/
def run (x : Cert.Spec.SX.Idx → ℝ) (tl : Cert.Spec.ST.Idx → BitVec 32) : ℕ → Cert.Spec.BO.Idx → ℝ
  | 0 => contrib x tl 0
  | n + 1 => if (n + 1) % 4 = 0 then contrib x tl (n + 1) else fun j => run x tl n j + contrib x tl (n + 1) j

theorem run_reset (x : Cert.Spec.SX.Idx → ℝ) (tl : Cert.Spec.ST.Idx → BitVec 32) (n : ℕ) (h : n % 4 = 0) :
    run x tl n = contrib x tl n := by
  cases n with
  | zero => rfl
  | succ k => show (if (k + 1) % 4 = 0 then _ else _) = _; rw [if_pos h]

theorem run_step (x : Cert.Spec.SX.Idx → ℝ) (tl : Cert.Spec.ST.Idx → BitVec 32) (n : ℕ) (h : ¬(n + 1) % 4 = 0) :
    run x tl (n + 1) = fun j => run x tl n j + contrib x tl (n + 1) j := by
  show (if (n + 1) % 4 = 0 then _ else _) = _; rw [if_neg h]

/-- After the last row tile of batch `b` the tile holds the four row tiles' contributions added. -/
theorem run_last (x : Cert.Spec.SX.Idx → ℝ) (tl : Cert.Spec.ST.Idx → BitVec 32) (b : ℕ) :
    run x tl (4 * b + 3)
      = fun j => contrib x tl (4 * b) j + contrib x tl (4 * b + 1) j + contrib x tl (4 * b + 2) j + contrib x tl (4 * b + 3) j := by
  rw [run_step x tl (4 * b + 2) (by omega), run_step x tl (4 * b + 1) (by omega), run_step x tl (4 * b) (by omega),
    run_reset x tl (4 * b) (by omega)]

/-- At a first row tile the body leaves the point's contribution, -/
theorem step_A (c : Dev nD) (x : Cert.Spec.SX.Idx → ℝ)
    (hx : m ((c.tc : Thread nD τ).loc main_arg0) = fun i => ((x i : ℝ) : EReal)) (t : Fin cfg0.N) (h0 : t.val % 4 = 0) :
    outsAt0 m c t.val t.isLt
      = fun j => ((contrib x (m ((c.tc : Thread nD τ).loc main_arg1)) t.val j : ℝ) : EReal) := by
  rw [outsAt0_A m c t h0, iblk0_eq m c x hx t, iblk1_eq m c t, KBody.out_A, ← contrib_eq]

/-- at another it adds the point's contribution to what the point before left. -/
theorem step_B (c : Dev nD) (x : Cert.Spec.SX.Idx → ℝ)
    (hx : m ((c.tc : Thread nD τ).loc main_arg0) = fun i => ((x i : ℝ) : EReal)) (t : Fin cfg0.N) (h0 : ¬t.val % 4 = 0)
    (xo : Cert.Spec.BO.Idx → ℝ)
    (hprev : outsAt0 m c (t.val - 1) (Nat.lt_of_le_of_lt (Nat.sub_le _ _) t.isLt) = fun j => ((xo j : ℝ) : EReal)) :
    outsAt0 m c t.val t.isLt
      = fun j => ((xo j + contrib x (m ((c.tc : Thread nD τ).loc main_arg1)) t.val j : ℝ) : EReal) := by
  rw [outsAt0_B m c t h0, hprev, iblk0_eq m c x hx t, iblk1_eq m c t, KBody.out_B, ← contrib_eq]

/-- So the accumulator tile holds the running sum after every point (by induction on the point). -/
theorem outsAt_eq (c : Dev nD) (x : Cert.Spec.SX.Idx → ℝ)
    (hx : m ((c.tc : Thread nD τ).loc main_arg0) = fun i => ((x i : ℝ) : EReal)) :
    ∀ (n : ℕ) (h : n < cfg0.N), outsAt0 m c n h
      = fun j => ((run x (m ((c.tc : Thread nD τ).loc main_arg1)) n j : ℝ) : EReal)
  | 0, h => step_A m c x hx ⟨0, h⟩ rfl
  | n + 1, h => by
    by_cases h0 : (n + 1) % 4 = 0
    · rw [run_reset _ _ _ h0]; exact step_A m c x hx ⟨n + 1, h⟩ h0
    · rw [run_step _ _ _ h0]
      exact step_B m c x hx ⟨n + 1, h⟩ h0 _ (outsAt_eq c x hx n (Nat.lt_of_succ_lt h))

/-! ## The array after the grid -/

theorem contrib_at (x : Cert.Spec.SX.Idx → ℝ) (tl : Cert.Spec.ST.Idx → BitVec 32) (b : Fin 8) (hq : Fin 4) :
    contrib x tl (4 * b.val + hq.val) = Cert.Spec.Ublk (Cert.Spec.blockX x b hq) (Cert.Spec.blockT tl b hq) := by
  have hb : (⟨(4 * b.val + hq.val) / 4 % 8, Nat.mod_lt _ (by norm_num)⟩ : Fin 8) = b :=
    Fin.ext (by have := b.isLt; have := hq.isLt; show (4 * b.val + hq.val) / 4 % 8 = b.val; omega)
  have hh : (⟨(4 * b.val + hq.val) % 4, Nat.mod_lt _ (by norm_num)⟩ : Fin 4) = hq :=
    Fin.ext (by have := hq.isLt; show (4 * b.val + hq.val) % 4 = hq.val; omega)
  unfold contrib
  rw [hb, hh]

/-- The tile after the last row tile of batch `i 0`, at (0, `i 1`, `i 2`), is the accumulator array's sum at `i`. -/
theorem run_last_eq_accK (x : Cert.Spec.SX.Idx → ℝ) (tl : Cert.Spec.ST.Idx → BitVec 32) (i : Cert.Spec.SA.Idx)
    (j : Cert.Spec.BO.Idx) (hj1 : (j 1).val = (i 1).val) (hj2 : (j 2).val = (i 2).val) :
    run x tl (4 * (i 0).val + 3) j = Cert.Spec.accK x tl i := by
  have hj : Idealize.ShloMosaic.ValueIdx.ix3 (n0 := 1) (n1 := 8) (n2 := 128) 0 (i 1) (i 2) = j := by
    funext a
    apply Fin.ext
    match a with
    | ⟨0, _⟩ => have h : (j 0).val < 1 := (j 0).isLt; show 0 = (j 0).val; omega
    | ⟨1, _⟩ => exact hj1.symm
    | ⟨2, _⟩ => exact hj2.symm
  rw [run_last]
  unfold Cert.Spec.accK
  rw [Fin.sum_univ_four, hj]
  exact congrArg₂ (· + ·) (congrArg₂ (· + ·) (congrArg₂ (· + ·) (congrFun (contrib_at x tl (i 0) 0) j)
    (congrFun (contrib_at x tl (i 0) 1) j)) (congrFun (contrib_at x tl (i 0) 2) j)) (congrFun (contrib_at x tl (i 0) 3) j)

/-- The write-back at the last row tile of a batch writes the batch's block of the sums. -/
theorem flushed_eq (c : Dev nD) (x : Cert.Spec.SX.Idx → ℝ)
    (hx : m ((c.tc : Thread nD τ).loc main_arg0) = fun i => ((x i : ℝ) : EReal)) (t : Fin cfg0.N)
    (hf : (cfg0.win 2).flush t = true) :
    (dats m 0 c).flushed 2 t = ((cfg0.win 2).blk t).view.read (Elt Ideal)
      (fun i => ((Cert.Spec.accK x (m ((c.tc : Thread nD τ).loc main_arg1)) i : ℝ) : EReal)) := by
  have hN : t.val < 32 := lt_of_lt_of_eq t.isLt (show cfg0.N = 32 from N_0)
  have h3 : t.val % 4 = 3 := (flush0_2 t).mp hf
  obtain ⟨-, -, ⟨i0, i1, i2⟩⟩ := idx_facts t
  show (cfg0.win 2).cut (grid0.coords t) ((dats m 0 c).after 2 t) = _
  rw [after0_2, outsAt_eq m c x hx]
  funext y
  rw [View.read_apply]
  have y0 : (y 0).val < 1 := (y 0).isLt
  show ((run x (m ((c.tc : Thread nD τ).loc main_arg1)) t.val ((cfg0.win 2).xinj (grid0.coords t) y) : ℝ) : EReal)
    = ((Cert.Spec.accK x (m ((c.tc : Thread nD τ).loc main_arg1)) (((cfg0.win 2).blk t).view.emb y) : ℝ) : EReal)
  congr 1
  refine (congrFun (congrArg (run x _) (?_ : t.val = 4 * ((((cfg0.win 2).blk t).view.emb y) 0).val + 3)) _).trans
    (run_last_eq_accK x _ _ _ ?_ ?_)
  · show t.val = 4 * (win0_2.index t 0 * 1 + 1 * (y 0).val) + 3; rw [i0]; omega
  · show (y 1).val = win0_2.index t 1 * 8 + 1 * (y 1).val; rw [i1]; omega
  · show (y 2).val = win0_2.index t 2 * 128 + 1 * (y 2).val; rw [i2]; omega

/-- After the grid the accumulator array holds, per batch, the four row tiles' contributions added. -/
theorem final_acc (c : Dev nD) (x : Cert.Spec.SX.Idx → ℝ)
    (hx : m ((c.tc : Thread nD τ).loc main_arg0) = fun i => ((x i : ℝ) : EReal)) :
    (dats m 0 c).arrAt 2 cfg0.N = fun i => ((Cert.Spec.accK x (m ((c.tc : Thread nD τ).loc main_arg1)) i : ℝ) : EReal) :=
  (dats m 0 c).arrAt_eq_of_cover 2 (fun i => ((Cert.Spec.accK x (m ((c.tc : Thread nD τ).loc main_arg1)) i : ℝ) : EReal))
    (flushed_eq m c x hx) fun i => by
      -- the block written back at the last row tile of batch `i 0` holds index `i`
      have hi0 : (i 0).val < 8 := (i 0).isLt
      have hi1 : (i 1).val < 8 := (i 1).isLt
      have hi2 : (i 2).val < 128 := (i 2).isLt
      have hN : cfg0.N = 32 := N_0
      obtain ⟨t, ht⟩ : ∃ t : Fin cfg0.N, t.val = 4 * (i 0).val + 3 := ⟨⟨4 * (i 0).val + 3, by rw [hN]; omega⟩, rfl⟩
      obtain ⟨-, -, ⟨i0, i1, i2⟩⟩ := idx_facts t
      refine ⟨t, (flush0_2 t).mpr (by omega), ?_⟩
      show i ∈ ((View.whole main_v0).slice (win0_2.rect t)).set
      rw [View.set_slice_whole, Rect.mem_set_unit]
      intro a
      match a with
      | ⟨0, _⟩ => show win0_2.index t 0 * 1 ≤ (i 0).val ∧ (i 0).val < win0_2.index t 0 * 1 + 1; rw [i0]; omega
      | ⟨1, _⟩ => show win0_2.index t 1 * 8 ≤ (i 1).val ∧ (i 1).val < win0_2.index t 1 * 8 + 8; rw [i1]; omega
      | ⟨2, _⟩ => show win0_2.index t 2 * 128 ≤ (i 2).val ∧ (i 2).val < win0_2.index t 2 * 128 + 128; rw [i2]; omega

end Cert.KernelIdeal.KAcc

end
-- ==== Proof.KTail.lean ====
/-
  The kernel program's result: the host operations after the grid turn the accumulator array into the loss.
-/
import proofs.«430136_j16260746182668_3_alg».proof.Proof.KAcc
import Idealize.ShloMosaic.Lib.StableHlo.Run
import Idealize.ShloMosaic.PureOps.Ideal.Laws
import Idealize.ShloMosaic.Lib.IdealHost
import Idealize.ShloMosaic.Lib.ValueLayout
import Idealize.ShloMosaic.Lib.ValueIdxRank1

noncomputable section

namespace Cert.KernelIdeal.KTail

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The host operations as functions of the accumulator array -/

/-- The batches added: the accumulator array summed over its first axis. -/
def totV (A : FVec Ideal S8x8x128 .f32) : FVec Ideal S8x128 .f32 :=
  Host.reduceAdd A (constant S_ .f32 0x00000000#32) reducesTo_S8x8x128_S8x128_d0 h_S_
/-- Row 0's first 19 lanes, -/
def cntV (T : FVec Ideal S8x128 .f32) : FVec Ideal S19 .f32 :=
  shapeCast S19 (extractStridedSlice S1x19 ![0, 0] T slices_S8x128_S1x19_0_0) shapeCasts_S1x19_S19
/-- and row 1's. -/
def slpV (T : FVec Ideal S8x128 .f32) : FVec Ideal S19 .f32 :=
  shapeCast S19 (extractStridedSlice S1x19 ![1, 0] T slices_S8x128_S1x19_1_0) shapeCasts_S1x19_S19
/-- The class weights from the counts: one minus the count over 4194304. -/
def wgtV (N : FVec Ideal S19 .f32) : FVec Ideal S19 .f32 :=
  subf (broadcastInDim S19 ![] bcast_S_S19 (constant S_ .f32 0x3F800000#32))
    (Host.divf N (broadcastInDim S19 ![] bcast_S_S19 (constant S_ .f32 0x4A800000#32)))
/-- The sum over the 19 classes. -/
def sumV (X : FVec Ideal S19 .f32) : FVec Ideal S_ .f32 :=
  Host.reduceAdd X (constant S_ .f32 0x00000000#32) reducesTo_S19_S_d0 h_S_
/-- The result: minus the weighted sum of the log-probability sums, over the weighted sum of the counts. -/
def tailV (A : FVec Ideal S8x8x128 .f32) : FVec Ideal S_ .f32 :=
  Host.divf (Host.negf (sumV (mulf (wgtV (cntV (totV A))) (slpV (totV A)))))
    (sumV (mulf (wgtV (cntV (totV A))) (cntV (totV A))))

/-! ## Each read at an index, at real values -/

/-- The embedding of the reals commutes with finite sums. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The pattern 0x4A800000 is 2²² = 4194304. -/
theorem ofBits_4194304 : Ideal.ofBits .f32 0x4A800000#32 = ((4194304 : ℝ) : EReal) := by
  simp [Ideal.ofBits, Ideal.ieee, -EReal.coe_mul]; norm_num

theorem totV_apply (acc : S8x8x128.Idx → ℝ) (j : S8x128.Idx) :
    totV (fun i => ((acc i : ℝ) : EReal)) j = ((∑ b : Fin 8, acc (ix3 b (j 0) (j 1)) : ℝ) : EReal) := by
  have h : S8x8x128.Reduces [0] S8x128 := by decide
  have hl : ∀ b : Fin 8, h.lift j b = ix3 b (j 0) (j 1) := fun b => by
    funext a; apply Fin.ext; fin_cases a <;> rfl
  unfold totV
  rw [hostReduceAdd_apply, Ideal.hostReduceAdd_single _ h, constant_apply, Ideal.ofBits_zero_f32, zero_add, coe_sum]
  exact Finset.sum_congr rfl fun b _ => congrArg (fun i => ((acc i : ℝ) : EReal)) (hl b)

theorem cntV_apply (T : FVec Ideal S8x128 .f32) (c : Fin 19) :
    cntV T (ix1 c) = T (ix2 0 ⟨c.val, by have := c.isLt; omega⟩) := by
  unfold cntV
  rw [shapeCast_1a_a_apply]
  exact extractStridedSlice_apply _ _ _ _ _ (fun a => by fin_cases a <;> simp)

theorem slpV_apply (T : FVec Ideal S8x128 .f32) (c : Fin 19) :
    slpV T (ix1 c) = T (ix2 1 ⟨c.val, by have := c.isLt; omega⟩) := by
  unfold slpV
  rw [shapeCast_1a_a_apply]
  exact extractStridedSlice_apply _ _ _ _ _ (fun a => by fin_cases a <;> simp)

theorem wgtV_apply (N : FVec Ideal S19 .f32) (i : S19.Idx) (n : ℝ) (hN : N i = ((n : ℝ) : EReal)) :
    wgtV N i = ((Cert.Spec.wgtOf n : ℝ) : EReal) := by
  unfold wgtV Cert.Spec.wgtOf
  rw [subf_apply, hostDivf_apply, broadcastInDim_scalar_apply, broadcastInDim_scalar_apply, constant_apply, constant_apply,
    Ideal.ofBits_one_f32, ofBits_4194304, hN, Ideal.div_coe (by norm_num), ← EReal.coe_mul, ← EReal.coe_one, ← EReal.coe_sub]
  congr 1; ring

theorem sumV_apply (X : FVec Ideal S19 .f32) (f : Fin 19 → ℝ) (hX : ∀ c, X (ix1 c) = ((f c : ℝ) : EReal)) (j : S_.Idx) :
    sumV X j = ((∑ c : Fin 19, f c : ℝ) : EReal) := by
  unfold sumV
  rw [hostReduceAdd_apply, Ideal.hostReduceAdd_total _ (fun b => b.elim0), constant_apply, Ideal.ofBits_zero_f32, zero_add, coe_sum,
    ← Equiv.sum_comp (idxEquiv1 (n := 19)).symm X]
  exact Finset.sum_congr rfl fun c _ => hX c

/-- The batches added, at row `r` and class lane `c`. -/
def totR (acc : S8x8x128.Idx → ℝ) (r : Fin 8) (c : Fin 19) : ℝ :=
  ∑ b : Fin 8, acc (ix3 b r ⟨c.val, by have := c.isLt; omega⟩)

/-- The host operations at a real accumulator array: the loss arranged by classes over the batches' totals. -/
theorem tailV_real (acc : S8x8x128.Idx → ℝ) (j : S_.Idx) :
    tailV (fun i => ((acc i : ℝ) : EReal)) j
      = Cert.Spec.result (∑ c : Fin 19, Cert.Spec.wgtOf (totR acc 0 c) * totR acc 1 c)
          (∑ c : Fin 19, Cert.Spec.wgtOf (totR acc 0 c) * totR acc 0 c) := by
  have hT : totV (fun i => ((acc i : ℝ) : EReal)) = fun j => ((∑ b : Fin 8, acc (ix3 b (j 0) (j 1)) : ℝ) : EReal) :=
    funext (totV_apply acc)
  have hN : ∀ c : Fin 19, cntV (totV (fun i => ((acc i : ℝ) : EReal))) (ix1 c) = ((totR acc 0 c : ℝ) : EReal) := fun c => by
    rw [cntV_apply, hT]; rfl
  have hS : ∀ c : Fin 19, slpV (totV (fun i => ((acc i : ℝ) : EReal))) (ix1 c) = ((totR acc 1 c : ℝ) : EReal) := fun c => by
    rw [slpV_apply, hT]; rfl
  have hW : ∀ c : Fin 19, wgtV (cntV (totV (fun i => ((acc i : ℝ) : EReal)))) (ix1 c)
      = ((Cert.Spec.wgtOf (totR acc 0 c) : ℝ) : EReal) := fun c => wgtV_apply _ _ _ (hN c)
  unfold tailV Cert.Spec.result
  rw [hostDivf_apply]
  show Ideal.div (-(sumV _ j)) (sumV _ j) = _
  rw [sumV_apply _ (fun c => Cert.Spec.wgtOf (totR acc 0 c) * totR acc 1 c)
      (fun c => by rw [mulf_apply, hW c, hS c, EReal.coe_mul]),
    sumV_apply _ (fun c => Cert.Spec.wgtOf (totR acc 0 c) * totR acc 0 c)
      (fun c => by rw [mulf_apply, hW c, hN c, EReal.coe_mul])]

theorem numK_eq (x : Cert.Spec.SX.Idx → ℝ) (t : Cert.Spec.ST.Idx → BitVec 32) :
    Cert.Spec.numK x t = ∑ c : Fin 19, Cert.Spec.wgtOf (totR (Cert.Spec.accK x t) 0 c) * totR (Cert.Spec.accK x t) 1 c := rfl
theorem denK_eq (x : Cert.Spec.SX.Idx → ℝ) (t : Cert.Spec.ST.Idx → BitVec 32) :
    Cert.Spec.denK x t = ∑ c : Fin 19, Cert.Spec.wgtOf (totR (Cert.Spec.accK x t) 0 c) * totR (Cert.Spec.accK x t) 0 c := rfl

/-! ## The run -/

/-- The result buffer after the host operations: those operations applied to the accumulator array the grid leaves. -/
theorem tail_eq (m : (ℓ : Loc nD τ sig) → Buf (Elt Ideal) ℓ) (c : Dev nD) :
    Pipeline.afterTail₀ cfgs (dats m) 0 (V0 m) [hostOps1] c main_v15 = tailV ((dats m 0 c).arrAt 2 cfg0.N) := by
  unfold Pipeline.afterTail₀
  show StableHlo.after hostOps1 _ (Proc.devRef .tc main_v15) = _
  after_results
  show tailV (Pipeline.withArrays (cfgs 0).spec c (V0 m c) (fun w => (dats m 0 c).arrAt w (cfgs 0).N) (Proc.devRef .tc main_v0)) = _
  exact congrArg tailV (Pipeline.withArrays_arr spec0 launch0.win.arr_inj c _ _ 2)

/-- Every weakly fair execution of the kernel program from real logits ends with the loss arranged by classes over the
    blockwise totals, the arguments unchanged. -/
theorem run (m : (ℓ : Loc nD τ sig) → Buf (Elt Ideal) ℓ) (ρ : Dev nD → PrngReg) (x : Dev nD → Cert.Spec.SX.Idx → ℝ)
    (hx : ∀ c : Dev nD, m ((c.tc : Thread nD τ).loc main_arg0) = fun i => ((x c i : ℝ) : EReal)) :
    θ_run defs (onTc (τ := τ) (main (F := Ideal))) ⟨m, fun _ => 0, ρ⟩ (fun r => ∀ c : Dev nD,
      r.2.mem ((c.tc : Thread nD τ).loc main_v15)
          = (fun _ => Cert.Spec.result (Cert.Spec.numK (x c) (m ((c.tc : Thread nD τ).loc main_arg1)))
              (Cert.Spec.denK (x c) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_main m ρ)
  have hc := h c
  refine ⟨?_, ?_, ?_⟩
  · rw [hc.2 main_v15 (Pipeline.mem_restRefs_of main_v15 rfl (by decide)), tail_eq, KAcc.final_acc m c (x c) (hx c)]
    funext j
    rw [tailV_real, numK_eq, denK_eq]
  · exact (hc.1 0).trans (((dats m 0 c).arrAt_in 0 rfl _).trans ((A_eq m c 0).trans (V_main_arg0 m c)))
  · exact (hc.1 1).trans (((dats m 0 c).arrAt_in 1 rfl _).trans ((A_eq m c 1).trans (V_main_arg1 m c)))

end Cert.KernelIdeal.KTail

end
-- ==== Proof.RefCount.lean ====
/-
  The reference's class weights: the scatter-add of ones at the label words counts the pixels of each class.

  The scatter is a left fold over the update indices; with addition of words as its body, its result at an index is the
  operand there plus the sum of the updates that land there. Here every update is the word one and update `j` lands at
  the class its label word names, so the result at class `c` is the word whose value is the number of pixels labelled
  `c` (at most 4194304, so the signed reading is that number). The reshape of the labels matches flat indices with
  pixels one to one, so that number is the specification's count; dividing by 4194304 and subtracting from one is the
  weight.
-/
import proofs.«430136_j16260746182668_3_alg».proof.Proof.Spec
import proofs.«430136_j16260746182668_3_alg».proof.Proof.RefRead
import Idealize.ShloMosaic.Lib.WordSum
import Mathlib.Algebra.BigOperators.Fin

noncomputable section

open scoped BigOperators

namespace Cert.ReferenceIdeal.RefCount

open Cert.ReferenceIdeal Cert.ReferenceIdeal.Gen Idealize.ShloMosaic Idealize.ShloMosaic.TcCoe Cert.ReferenceIdeal.ReadP

/-! ## A scatter whose body adds words -/

section Scatter
variable {s si u : Shape} {w : Nat}

/-- One step of the scatter's fold. -/
theorem scatter_fold (d : ScatterDims s si u) (idx : IVec si w) (upd : u.Idx → BitVec 32) (i : s.Idx)
    (l : List (Fin u.numel)) (r : s.Idx → BitVec 32) :
    l.foldl (fun r n =>
      match d.resultIdx? (u.rowMajor.symm n) idx with
      | some i => fun i' => if i' = i then IntOp.addi (r i) (upd (u.rowMajor.symm n)) else r i'
      | none => r) r i
      = r i + (l.map fun n => if d.resultIdx? (u.rowMajor.symm n) idx = some i then upd (u.rowMajor.symm n) else 0).sum := by
  induction l generalizing r with
  | nil => simp
  | cons n l ih =>
    rw [List.foldl_cons, ih, List.map_cons, List.sum_cons, ← add_assoc]
    congr 1
    cases h : d.resultIdx? (u.rowMajor.symm n) idx with
    | none => simp
    | some i0 =>
      by_cases hi : i = i0
      · subst hi; simp [IntOp.addi]
      · have : ¬ i0 = i := fun e => hi e.symm
        simp [hi, this]

/-- A scatter whose body adds words: at an index, the operand there plus the sum of the updates whose result index it is. -/
theorem scatter_addi_apply (d : ScatterDims s si u) (x : s.Idx → BitVec 32) (idx : IVec si w) (upd : u.Idx → BitVec 32) (i : s.Idx) :
    Host.scatter d IntOp.addi x idx upd i
      = x i + ∑ j ∈ Finset.univ.filter (fun j => d.resultIdx? j idx = some i), upd j := by
  unfold Host.scatter
  refine (scatter_fold d idx upd i _ x).trans ?_
  rw [Finset.sum_filter, ← Equiv.sum_comp u.rowMajor.symm, Fin.sum_univ_def]

end Scatter

/-! ## This scatter: where update `j` lands -/

section This

/-- The scatter's dimension numbers: one index word per update, the operand's one axis inserted. -/
abbrev dS : ScatterDims S19 S4194304x1 S4194304 := scatter_S19_S4194304x1_S4194304_n_0_0_1

/-- The window's start on the operand's one axis: the index word of the update, read signed. -/
theorem start_eq (idx : IVec S4194304x1 32) (j : S4194304.Idx) (a : Fin S19.rank) :
    dS.start j idx a = (idx (dS.siIdx j ⟨0, Nat.one_pos⟩)).toInt := by
  have ha : a = 0 := Subsingleton.elim _ _
  subst ha
  unfold ScatterDims.start
  rw [dif_pos (by decide)]
  rfl

/-- The operand's one axis is inserted: no window coordinate. -/
theorem window_eq (j : S4194304.Idx) (a : Fin S19.rank) : dS.window j a = 0 := by
  have ha : a = 0 := Subsingleton.elim _ _
  subst ha
  unfold ScatterDims.window
  rw [dif_neg (by decide)]

/-- A rank-one index has one coordinate. -/
theorem idx_val_eq (j : S4194304.Idx) (x y : Fin S4194304.rank) : (j x).val = (j y).val := by
  have : x = y := Subsingleton.elim _ _
  subst this; rfl

/-- Update `j` reads its index word in row `j` of the index array. -/
theorem siIdx_zero (j : S4194304.Idx) (c : Fin dS.scatterDimsToOperandDims.length) :
    (dS.siIdx j c 0).val = (j 0).val := by
  unfold ScatterDims.siIdx
  rw [dif_neg (by decide)]
  unfold ScatterDims.siCoord
  exact idx_val_eq j _ _

/-- Update `j` lands at class `i` exactly when its index word, read signed, is `i`. -/
theorem resultIdx_iff (idx : IVec S4194304x1 32) (j : S4194304.Idx) (i : S19.Idx) :
    dS.resultIdx? j idx = some i ↔ (idx (dS.siIdx j ⟨0, Nat.one_pos⟩)).toInt = ((i 0).val : Int) := by
  have hs := start_eq idx j
  have hw := window_eq j
  unfold ScatterDims.resultIdx?
  constructor
  · intro h
    split at h
    · rename_i hc
      have h0 := congrArg Fin.val (congrFun (Option.some.inj h) 0)
      simp only at h0
      have h2 := hc 0
      rw [hs, hw] at h0 h2
      omega
    · exact absurd h (by simp)
  · intro h
    have hc : ∀ a, 0 ≤ dS.start j idx a + dS.window j a ∧ dS.start j idx a + (dS.window j a : Int) < S19.size a := by
      intro a
      have ha : a = 0 := Subsingleton.elim _ _
      subst ha
      rw [hs, hw, h]
      have := (i 0).isLt
      omega
    rw [dif_pos hc]
    congr 1
    funext a
    have ha : a = 0 := Subsingleton.elim _ _
    subst ha
    apply Fin.ext
    show (dS.start j idx 0 + (dS.window j 0 : Int)).toNat = (i 0).val
    rw [hs, hw, h]
    omega

end This

/-! ## The index words at labels in range, and the scatter's result -/

section Words

/-- A label word in range is not below zero, and its signed reading is the class. -/
theorem maxsi_cw (c : Fin 19) : IntOp.maxsi 0#32 (Cert.Spec.cw c) = Cert.Spec.cw c := by revert c; decide
theorem cmpi_cw (c : Fin 19) : IntOp.cmpi .slt (Cert.Spec.cw c) 0#32 = 0#1 := by revert c; decide
theorem toInt_cw (c : Fin 19) : (Cert.Spec.cw c).toInt = (c.val : Int) := by revert c; decide

/-- At labels in range the clipped and wrapped index word is the label word. -/
theorem v7_at (tc : Cert.Spec.ST.Idx → Fin 19) (n : S4194304.Idx) :
    val_main_v7 (F := Ideal) (fun p => Cert.Spec.cw (tc p)) n = Cert.Spec.cw (tc (idx_main_v0 n)) := by
  rw [val_main_v7_apply, val_main_v4_apply, val_main_v2_apply, val_main_v3_apply, val_main_c_1_apply,
    val_main_call0_v1_apply, val_main_call0_v0_apply, val_main_c_0_apply, val_main_v0_apply]
  rw [maxsi_cw, cmpi_cw]
  show (if (0#1 : BitVec 1) = 1 then _ else _) = _
  rw [if_neg (by decide)]

/-- The index array's row `j` is the flat index `j`. -/
theorem idx_v8_siIdx (j : S4194304.Idx) (c : Fin dS.scatterDimsToOperandDims.length) :
    idx_main_v8 (dS.siIdx j c) = j := by
  funext a
  match a with
  | ⟨0, _⟩ => exact Fin.ext (siIdx_zero j c)

/-- Update `j` lands at class `i` exactly when the pixel at flat index `j` is labelled `i`. -/
theorem hit_iff (tc : Cert.Spec.ST.Idx → Fin 19) (j : S4194304.Idx) (i : S19.Idx) (c : Fin 19) (hc : c = i 0) :
    dS.resultIdx? j (val_main_v8 (F := Ideal) (fun p => Cert.Spec.cw (tc p))) = some i ↔ tc (idx_main_v0 j) = c := by
  rw [resultIdx_iff, val_main_v8_apply, idx_v8_siIdx, v7_at, toInt_cw, hc]
  constructor
  · intro h; exact Fin.ext (by exact_mod_cast h)
  · intro h; rw [h]

/-- The scatter-add of ones: at class `i`, as many ones as pixels labelled `i`. -/
theorem v10_at (tc : Cert.Spec.ST.Idx → Fin 19) (i : S19.Idx) (c : Fin 19) (hc : c = i 0) :
    val_main_v10 (F := Ideal) (fun p => Cert.Spec.cw (tc p)) i
      = ∑ j ∈ Finset.univ.filter (fun j : S4194304.Idx => tc (idx_main_v0 j) = c), (1#32 : BitVec 32) := by
  unfold val_main_v10
  rw [scatter_addi_apply, val_main_v1_apply, val_main_c_apply]
  rw [show (0#32 : BitVec 32) = 0 from rfl, zero_add]
  refine Finset.sum_congr (Finset.filter_congr fun j _ => hit_iff tc j i c hc) fun j _ => ?_
  rw [val_main_v9_apply, val_main_c_3_apply]

end Words

/-! ## The count -/

section Count

/-- A word sum of ones, as many as a set of flat indices has, read signed: the number of them. -/
theorem toInt_sum_ones (S : Finset S4194304.Idx) : (∑ j ∈ S, (1#32 : BitVec 32)).toInt = (S.card : Int) := by
  have hcard : S.card ≤ 4194304 := by
    calc S.card ≤ Fintype.card S4194304.Idx := Finset.card_le_univ S
      _ = 4194304 := by rw [Shape.card_idx]; rfl
  have h1 : ∑ j ∈ S, ((1#32 : BitVec 32)).toNat = S.card := by simp
  have hn : (∑ j ∈ S, (1#32 : BitVec 32)).toNat = S.card := by
    rw [WordSum.toNat_sum S _ (by rw [h1]; omega), h1]
  rw [BitVec.toInt_eq_toNat_of_lt (by rw [hn]; omega), hn]

/-- The flat index map of the labels' reshape is the row-major matching of the two shapes. -/
theorem reshape_eq (j : S4194304.Idx) :
    Shape.reshapeEquiv (s := S8x512x1024) (s' := S4194304) (by decide) j = idx_main_v0 j := by
  apply Shape.reshapeEquiv_eq_of_rowMajor
  rewrite [Shape.rowMajor_val_three, Shape.rowMajor_val_one]
  have h0 : (j 0).val < 4194304 := (j 0).isLt
  show (((j 0).val) / 524288 * 512 + ((j 0).val) / 1024 % 512) * 1024 + ((j 0).val) % 1024 = (j 0).val
  omega

/-- The flat indices whose pixel carries label `c` are as many as the pixels that do. -/
theorem card_eq_cnt (tc : Cert.Spec.ST.Idx → Fin 19) (c : Fin 19) :
    ((Finset.univ.filter (fun j : S4194304.Idx => tc (idx_main_v0 j) = c)).card : ℝ) = Cert.Spec.cnt tc c := by
  unfold Cert.Spec.cnt
  rw [← Equiv.sum_comp (Shape.reshapeEquiv (s := S8x512x1024) (s' := S4194304) (by decide))]
  simp only [reshape_eq]
  rw [Finset.sum_boole]

end Count

/-! ## The weight -/

section Arith

/-- The two float constants: the number of pixels, and one. -/
theorem ofBits_4194304 : Ideal.ofBits .f32 0x4A800000#32 = ((4194304 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

/-- The integer-to-float conversion, exact: the word read signed. -/
theorem sitofp_ideal (b : BitVec 32) : FloatOps.sitofp (F := Ideal) .f32 b = ((b.toInt : ℝ) : EReal) := rfl

/-- The weight at class `i`, the class named as an element of `Fin 19`. -/
theorem weights_at (tc : Cert.Spec.ST.Idx → Fin 19) (i : S19.Idx) (c : Fin 19) (hc : c = i 0) :
    val_main_v15 (F := Ideal) (fun p => Cert.Spec.cw (tc p)) i = ((Cert.Spec.wgtOf (Cert.Spec.cnt tc c) : ℝ) : EReal) := by
  rw [val_main_v15_apply, val_main_v14_apply, val_main_cst_4_apply, val_main_v13_apply, val_main_v12_apply,
    val_main_cst_apply, val_main_v11_apply, v10_at tc i c hc]
  rw [Ideal.subf_def, Ideal.hostDivf_def, Ideal.ofBits_def, Ideal.ofBits_def, ofBits_4194304, ofBits_one, sitofp_ideal]
  rw [toInt_sum_ones, Ideal.div_coe (by norm_num), Int.cast_natCast, card_eq_cnt, ← EReal.coe_mul, ← EReal.coe_sub]
  unfold Cert.Spec.wgtOf
  rw [mul_one_div]

/-- The weight vector at class `i`: one minus the class's pixel count over the number of pixels. -/
theorem weights (tc : Cert.Spec.ST.Idx → Fin 19) (i : S19.Idx) :
    val_main_v15 (F := Ideal) (fun p => Cert.Spec.cw (tc p)) i = ((Cert.Spec.wgtOf (Cert.Spec.cnt tc (i 0)) : ℝ) : EReal) :=
  weights_at tc i (i 0) rfl

end Arith

end Cert.ReferenceIdeal.RefCount

end
-- ==== Proof.RefSoftmax.lean ====
/-
  The reference's log-softmax over the class axis, at real logits.
-/
import proofs.«430136_j16260746182668_3_alg».proof.Proof.Algebra
import proofs.«430136_j16260746182668_3_alg».proof.Proof.RefRead

noncomputable section

namespace Cert.ReferenceIdeal.RefSoftmax

open Cert.ReferenceIdeal Cert.ReferenceIdeal.Gen Idealize.ShloMosaic Idealize.ShloMosaic.TcCoe Cert.ReferenceIdeal.ReadP
open Idealize.ShloMosaic.ValueIdx

open scoped BigOperators

/-- The real logits as extended reals. -/
abbrev xe (x : Cert.Spec.SX.Idx → ℝ) : (⟨S8x19x512x1024, .f32⟩ : BufTy).Contents (Elt Ideal) :=
  fun k => ((x k : ℝ) : EReal)

/-- The 19 logits at pixel (b, h, w). -/
abbrev lg (x : Cert.Spec.SX.Idx → ℝ) (b : Fin 8) (h : Fin 512) (w : Fin 1024) : Fin 19 → ℝ :=
  Cert.Spec.logits x (ix3 (n0 := 8) (n1 := 512) (n2 := 1024) b h w)

theorem lg_apply (x : Cert.Spec.SX.Idx → ℝ) (b : Fin 8) (h : Fin 512) (w : Fin 1024) (c : Fin 19) :
    lg x b h w c = x (ix4 (n0 := 8) (n1 := 19) (n2 := 512) (n3 := 1024) b c h w) := rfl

/-- The pixel's index with class coordinate `k` put back on axis 1 is (b, k, h, w). -/
theorem lift_ix3 (hr : S8x19x512x1024.Reduces [1] S8x512x1024) (b : Fin 8) (h : Fin 512) (w : Fin 1024)
    (k : Fin (S8x19x512x1024.size 1)) :
    hr.lift (ix3 (n0 := 8) (n1 := 512) (n2 := 1024) b h w) k
      = ix4 (n0 := 8) (n1 := 19) (n2 := 512) (n3 := 1024) b (⟨k.val, k.isLt⟩ : Fin 19) h w := by
  funext c; apply Fin.ext
  fin_cases c <;> rfl

/-- −∞ is the bottom element. -/
theorem ofBits_ninf : Ideal.ofBits .f32 0xFF800000#32 = (⊥ : EReal) := by
  simp [Ideal.ofBits, Ideal.ieee]

/-- The reduce with a maximum body from −∞ over the class axis is the largest logit of the pixel. -/
theorem v0_at (x : Cert.Spec.SX.Idx → ℝ) (b : Fin 8) (h : Fin 512) (w : Fin 1024) :
    val_main_call1_v0 (F := Ideal) (xe x) (ix3 (n0 := 8) (n1 := 512) (n2 := 1024) b h w)
      = ((Cert.Spec.vmax (lg x b h w) : ℝ) : EReal) := by
  have hr : S8x19x512x1024.Reduces [1] S8x512x1024 := by decide
  unfold val_main_call1_v0
  refine (Host.reduce_eq_fold_single (FloatOps.maximumf (F := Ideal) (φ := .f32)) (xe x) (val_main_call1_cst (F := Ideal))
    reducesTo_S8x19x512x1024_S8x512x1024_d1 hr h_S_ (ix3 (n0 := 8) (n1 := 512) (n2 := 1024) b h w)).trans ?_
  refine Eq.trans ?_ (Cert.Spec.vmax_coe_fold (lg x b h w))
  have hi : (val_main_call1_cst (F := Ideal)) (Shape.Idx.first h_S_) = (⊥ : EReal) := ofBits_ninf
  rw [hi]
  have hf : (xe x ∘ hr.lift (ix3 (n0 := 8) (n1 := 512) (n2 := 1024) b h w))
      = fun c : Fin 19 => ((lg x b h w c : ℝ) : EReal) :=
    funext fun k => congrArg (xe x) (lift_ix3 hr b h w k)
  exact congrArg (fun f => Finset.fold max (⊥ : EReal) f (Finset.univ : Finset (Fin 19))) hf

/-- The maximum with −∞ changes nothing. -/
theorem v2_at (x : Cert.Spec.SX.Idx → ℝ) (b : Fin 8) (h : Fin 512) (w : Fin 1024) :
    val_main_call1_v2 (F := Ideal) (xe x) (ix3 (n0 := 8) (n1 := 512) (n2 := 1024) b h w)
      = ((Cert.Spec.vmax (lg x b h w) : ℝ) : EReal) := by
  rw [val_main_call1_v2_apply, v0_at, val_main_call1_v1_apply, val_main_call1_cst_0_apply]
  show max (Ideal.ofBits .f32 0xFF800000#32) _ = _
  rw [ofBits_ninf]
  exact max_bot_left _

/-- Broadcasting back over the class axis reads the pixel. -/
theorem idx_v3_v4 (b : Fin 8) (c : Fin 19) (h : Fin 512) (w : Fin 1024) :
    idx_main_call1_v3 (idx_main_call1_v4 (ix4 (n0 := 8) (n1 := 19) (n2 := 512) (n3 := 1024) b c h w))
      = ix3 (n0 := 8) (n1 := 512) (n2 := 1024) b h w := by
  funext a; apply Fin.ext
  match a with | ⟨0, _⟩ => rfl | ⟨1, _⟩ => rfl | ⟨2, _⟩ => rfl

theorem idx_v8_v10 (b : Fin 8) (c : Fin 19) (h : Fin 512) (w : Fin 1024) :
    idx_main_call1_v8 (idx_main_call1_v10 (ix4 (n0 := 8) (n1 := 19) (n2 := 512) (n3 := 1024) b c h w))
      = ix3 (n0 := 8) (n1 := 512) (n2 := 1024) b h w := by
  funext a; apply Fin.ext
  match a with | ⟨0, _⟩ => rfl | ⟨1, _⟩ => rfl | ⟨2, _⟩ => rfl

/-- The sum over the class axis reads class `k` of the pixel. -/
theorem idx_v7 (b : Fin 8) (h : Fin 512) (w : Fin 1024) (k : Fin 19) :
    idx_main_call1_v7 (ix3 (n0 := 8) (n1 := 512) (n2 := 1024) b h w) k
      = ix4 (n0 := 8) (n1 := 19) (n2 := 512) (n3 := 1024) b k h w := by
  funext a; apply Fin.ext
  match a with | ⟨0, _⟩ => rfl | ⟨1, _⟩ => rfl | ⟨2, _⟩ => rfl | ⟨3, _⟩ => rfl

theorem v4_at (x : Cert.Spec.SX.Idx → ℝ) (b : Fin 8) (c : Fin 19) (h : Fin 512) (w : Fin 1024) :
    val_main_call1_v4 (F := Ideal) (xe x) (ix4 (n0 := 8) (n1 := 19) (n2 := 512) (n3 := 1024) b c h w)
      = ((Cert.Spec.vmax (lg x b h w) : ℝ) : EReal) := by
  rw [val_main_call1_v4_apply, val_main_call1_v3_apply, idx_v3_v4, v2_at]

/-- The shifted logit. -/
theorem v5_at (x : Cert.Spec.SX.Idx → ℝ) (b : Fin 8) (c : Fin 19) (h : Fin 512) (w : Fin 1024) :
    val_main_call1_v5 (F := Ideal) (xe x) (ix4 (n0 := 8) (n1 := 19) (n2 := 512) (n3 := 1024) b c h w)
      = ((lg x b h w c - Cert.Spec.vmax (lg x b h w) : ℝ) : EReal) := by
  rw [val_main_call1_v5_apply, v4_at]
  show ((lg x b h w c : ℝ) : EReal) - _ = _
  rw [← EReal.coe_sub]

/-- Its exponential. -/
theorem v6_at (x : Cert.Spec.SX.Idx → ℝ) (b : Fin 8) (c : Fin 19) (h : Fin 512) (w : Fin 1024) :
    val_main_call1_v6 (F := Ideal) (xe x) (ix4 (n0 := 8) (n1 := 19) (n2 := 512) (n3 := 1024) b c h w)
      = ((Real.exp (lg x b h w c - Cert.Spec.vmax (lg x b h w)) : ℝ) : EReal) := by
  rw [val_main_call1_v6_apply, v5_at]
  rfl

/-- A finite sum of real numbers, taken in the extended reals. -/
theorem coe_finset_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The sum of the exponentials over the class axis. -/
theorem v7_at (x : Cert.Spec.SX.Idx → ℝ) (b : Fin 8) (h : Fin 512) (w : Fin 1024) :
    val_main_call1_v7 (F := Ideal) (xe x) (ix3 (n0 := 8) (n1 := 512) (n2 := 1024) b h w)
      = ((Cert.Spec.vsum (lg x b h w) : ℝ) : EReal) := by
  rw [val_main_call1_v7_apply, val_main_call1_cst_1_apply]
  show Ideal.ofBits .f32 0x00000000#32 + _ = _
  rw [Ideal.ofBits_zero_f32, zero_add]
  unfold Cert.Spec.vsum
  rw [← coe_finset_sum]
  refine Finset.sum_congr rfl fun k _ => ?_
  rw [idx_v7, v6_at]

/-- Its logarithm, the real one since the sum is positive. -/
theorem v10_at (x : Cert.Spec.SX.Idx → ℝ) (b : Fin 8) (c : Fin 19) (h : Fin 512) (w : Fin 1024) :
    val_main_call1_v10 (F := Ideal) (xe x) (ix4 (n0 := 8) (n1 := 19) (n2 := 512) (n3 := 1024) b c h w)
      = ((Real.log (Cert.Spec.vsum (lg x b h w)) : ℝ) : EReal) := by
  rw [val_main_call1_v10_apply, val_main_call1_v9_apply, val_main_call1_v8_apply, idx_v8_v10, v7_at]
  show Ideal.log ((Cert.Spec.vsum (lg x b h w) : ℝ) : EReal) = _
  rw [Ideal.log_coe, if_neg (not_le.2 (Cert.Spec.vsum_pos _))]

/-- The log-softmax at explicit coordinates. -/
theorem v16_at (x : Cert.Spec.SX.Idx → ℝ) (b : Fin 8) (c : Fin 19) (h : Fin 512) (w : Fin 1024) :
    val_main_v16 (F := Ideal) (xe x) (ix4 (n0 := 8) (n1 := 19) (n2 := 512) (n3 := 1024) b c h w)
      = ((Cert.Spec.vlp (lg x b h w) c : ℝ) : EReal) := by
  rw [val_main_v16_apply, v5_at, v10_at]
  show ((_ : ℝ) : EReal) - ((_ : ℝ) : EReal) = _
  rw [← EReal.coe_sub]
  unfold Cert.Spec.vlp
  rw [sub_sub]

/-- The log-softmax at (batch, class, row, column) is the class's log-probability among the pixel's 19 logits. -/
theorem logsoftmax (x : Cert.Spec.SX.Idx → ℝ) (i : S8x19x512x1024.Idx) :
    val_main_v16 (F := Ideal) (fun k => ((x k : ℝ) : EReal)) i
      = ((Cert.Spec.vlp (Cert.Spec.logits x (ix3 (n0 := 8) (n1 := 512) (n2 := 1024) (i 0) (i 2) (i 3))) (i 1) : ℝ) : EReal) := by
  obtain ⟨b, c, h, w, rfl⟩ : ∃ b c h w, i = ix4 (n0 := 8) (n1 := 19) (n2 := 512) (n3 := 1024) b c h w :=
    ⟨i 0, i 1, i 2, i 3, eq_ix4 i⟩
  exact v16_at x b c h w

end Cert.ReferenceIdeal.RefSoftmax

end
-- ==== Proof.RefLoss.lean ====
/-
  The reference's loss: the gathers at in-range labels read the label's log-probability and weight, every pixel is valid,
  and the two sums over the pixels are the numerator and the denominator.
-/
import proofs.«430136_j16260746182668_3_alg».proof.Proof.RefCount
import proofs.«430136_j16260746182668_3_alg».proof.Proof.RefSoftmax
import Idealize.ShloMosaic.PureOps.Reduce
import Idealize.ShloMosaic.Lib.ValueIdx

noncomputable section

namespace Cert.ReferenceIdeal.RefLoss

open Cert.ReferenceIdeal Cert.ReferenceIdeal.Gen Idealize.ShloMosaic Idealize.ShloMosaic.TcCoe Cert.ReferenceIdeal.ReadP
open Idealize.ShloMosaic.ValueIdx

open scoped BigOperators

/-! ## Words: a class index as a 32-bit label is in range for every test the reference makes -/

/-- Clipping a class word into [0, 18] leaves it unchanged. -/
theorem clip_cw : ∀ k : Fin 19, IntOp.minsi 18#32 (IntOp.maxsi 0#32 (Cert.Spec.cw k)) = Cert.Spec.cw k := by decide

/-- A class word is not negative, -/
theorem slt_cw : ∀ k : Fin 19, IntOp.cmpi .slt (Cert.Spec.cw k) 0#32 = 0#1 := by decide
/-- is at least 0, -/
theorem sge_cw : ∀ k : Fin 19, IntOp.cmpi .sge (Cert.Spec.cw k) 0#32 = 1#1 := by decide
/-- is at most 18, -/
theorem sle_cw : ∀ k : Fin 19, IntOp.cmpi .sle (Cert.Spec.cw k) 18#32 = 1#1 := by decide
/-- and is not the ignored label -1. -/
theorem ne_cw : ∀ k : Fin 19, IntOp.cmpi .ne (Cert.Spec.cw k) 4294967295#32 = 1#1 := by decide

/-- A class word read as a signed integer, clamped to [0, 18], is the class. -/
theorem toNat_cw : ∀ k : Fin 19, min (Cert.Spec.cw k).toInt.toNat (19 - 1) = k.val := by decide

/-- The label array of a class assignment. -/
abbrev lab (tc : Cert.Spec.ST.Idx → Fin 19) : (⟨S8x512x1024, .i32⟩ : BufTy).Contents (Elt Ideal) :=
  fun p => Cert.Spec.cw (tc p)

/-! ## The clipped labels and their copies -/

/-- The clipped labels are the labels. -/
theorem v17_at (tc : Cert.Spec.ST.Idx → Fin 19) (p : S8x512x1024.Idx) :
    val_main_v17 (F := Ideal) (lab tc) p = Cert.Spec.cw (tc p) := by
  rw [val_main_v17_apply, val_main_call2_v4_apply, val_main_call2_v3_apply, val_main_c_6_apply,
    val_main_call2_v2_apply, val_main_call2_v1_apply, val_main_call2_v0_apply, val_main_c_5_apply]
  exact clip_cw (tc p)

/-- The labels with a class axis of size one put in. -/
theorem v18_at (tc : Cert.Spec.ST.Idx → Fin 19) (b : Fin 8) (h : Fin 512) (w : Fin 1024) :
    val_main_v18 (F := Ideal) (lab tc) (ix4 (n0 := 8) (n1 := 1) (n2 := 512) (n3 := 1024) b 0 h w)
      = Cert.Spec.cw (tc (ix3 (n0 := 8) (n1 := 512) (n2 := 1024) b h w)) := by
  rw [val_main_v18_apply, v17_at]
  congr 2
  funext a
  match a with
  | ⟨0, _⟩ => rfl
  | ⟨1, _⟩ => rfl
  | ⟨2, _⟩ => rfl

/-- The negative-index normalisation does nothing to a class word. -/
theorem c3v4_at (tc : Cert.Spec.ST.Idx → Fin 19) (b : Fin 8) (h : Fin 512) (w : Fin 1024) :
    val_main_call3_v4 (F := Ideal) (lab tc) (ix4 (n0 := 8) (n1 := 1) (n2 := 512) (n3 := 1024) b 0 h w)
      = Cert.Spec.cw (tc (ix3 (n0 := 8) (n1 := 512) (n2 := 1024) b h w)) := by
  rw [val_main_call3_v4_apply, val_main_call3_v1_apply, val_main_call3_v0_apply, val_main_call3_c_apply, v18_at,
    slt_cw, select_zero]

/-- The start indices of the gather along the class axis. -/
theorem c3v5_at (tc : Cert.Spec.ST.Idx → Fin 19) (b : Fin 8) (h : Fin 512) (w : Fin 1024) :
    val_main_call3_v5 (F := Ideal) (lab tc) (ix5 (n0 := 8) (n1 := 1) (n2 := 512) (n3 := 1024) (n4 := 1) b 0 h w 0)
      = Cert.Spec.cw (tc (ix3 (n0 := 8) (n1 := 512) (n2 := 1024) b h w)) := by
  rw [val_main_call3_v5_apply]
  have hi : idx_main_call3_v5 (ix5 (n0 := 8) (n1 := 1) (n2 := 512) (n3 := 1024) (n4 := 1) b 0 h w 0)
      = ix4 (n0 := 8) (n1 := 1) (n2 := 512) (n3 := 1024) b 0 h w := by
    funext a
    have hb := b.isLt; have hh := h.isLt; have hw := w.isLt
    match a with
    | ⟨0, _⟩ => exact Fin.ext (by show ((((b.val * 1 + 0) * 512 + h.val) * 1024 + w.val) * 1 + 0) / 524288 = b.val; omega)
    | ⟨1, _⟩ => rfl
    | ⟨2, _⟩ => exact Fin.ext (by show ((((b.val * 1 + 0) * 512 + h.val) * 1024 + w.val) * 1 + 0) / 1024 % 512 = h.val; omega)
    | ⟨3, _⟩ => exact Fin.ext (by show ((((b.val * 1 + 0) * 512 + h.val) * 1024 + w.val) * 1 + 0) % 1024 = w.val; omega)
  rw [hi, c3v4_at]

/-- The same three at any index: the word there is some pixel's class word. -/
theorem v18_gen (tc : Cert.Spec.ST.Idx → Fin 19) (i : S8x1x512x1024.Idx) :
    val_main_v18 (F := Ideal) (lab tc) i = Cert.Spec.cw (tc (idx_main_v18 i)) := by
  rw [val_main_v18_apply, v17_at]

theorem c3v4_gen (tc : Cert.Spec.ST.Idx → Fin 19) (i : S8x1x512x1024.Idx) :
    val_main_call3_v4 (F := Ideal) (lab tc) i = Cert.Spec.cw (tc (idx_main_v18 i)) := by
  rw [val_main_call3_v4_apply, val_main_call3_v1_apply, val_main_call3_v0_apply, val_main_call3_c_apply, v18_gen,
    slt_cw, select_zero]

theorem c3v5_gen (tc : Cert.Spec.ST.Idx → Fin 19) (i : S8x1x512x1024x1.Idx) :
    val_main_call3_v5 (F := Ideal) (lab tc) i = Cert.Spec.cw (tc (idx_main_v18 (idx_main_call3_v5 i))) := by
  rw [val_main_call3_v5_apply, c3v4_gen]

/-! ## The in-range mask of the gather is true everywhere -/

/-- Every start index lies in [0, 18]. -/
theorem c3v11_gen (tc : Cert.Spec.ST.Idx → Fin 19) (i : S8x1x512x1024x1.Idx) :
    val_main_call3_v11 (F := Ideal) (lab tc) i = 1#1 := by
  rw [val_main_call3_v11_apply, val_main_call3_v7_apply, val_main_call3_v10_apply, c3v5_gen,
    val_main_call3_v6_apply, val_main_call3_c_2_apply, val_main_call3_v9_apply, val_main_call3_v8_apply,
    val_main_call3_c_1_apply, sge_cw, sle_cw]
  decide

/-- A fold by `and` of ones from one is one. -/
theorem fold_andi_one {ι : Type} (S : Finset ι) : S.fold IntOp.andi 1#1 (fun _ => 1#1) = 1#1 := by
  induction S using Finset.cons_induction with
  | empty => exact Finset.fold_empty
  | cons a S ha ih => rw [Finset.fold_cons, ih]; decide

/-- The conjunction over the index vector's axis of the in-range tests is true at every result index. -/
theorem c3v12_gen (tc : Cert.Spec.ST.Idx → Fin 19) (i : S8x1x512x1024.Idx) :
    val_main_call3_v12 (F := Ideal) (lab tc) i = 1#1 := by
  unfold val_main_call3_v12
  rw [Host.reduce_eq_fold, val_main_call3_c_3_apply,
    show val_main_call3_v11 (F := Ideal) (lab tc) = fun _ => 1#1 from funext (c3v11_gen tc)]
  exact fold_andi_one _

/-! ## The two gathers, read at an index -/

/-- The dimension numbers of the gather along the class axis, -/
abbrev gC : GatherDims S8x19x512x1024 S8x1x512x1024x1 S8x1x512x1024 :=
  gather_S8x19x512x1024_S8x1x512x1024x1_S8x1x512x1024_n_1_023_023_1_4_1111
/-- and of the gather of the weight vector. -/
abbrev gW : GatherDims S19 S8x512x1024x1 S8x512x1024 :=
  gather_S19_S8x512x1024x1_S8x512x1024_n_0_n_n_0_3_1

/-- The gather along the class axis at result index (b, 0, h, w): the batching axes carry b, h, w, and on the class
    axis stands the start index at (b, 0, h, w, 0), read signed and clamped into [0, 18]. -/
theorem gatherC_apply {α : Type} {wd : Nat} (x : S8x19x512x1024.Idx → α) (idx : IVec S8x1x512x1024x1 wd)
    (b : Fin 8) (h : Fin 512) (w : Fin 1024) :
    Host.gather gC x idx (ix4 (n0 := 8) (n1 := 1) (n2 := 512) (n3 := 1024) b 0 h w)
      = x (ix4 (n0 := 8) (n1 := 19) (n2 := 512) (n3 := 1024) b
          ⟨min (idx (ix5 (n0 := 8) (n1 := 1) (n2 := 512) (n3 := 1024) (n4 := 1) b 0 h w 0)).toInt.toNat (19 - 1), by omega⟩ h w) := by
  unfold Host.gather
  congr 1
  funext a
  refine Fin.ext ?_
  have hb0 : (0 : Fin S8x19x512x1024.rank) ∈ gC.operandBatchingDims := by decide
  have hb2 : (2 : Fin S8x19x512x1024.rank) ∈ gC.operandBatchingDims := by decide
  have hb3 : (3 : Fin S8x19x512x1024.rank) ∈ gC.operandBatchingDims := by decide
  have hb1 : (1 : Fin S8x19x512x1024.rank) ∉ gC.operandBatchingDims := by decide
  have hc1 : (1 : Fin S8x19x512x1024.rank) ∈ gC.collapsedSliceDims := by decide
  have hm1 : (1 : Fin S8x19x512x1024.rank) ∈ gC.startIndexMap := by decide
  match a with
  | ⟨0, _⟩ =>
    show gC.start _ idx 0 + gC.batchCoord _ 0 + gC.offCoord _ 0 = b.val
    rw [GatherDims.start_batching _ _ _ _ hb0,
      GatherDims.offCoord_eq_zero _ _ _ (fun h => ((GatherDims.mem_sKept _ _).mp h).2 hb0)]
    unfold GatherDims.batchCoord
    rw [dif_pos hb0, Nat.zero_add, Nat.add_zero]
    rfl
  | ⟨1, _⟩ =>
    show gC.start _ idx 1 + gC.batchCoord _ 1 + gC.offCoord _ 1 = _
    rw [GatherDims.batchCoord_eq_zero _ _ _ hb1,
      GatherDims.offCoord_eq_zero _ _ _ (fun h => ((GatherDims.mem_sKept _ _).mp h).1 hc1), Nat.add_zero]
    unfold GatherDims.start
    rw [dif_pos hm1]
    have hsi : gC.siIdx (ix4 (n0 := 8) (n1 := 1) (n2 := 512) (n3 := 1024) b 0 h w)
        ⟨List.idxOf (1 : Fin S8x19x512x1024.rank) gC.startIndexMap, List.idxOf_lt_length_iff.2 hm1⟩
        = ix5 (n0 := 8) (n1 := 1) (n2 := 512) (n3 := 1024) (n4 := 1) b 0 h w 0 := by
      funext c; refine Fin.ext ?_
      match c with
      | ⟨0, _⟩ => rfl
      | ⟨1, _⟩ => rfl
      | ⟨2, _⟩ => rfl
      | ⟨3, _⟩ => rfl
      | ⟨4, _⟩ => rfl
    rw [hsi]
    rfl
  | ⟨2, _⟩ =>
    show gC.start _ idx 2 + gC.batchCoord _ 2 + gC.offCoord _ 2 = h.val
    rw [GatherDims.start_batching _ _ _ _ hb2,
      GatherDims.offCoord_eq_zero _ _ _ (fun h => ((GatherDims.mem_sKept _ _).mp h).2 hb2)]
    unfold GatherDims.batchCoord
    rw [dif_pos hb2, Nat.zero_add, Nat.add_zero]
    rfl
  | ⟨3, _⟩ =>
    show gC.start _ idx 3 + gC.batchCoord _ 3 + gC.offCoord _ 3 = w.val
    rw [GatherDims.start_batching _ _ _ _ hb3,
      GatherDims.offCoord_eq_zero _ _ _ (fun h => ((GatherDims.mem_sKept _ _).mp h).2 hb3)]
    unfold GatherDims.batchCoord
    rw [dif_pos hb3, Nat.zero_add, Nat.add_zero]
    rfl

/-- The gather of the weight vector at result index (b, h, w): the vector at the start index at (b, h, w, 0), read
    signed and clamped into [0, 18]. -/
theorem gatherW_apply {α : Type} {wd : Nat} (x : S19.Idx → α) (idx : IVec S8x512x1024x1 wd)
    (b : Fin 8) (h : Fin 512) (w : Fin 1024) :
    Host.gather gW x idx (ix3 (n0 := 8) (n1 := 512) (n2 := 1024) b h w)
      = x (ix1 (n := 19)
          ⟨min (idx (ix4 (n0 := 8) (n1 := 512) (n2 := 1024) (n3 := 1) b h w 0)).toInt.toNat (19 - 1), by omega⟩) := by
  unfold Host.gather
  congr 1
  funext a
  refine Fin.ext ?_
  have hc0 : (0 : Fin S19.rank) ∈ gW.collapsedSliceDims := by decide
  have hm0 : (0 : Fin S19.rank) ∈ gW.startIndexMap := by decide
  match a with
  | ⟨0, _⟩ =>
    show gW.start _ idx 0 + gW.batchCoord _ 0 + gW.offCoord _ 0 = _
    rw [GatherDims.batchCoord_eq_zero _ _ _ List.not_mem_nil,
      GatherDims.offCoord_eq_zero _ _ _ (fun h => ((GatherDims.mem_sKept _ _).mp h).1 hc0), Nat.add_zero]
    unfold GatherDims.start
    rw [dif_pos hm0]
    have hsi : gW.siIdx (ix3 (n0 := 8) (n1 := 512) (n2 := 1024) b h w)
        ⟨List.idxOf (0 : Fin S19.rank) gW.startIndexMap, List.idxOf_lt_length_iff.2 hm0⟩
        = ix4 (n0 := 8) (n1 := 512) (n2 := 1024) (n3 := 1) b h w 0 := by
      funext c; refine Fin.ext ?_
      match c with
      | ⟨0, _⟩ => rfl
      | ⟨1, _⟩ => rfl
      | ⟨2, _⟩ => rfl
      | ⟨3, _⟩ => rfl
    rw [hsi]
    rfl

/-! ## The log-probability and the weight of the pixel's label -/

/-- The real logits as extended reals. -/
abbrev xe (x : Cert.Spec.SX.Idx → ℝ) : (⟨S8x19x512x1024, .f32⟩ : BufTy).Contents (Elt Ideal) :=
  fun k => ((x k : ℝ) : EReal)

/-- The gather along the class axis reads the log-softmax at the pixel's label. -/
theorem c3v13_at (x : Cert.Spec.SX.Idx → ℝ) (tc : Cert.Spec.ST.Idx → Fin 19) (b : Fin 8) (h : Fin 512) (w : Fin 1024) :
    val_main_call3_v13 (F := Ideal) (xe x) (lab tc) (ix4 (n0 := 8) (n1 := 1) (n2 := 512) (n3 := 1024) b 0 h w)
      = val_main_v16 (F := Ideal) (xe x) (ix4 (n0 := 8) (n1 := 19) (n2 := 512) (n3 := 1024) b
          (tc (ix3 (n0 := 8) (n1 := 512) (n2 := 1024) b h w)) h w) := by
  unfold val_main_call3_v13
  generalize val_main_v16 (F := Ideal) (xe x) = y
  refine (gatherC_apply y _ b h w).trans ?_
  refine congrArg (fun k => y (ix4 (n0 := 8) (n1 := 19) (n2 := 512) (n3 := 1024) b k h w)) (Fin.ext ?_)
  show min (val_main_call3_v5 (F := Ideal) (lab tc)
    (ix5 (n0 := 8) (n1 := 1) (n2 := 512) (n3 := 1024) (n4 := 1) b 0 h w 0)).toInt.toNat (19 - 1) = _
  rw [c3v5_at]
  exact toNat_cw _

/-- The log-probability of the pixel's label. -/
theorem v20_at (x : Cert.Spec.SX.Idx → ℝ) (tc : Cert.Spec.ST.Idx → Fin 19) (b : Fin 8) (h : Fin 512) (w : Fin 1024) :
    val_main_v20 (F := Ideal) (xe x) (lab tc) (ix3 (n0 := 8) (n1 := 512) (n2 := 1024) b h w)
      = ((Cert.Spec.vlp (Cert.Spec.logits x (ix3 (n0 := 8) (n1 := 512) (n2 := 1024) b h w))
          (tc (ix3 (n0 := 8) (n1 := 512) (n2 := 1024) b h w)) : ℝ) : EReal) := by
  rw [val_main_v20_apply]
  have hi : idx_main_v20 (ix3 (n0 := 8) (n1 := 512) (n2 := 1024) b h w)
      = ix4 (n0 := 8) (n1 := 1) (n2 := 512) (n3 := 1024) b 0 h w := by
    funext a
    have hb := b.isLt; have hh := h.isLt; have hw := w.isLt
    match a with
    | ⟨0, _⟩ => exact Fin.ext (by show ((b.val * 512 + h.val) * 1024 + w.val) / 524288 = b.val; omega)
    | ⟨1, _⟩ => rfl
    | ⟨2, _⟩ => exact Fin.ext (by show ((b.val * 512 + h.val) * 1024 + w.val) / 1024 % 512 = h.val; omega)
    | ⟨3, _⟩ => exact Fin.ext (by show ((b.val * 512 + h.val) * 1024 + w.val) % 1024 = w.val; omega)
  rw [hi, val_main_v19_apply, c3v12_gen, select_one, c3v13_at]
  exact RefSoftmax.logsoftmax x _

/-- Every pixel is valid: the mask as a float is 1. -/
theorem v23_at (tc : Cert.Spec.ST.Idx → Fin 19) (p : S8x512x1024.Idx) :
    val_main_v23 (F := Ideal) (lab tc) p = ((1 : ℝ) : EReal) := by
  rw [val_main_v23_apply, val_main_v22_apply, val_main_v21_apply, val_main_c_7_apply, ne_cw]
  show ((((1#1 : BitVec 1).toNat : ℕ) : ℝ) : EReal) = ((1 : ℝ) : EReal)
  rw [show (1#1 : BitVec 1).toNat = 1 from rfl, Nat.cast_one]

/-- The second negative-index normalisation does nothing either. -/
theorem v28_at (tc : Cert.Spec.ST.Idx → Fin 19) (p : S8x512x1024.Idx) :
    val_main_v28 (F := Ideal) (lab tc) p = Cert.Spec.cw (tc p) := by
  rw [val_main_v28_apply, val_main_v25_apply, v17_at, val_main_v24_apply, val_main_c_8_apply, slt_cw, select_zero]

/-- The start indices of the gather of the weights. -/
theorem v29_at (tc : Cert.Spec.ST.Idx → Fin 19) (b : Fin 8) (h : Fin 512) (w : Fin 1024) :
    val_main_v29 (F := Ideal) (lab tc) (ix4 (n0 := 8) (n1 := 512) (n2 := 1024) (n3 := 1) b h w 0)
      = Cert.Spec.cw (tc (ix3 (n0 := 8) (n1 := 512) (n2 := 1024) b h w)) := by
  rw [val_main_v29_apply, v28_at]
  congr 2
  funext a
  match a with
  | ⟨0, _⟩ => rfl
  | ⟨1, _⟩ => rfl
  | ⟨2, _⟩ => rfl

/-- The weight of the pixel's label. -/
theorem v30_at (tc : Cert.Spec.ST.Idx → Fin 19) (b : Fin 8) (h : Fin 512) (w : Fin 1024) :
    val_main_v30 (F := Ideal) (lab tc) (ix3 (n0 := 8) (n1 := 512) (n2 := 1024) b h w)
      = ((Cert.Spec.wgtOf (Cert.Spec.cnt tc (tc (ix3 (n0 := 8) (n1 := 512) (n2 := 1024) b h w))) : ℝ) : EReal) := by
  unfold val_main_v30
  generalize hy : val_main_v15 (F := Ideal) (lab tc) = y
  refine (gatherW_apply y _ b h w).trans ?_
  have hk : (⟨min (val_main_v29 (F := Ideal) (lab tc)
      (ix4 (n0 := 8) (n1 := 512) (n2 := 1024) (n3 := 1) b h w 0)).toInt.toNat (19 - 1), by omega⟩ : Fin 19)
      = tc (ix3 (n0 := 8) (n1 := 512) (n2 := 1024) b h w) := by
    refine Fin.ext ?_
    show min _ (19 - 1) = _
    rw [v29_at]
    exact toNat_cw _
  rw [hk, ← hy]
  exact RefCount.weights tc _

/-- The weight times the valid mask, and that times the log-probability. -/
theorem v31_at (tc : Cert.Spec.ST.Idx → Fin 19) (b : Fin 8) (h : Fin 512) (w : Fin 1024) :
    val_main_v31 (F := Ideal) (lab tc) (ix3 (n0 := 8) (n1 := 512) (n2 := 1024) b h w)
      = ((Cert.Spec.wgtOf (Cert.Spec.cnt tc (tc (ix3 (n0 := 8) (n1 := 512) (n2 := 1024) b h w))) * 1 : ℝ) : EReal) := by
  rw [val_main_v31_apply, v30_at, v23_at, Ideal.mulf_def, EReal.coe_mul]

theorem v32_at (x : Cert.Spec.SX.Idx → ℝ) (tc : Cert.Spec.ST.Idx → Fin 19) (b : Fin 8) (h : Fin 512) (w : Fin 1024) :
    val_main_v32 (F := Ideal) (xe x) (lab tc) (ix3 (n0 := 8) (n1 := 512) (n2 := 1024) b h w)
      = (((Cert.Spec.wgtOf (Cert.Spec.cnt tc (tc (ix3 (n0 := 8) (n1 := 512) (n2 := 1024) b h w))) * 1)
          * Cert.Spec.vlp (Cert.Spec.logits x (ix3 (n0 := 8) (n1 := 512) (n2 := 1024) b h w))
              (tc (ix3 (n0 := 8) (n1 := 512) (n2 := 1024) b h w)) : ℝ) : EReal) := by
  rw [val_main_v32_apply, v31_at, v20_at, Ideal.mulf_def, ← EReal.coe_mul]

/-- The same two at any pixel. -/
theorem v31_gen (tc : Cert.Spec.ST.Idx → Fin 19) (p : S8x512x1024.Idx) :
    val_main_v31 (F := Ideal) (lab tc) p = ((Cert.Spec.wgtOf (Cert.Spec.cnt tc (tc p)) * 1 : ℝ) : EReal) := by
  rw [eq_ix3 p]
  exact v31_at tc (p 0) (p 1) (p 2)

theorem v32_gen (x : Cert.Spec.SX.Idx → ℝ) (tc : Cert.Spec.ST.Idx → Fin 19) (p : S8x512x1024.Idx) :
    val_main_v32 (F := Ideal) (xe x) (lab tc) p
      = (((Cert.Spec.wgtOf (Cert.Spec.cnt tc (tc p)) * 1) * Cert.Spec.vlp (Cert.Spec.logits x p) (tc p) : ℝ) : EReal) := by
  rw [eq_ix3 p]
  exact v32_at x tc (p 0) (p 1) (p 2)

/-! ## The two sums over the pixels, and the quotient -/

/-- A finite sum of reals, taken in the extended reals. -/
theorem coe_sum {ι : Type} (S : Finset ι) (f : ι → ℝ) : ∑ i ∈ S, ((f i : ℝ) : EReal) = ((∑ i ∈ S, f i : ℝ) : EReal) := by
  induction S using Finset.cons_induction with
  | empty => rw [Finset.sum_empty, Finset.sum_empty, EReal.coe_zero]
  | cons a S ha ih => rw [Finset.sum_cons, Finset.sum_cons, ih, EReal.coe_add]

/-- The reference's result at real logits `x` and in-range labels `tc`. -/
theorem loss (x : Cert.Spec.SX.Idx → ℝ) (tc : Cert.Spec.ST.Idx → Fin 19) :
    val_main_v36 (F := Ideal) (fun k => ((x k : ℝ) : EReal)) (fun p => Cert.Spec.cw (tc p))
      = fun _ => Cert.Spec.result (Cert.Spec.numR x tc) (Cert.Spec.denR tc) := by
  funext i
  show val_main_v36 (F := Ideal) (xe x) (lab tc) i = _
  rw [val_main_v36_apply, val_main_v34_apply, val_main_v33_apply, val_main_v35_apply, val_main_cst_10_apply,
    val_main_cst_11_apply, Ideal.ofBits_def, Ideal.ofBits_zero_f32, zero_add, zero_add,
    Finset.sum_congr rfl (fun p _ => v32_gen x tc p), Finset.sum_congr rfl (fun p _ => v31_gen tc p),
    coe_sum, coe_sum, Ideal.hostNegf_def, Ideal.negf_def, Ideal.hostDivf_def]
  rfl

end Cert.ReferenceIdeal.RefLoss

end
-- ==== Proof.RefPlain.lean ====
/-
  A called function's operations as plain operations.

  A called function's operation is built over typed references, its function moved to the buffers' own types along the
  references' type equations. Such an operation is the plain builder's at the references' buffers with the function
  transported as a whole; at literal references the transport is along `rfl` and disappears.
-/
import Idealize.ShloMosaic.Lib.StableHlo.Run

noncomputable section

namespace Cert.ReferenceIdeal.RefRun

open Idealize.ShloMosaic Idealize.ShloMosaic.StableHlo

variable {τ' : Topo} {sg : RefSig} {V : EltTy → Type}

theorem tunary_eq {Tx Ty : BufTy} (X : TRef sg Tx) (Y : TRef sg Ty) (f : Tx.Contents V → Ty.Contents V) :
    (TRef.unary X Y f : HloOp τ' sg V)
      = unary X.ref Y.ref (cast (by rw [X.ty_eq, Y.ty_eq]) f) X.dev Y.dev := by
  obtain ⟨x, hx, _, _⟩ := X; obtain ⟨y, hy, _, _⟩ := Y
  subst hx hy
  rfl

theorem tbinary_eq {Ta Tb Ty : BufTy} (A : TRef sg Ta) (B : TRef sg Tb) (Y : TRef sg Ty)
    (f : Ta.Contents V → Tb.Contents V → Ty.Contents V) :
    (TRef.binary A B Y f : HloOp τ' sg V)
      = binary A.ref B.ref Y.ref (cast (by rw [A.ty_eq, B.ty_eq, Y.ty_eq]) f) A.dev B.dev Y.dev := by
  obtain ⟨a, ha, _, _⟩ := A; obtain ⟨b, hb, _, _⟩ := B; obtain ⟨y, hy, _, _⟩ := Y
  subst ha hb hy
  rfl

theorem tternary_eq {Tc Ta Tb Ty : BufTy} (C : TRef sg Tc) (A : TRef sg Ta) (B : TRef sg Tb) (Y : TRef sg Ty)
    (f : Tc.Contents V → Ta.Contents V → Tb.Contents V → Ty.Contents V) :
    (TRef.ternary C A B Y f : HloOp τ' sg V)
      = ternary C.ref A.ref B.ref Y.ref (cast (by rw [C.ty_eq, A.ty_eq, B.ty_eq, Y.ty_eq]) f) C.dev A.dev B.dev Y.dev := by
  obtain ⟨c, hc, _, _⟩ := C; obtain ⟨a, ha, _, _⟩ := A; obtain ⟨b, hb, _, _⟩ := B; obtain ⟨y, hy, _, _⟩ := Y
  subst hc ha hb hy
  rfl

end Cert.ReferenceIdeal.RefRun

end
-- ==== Proof.RefSteps.lean ====
/-
  The reference program's stages, one operation at a time.

  `Inv k x0 x1 W` says that in the contents `W` the two arguments hold `x0` and `x1` and every buffer that an operation
  from the `k`-th on still reads holds its stage's value `val_<buffer>` of `x0`, `x1`. Operation `k` carries `Inv k` to
  `Inv (k+1)` (`step k`): at its own result buffer it writes its function of its operands' contents, which are the
  operands' stages, and that is the result's stage by definition; every other buffer keeps what it held. `stages` chains
  the steps over the whole list of operations.
-/
import proofs.«430136_j16260746182668_3_alg».proof.Proof.RefRead
import proofs.«430136_j16260746182668_3_alg».proof.Proof.RefOps
import proofs.«430136_j16260746182668_3_alg».proof.Proof.RefPlain
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

variable {F : FTy → Type} [FloatOps F]

-- The reductions, the gather and the scatter are never computed here: each stays the named operation it is.
attribute [local irreducible] Host.reduce Host.reduceAdd Host.gather Host.scatter

/-- What the arguments and the buffers still to be read hold after the first 0 operations. -/
abbrev Inv0 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1

/-- What the arguments and the buffers still to be read hold after the first 1 operations. -/
abbrev Inv1 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v0) = val_main_v0 (F := F) x1

/-- What the arguments and the buffers still to be read hold after the first 2 operations. -/
abbrev Inv2 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v0) = val_main_v0 (F := F) x1 ∧
  W (Proc.devRef .tc main_c) = val_main_c (F := F)

/-- What the arguments and the buffers still to be read hold after the first 3 operations. -/
abbrev Inv3 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v0) = val_main_v0 (F := F) x1 ∧
  W (Proc.devRef .tc main_v1) = val_main_v1 (F := F)

/-- What the arguments and the buffers still to be read hold after the first 4 operations. -/
abbrev Inv4 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v0) = val_main_v0 (F := F) x1 ∧
  W (Proc.devRef .tc main_v1) = val_main_v1 (F := F) ∧
  W (Proc.devRef .tc main_c_0) = val_main_c_0 (F := F)

/-- What the arguments and the buffers still to be read hold after the first 5 operations. -/
abbrev Inv5 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v0) = val_main_v0 (F := F) x1 ∧
  W (Proc.devRef .tc main_v1) = val_main_v1 (F := F) ∧
  W (Proc.devRef .tc main_call0_v0) = val_main_call0_v0 (F := F)

/-- What the arguments and the buffers still to be read hold after the first 6 operations. -/
abbrev Inv6 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v0) = val_main_v0 (F := F) x1 ∧
  W (Proc.devRef .tc main_v1) = val_main_v1 (F := F) ∧
  W (Proc.devRef .tc main_call0_v1) = val_main_call0_v1 (F := F)

/-- What the arguments and the buffers still to be read hold after the first 7 operations. -/
abbrev Inv7 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v1) = val_main_v1 (F := F) ∧
  W (Proc.devRef .tc main_v2) = val_main_v2 (F := F) x1

/-- What the arguments and the buffers still to be read hold after the first 8 operations. -/
abbrev Inv8 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v1) = val_main_v1 (F := F) ∧
  W (Proc.devRef .tc main_v2) = val_main_v2 (F := F) x1 ∧
  W (Proc.devRef .tc main_c_1) = val_main_c_1 (F := F)

/-- What the arguments and the buffers still to be read hold after the first 9 operations. -/
abbrev Inv9 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v1) = val_main_v1 (F := F) ∧
  W (Proc.devRef .tc main_v2) = val_main_v2 (F := F) x1 ∧
  W (Proc.devRef .tc main_v3) = val_main_v3 (F := F)

/-- What the arguments and the buffers still to be read hold after the first 10 operations. -/
abbrev Inv10 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v1) = val_main_v1 (F := F) ∧
  W (Proc.devRef .tc main_v2) = val_main_v2 (F := F) x1 ∧
  W (Proc.devRef .tc main_v4) = val_main_v4 (F := F) x1

/-- What the arguments and the buffers still to be read hold after the first 11 operations. -/
abbrev Inv11 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v1) = val_main_v1 (F := F) ∧
  W (Proc.devRef .tc main_v2) = val_main_v2 (F := F) x1 ∧
  W (Proc.devRef .tc main_v4) = val_main_v4 (F := F) x1 ∧
  W (Proc.devRef .tc main_c_2) = val_main_c_2 (F := F)

/-- What the arguments and the buffers still to be read hold after the first 12 operations. -/
abbrev Inv12 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v1) = val_main_v1 (F := F) ∧
  W (Proc.devRef .tc main_v2) = val_main_v2 (F := F) x1 ∧
  W (Proc.devRef .tc main_v4) = val_main_v4 (F := F) x1 ∧
  W (Proc.devRef .tc main_v5) = val_main_v5 (F := F)

/-- What the arguments and the buffers still to be read hold after the first 13 operations. -/
abbrev Inv13 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v1) = val_main_v1 (F := F) ∧
  W (Proc.devRef .tc main_v2) = val_main_v2 (F := F) x1 ∧
  W (Proc.devRef .tc main_v4) = val_main_v4 (F := F) x1 ∧
  W (Proc.devRef .tc main_v6) = val_main_v6 (F := F) x1

/-- What the arguments and the buffers still to be read hold after the first 14 operations. -/
abbrev Inv14 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v1) = val_main_v1 (F := F) ∧
  W (Proc.devRef .tc main_v7) = val_main_v7 (F := F) x1

/-- What the arguments and the buffers still to be read hold after the first 15 operations. -/
abbrev Inv15 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v1) = val_main_v1 (F := F) ∧
  W (Proc.devRef .tc main_v8) = val_main_v8 (F := F) x1

/-- What the arguments and the buffers still to be read hold after the first 16 operations. -/
abbrev Inv16 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v1) = val_main_v1 (F := F) ∧
  W (Proc.devRef .tc main_v8) = val_main_v8 (F := F) x1 ∧
  W (Proc.devRef .tc main_c_3) = val_main_c_3 (F := F)

/-- What the arguments and the buffers still to be read hold after the first 17 operations. -/
abbrev Inv17 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v1) = val_main_v1 (F := F) ∧
  W (Proc.devRef .tc main_v8) = val_main_v8 (F := F) x1 ∧
  W (Proc.devRef .tc main_v9) = val_main_v9 (F := F)

/-- What the arguments and the buffers still to be read hold after the first 18 operations. -/
abbrev Inv18 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v10) = val_main_v10 (F := F) x1

/-- What the arguments and the buffers still to be read hold after the first 19 operations. -/
abbrev Inv19 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v11) = val_main_v11 (F := F) x1

/-- What the arguments and the buffers still to be read hold after the first 20 operations. -/
abbrev Inv20 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v11) = val_main_v11 (F := F) x1 ∧
  W (Proc.devRef .tc main_cst) = val_main_cst (F := F)

/-- What the arguments and the buffers still to be read hold after the first 21 operations. -/
abbrev Inv21 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v11) = val_main_v11 (F := F) x1 ∧
  W (Proc.devRef .tc main_v12) = val_main_v12 (F := F)

/-- What the arguments and the buffers still to be read hold after the first 22 operations. -/
abbrev Inv22 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v13) = val_main_v13 (F := F) x1

/-- What the arguments and the buffers still to be read hold after the first 23 operations. -/
abbrev Inv23 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v13) = val_main_v13 (F := F) x1 ∧
  W (Proc.devRef .tc main_cst_4) = val_main_cst_4 (F := F)

/-- What the arguments and the buffers still to be read hold after the first 24 operations. -/
abbrev Inv24 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v13) = val_main_v13 (F := F) x1 ∧
  W (Proc.devRef .tc main_v14) = val_main_v14 (F := F)

/-- What the arguments and the buffers still to be read hold after the first 25 operations. -/
abbrev Inv25 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1

/-- What the arguments and the buffers still to be read hold after the first 26 operations. -/
abbrev Inv26 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_call1_cst) = val_main_call1_cst (F := F)

/-- What the arguments and the buffers still to be read hold after the first 27 operations. -/
abbrev Inv27 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_call1_v0) = val_main_call1_v0 (F := F) x0

/-- What the arguments and the buffers still to be read hold after the first 28 operations. -/
abbrev Inv28 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_call1_v0) = val_main_call1_v0 (F := F) x0 ∧
  W (Proc.devRef .tc main_call1_cst_0) = val_main_call1_cst_0 (F := F)

/-- What the arguments and the buffers still to be read hold after the first 29 operations. -/
abbrev Inv29 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_call1_v0) = val_main_call1_v0 (F := F) x0 ∧
  W (Proc.devRef .tc main_call1_v1) = val_main_call1_v1 (F := F)

/-- What the arguments and the buffers still to be read hold after the first 30 operations. -/
abbrev Inv30 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_call1_v2) = val_main_call1_v2 (F := F) x0

/-- What the arguments and the buffers still to be read hold after the first 31 operations. -/
abbrev Inv31 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_call1_v3) = val_main_call1_v3 (F := F) x0

/-- What the arguments and the buffers still to be read hold after the first 32 operations. -/
abbrev Inv32 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_call1_v4) = val_main_call1_v4 (F := F) x0

/-- What the arguments and the buffers still to be read hold after the first 33 operations. -/
abbrev Inv33 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_call1_v5) = val_main_call1_v5 (F := F) x0

/-- What the arguments and the buffers still to be read hold after the first 34 operations. -/
abbrev Inv34 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_call1_v5) = val_main_call1_v5 (F := F) x0 ∧
  W (Proc.devRef .tc main_call1_v6) = val_main_call1_v6 (F := F) x0

/-- What the arguments and the buffers still to be read hold after the first 35 operations. -/
abbrev Inv35 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_call1_v5) = val_main_call1_v5 (F := F) x0 ∧
  W (Proc.devRef .tc main_call1_v6) = val_main_call1_v6 (F := F) x0 ∧
  W (Proc.devRef .tc main_call1_cst_1) = val_main_call1_cst_1 (F := F)

/-- What the arguments and the buffers still to be read hold after the first 36 operations. -/
abbrev Inv36 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_call1_v5) = val_main_call1_v5 (F := F) x0 ∧
  W (Proc.devRef .tc main_call1_v7) = val_main_call1_v7 (F := F) x0

/-- What the arguments and the buffers still to be read hold after the first 37 operations. -/
abbrev Inv37 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_call1_v5) = val_main_call1_v5 (F := F) x0 ∧
  W (Proc.devRef .tc main_call1_v8) = val_main_call1_v8 (F := F) x0

/-- What the arguments and the buffers still to be read hold after the first 38 operations. -/
abbrev Inv38 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_call1_v5) = val_main_call1_v5 (F := F) x0 ∧
  W (Proc.devRef .tc main_call1_v9) = val_main_call1_v9 (F := F) x0

/-- What the arguments and the buffers still to be read hold after the first 39 operations. -/
abbrev Inv39 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_call1_v5) = val_main_call1_v5 (F := F) x0 ∧
  W (Proc.devRef .tc main_call1_v10) = val_main_call1_v10 (F := F) x0

/-- What the arguments and the buffers still to be read hold after the first 40 operations. -/
abbrev Inv40 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v16) = val_main_v16 (F := F) x0

/-- What the arguments and the buffers still to be read hold after the first 41 operations. -/
abbrev Inv41 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v16) = val_main_v16 (F := F) x0 ∧
  W (Proc.devRef .tc main_c_5) = val_main_c_5 (F := F)

/-- What the arguments and the buffers still to be read hold after the first 42 operations. -/
abbrev Inv42 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v16) = val_main_v16 (F := F) x0 ∧
  W (Proc.devRef .tc main_c_5) = val_main_c_5 (F := F) ∧
  W (Proc.devRef .tc main_c_6) = val_main_c_6 (F := F)

/-- What the arguments and the buffers still to be read hold after the first 43 operations. -/
abbrev Inv43 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v16) = val_main_v16 (F := F) x0 ∧
  W (Proc.devRef .tc main_c_6) = val_main_c_6 (F := F) ∧
  W (Proc.devRef .tc main_call2_v0) = val_main_call2_v0 (F := F)

/-- What the arguments and the buffers still to be read hold after the first 44 operations. -/
abbrev Inv44 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v16) = val_main_v16 (F := F) x0 ∧
  W (Proc.devRef .tc main_c_6) = val_main_c_6 (F := F) ∧
  W (Proc.devRef .tc main_call2_v1) = val_main_call2_v1 (F := F)

/-- What the arguments and the buffers still to be read hold after the first 45 operations. -/
abbrev Inv45 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v16) = val_main_v16 (F := F) x0 ∧
  W (Proc.devRef .tc main_c_6) = val_main_c_6 (F := F) ∧
  W (Proc.devRef .tc main_call2_v2) = val_main_call2_v2 (F := F) x1

/-- What the arguments and the buffers still to be read hold after the first 46 operations. -/
abbrev Inv46 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v16) = val_main_v16 (F := F) x0 ∧
  W (Proc.devRef .tc main_call2_v2) = val_main_call2_v2 (F := F) x1 ∧
  W (Proc.devRef .tc main_call2_v3) = val_main_call2_v3 (F := F)

/-- What the arguments and the buffers still to be read hold after the first 47 operations. -/
abbrev Inv47 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v16) = val_main_v16 (F := F) x0 ∧
  W (Proc.devRef .tc main_call2_v2) = val_main_call2_v2 (F := F) x1 ∧
  W (Proc.devRef .tc main_call2_v4) = val_main_call2_v4 (F := F)

/-- What the arguments and the buffers still to be read hold after the first 48 operations. -/
abbrev Inv48 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v16) = val_main_v16 (F := F) x0 ∧
  W (Proc.devRef .tc main_v17) = val_main_v17 (F := F) x1

/-- What the arguments and the buffers still to be read hold after the first 49 operations. -/
abbrev Inv49 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v16) = val_main_v16 (F := F) x0 ∧
  W (Proc.devRef .tc main_v17) = val_main_v17 (F := F) x1 ∧
  W (Proc.devRef .tc main_v18) = val_main_v18 (F := F) x1

/-- What the arguments and the buffers still to be read hold after the first 50 operations. -/
abbrev Inv50 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v16) = val_main_v16 (F := F) x0 ∧
  W (Proc.devRef .tc main_v17) = val_main_v17 (F := F) x1 ∧
  W (Proc.devRef .tc main_v18) = val_main_v18 (F := F) x1 ∧
  W (Proc.devRef .tc main_call3_c) = val_main_call3_c (F := F)

/-- What the arguments and the buffers still to be read hold after the first 51 operations. -/
abbrev Inv51 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v16) = val_main_v16 (F := F) x0 ∧
  W (Proc.devRef .tc main_v17) = val_main_v17 (F := F) x1 ∧
  W (Proc.devRef .tc main_v18) = val_main_v18 (F := F) x1 ∧
  W (Proc.devRef .tc main_call3_v0) = val_main_call3_v0 (F := F)

/-- What the arguments and the buffers still to be read hold after the first 52 operations. -/
abbrev Inv52 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v16) = val_main_v16 (F := F) x0 ∧
  W (Proc.devRef .tc main_v17) = val_main_v17 (F := F) x1 ∧
  W (Proc.devRef .tc main_v18) = val_main_v18 (F := F) x1 ∧
  W (Proc.devRef .tc main_call3_v1) = val_main_call3_v1 (F := F) x1

/-- What the arguments and the buffers still to be read hold after the first 53 operations. -/
abbrev Inv53 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v16) = val_main_v16 (F := F) x0 ∧
  W (Proc.devRef .tc main_v17) = val_main_v17 (F := F) x1 ∧
  W (Proc.devRef .tc main_v18) = val_main_v18 (F := F) x1 ∧
  W (Proc.devRef .tc main_call3_v1) = val_main_call3_v1 (F := F) x1 ∧
  W (Proc.devRef .tc main_call3_c_0) = val_main_call3_c_0 (F := F)

/-- What the arguments and the buffers still to be read hold after the first 54 operations. -/
abbrev Inv54 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v16) = val_main_v16 (F := F) x0 ∧
  W (Proc.devRef .tc main_v17) = val_main_v17 (F := F) x1 ∧
  W (Proc.devRef .tc main_v18) = val_main_v18 (F := F) x1 ∧
  W (Proc.devRef .tc main_call3_v1) = val_main_call3_v1 (F := F) x1 ∧
  W (Proc.devRef .tc main_call3_v2) = val_main_call3_v2 (F := F)

/-- What the arguments and the buffers still to be read hold after the first 55 operations. -/
abbrev Inv55 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v16) = val_main_v16 (F := F) x0 ∧
  W (Proc.devRef .tc main_v17) = val_main_v17 (F := F) x1 ∧
  W (Proc.devRef .tc main_v18) = val_main_v18 (F := F) x1 ∧
  W (Proc.devRef .tc main_call3_v1) = val_main_call3_v1 (F := F) x1 ∧
  W (Proc.devRef .tc main_call3_v3) = val_main_call3_v3 (F := F) x1

/-- What the arguments and the buffers still to be read hold after the first 56 operations. -/
abbrev Inv56 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v16) = val_main_v16 (F := F) x0 ∧
  W (Proc.devRef .tc main_v17) = val_main_v17 (F := F) x1 ∧
  W (Proc.devRef .tc main_call3_v4) = val_main_call3_v4 (F := F) x1

/-- What the arguments and the buffers still to be read hold after the first 57 operations. -/
abbrev Inv57 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v16) = val_main_v16 (F := F) x0 ∧
  W (Proc.devRef .tc main_v17) = val_main_v17 (F := F) x1 ∧
  W (Proc.devRef .tc main_call3_v5) = val_main_call3_v5 (F := F) x1

/-- What the arguments and the buffers still to be read hold after the first 58 operations. -/
abbrev Inv58 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v16) = val_main_v16 (F := F) x0 ∧
  W (Proc.devRef .tc main_v17) = val_main_v17 (F := F) x1 ∧
  W (Proc.devRef .tc main_call3_v5) = val_main_call3_v5 (F := F) x1 ∧
  W (Proc.devRef .tc main_call3_c_1) = val_main_call3_c_1 (F := F)

/-- What the arguments and the buffers still to be read hold after the first 59 operations. -/
abbrev Inv59 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v16) = val_main_v16 (F := F) x0 ∧
  W (Proc.devRef .tc main_v17) = val_main_v17 (F := F) x1 ∧
  W (Proc.devRef .tc main_call3_v5) = val_main_call3_v5 (F := F) x1 ∧
  W (Proc.devRef .tc main_call3_c_1) = val_main_call3_c_1 (F := F) ∧
  W (Proc.devRef .tc main_call3_c_2) = val_main_call3_c_2 (F := F)

/-- What the arguments and the buffers still to be read hold after the first 60 operations. -/
abbrev Inv60 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v16) = val_main_v16 (F := F) x0 ∧
  W (Proc.devRef .tc main_v17) = val_main_v17 (F := F) x1 ∧
  W (Proc.devRef .tc main_call3_v5) = val_main_call3_v5 (F := F) x1 ∧
  W (Proc.devRef .tc main_call3_c_1) = val_main_call3_c_1 (F := F) ∧
  W (Proc.devRef .tc main_call3_v6) = val_main_call3_v6 (F := F)

/-- What the arguments and the buffers still to be read hold after the first 61 operations. -/
abbrev Inv61 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v16) = val_main_v16 (F := F) x0 ∧
  W (Proc.devRef .tc main_v17) = val_main_v17 (F := F) x1 ∧
  W (Proc.devRef .tc main_call3_v5) = val_main_call3_v5 (F := F) x1 ∧
  W (Proc.devRef .tc main_call3_c_1) = val_main_call3_c_1 (F := F) ∧
  W (Proc.devRef .tc main_call3_v7) = val_main_call3_v7 (F := F) x1

/-- What the arguments and the buffers still to be read hold after the first 62 operations. -/
abbrev Inv62 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v16) = val_main_v16 (F := F) x0 ∧
  W (Proc.devRef .tc main_v17) = val_main_v17 (F := F) x1 ∧
  W (Proc.devRef .tc main_call3_v5) = val_main_call3_v5 (F := F) x1 ∧
  W (Proc.devRef .tc main_call3_v7) = val_main_call3_v7 (F := F) x1 ∧
  W (Proc.devRef .tc main_call3_v8) = val_main_call3_v8 (F := F)

/-- What the arguments and the buffers still to be read hold after the first 63 operations. -/
abbrev Inv63 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v16) = val_main_v16 (F := F) x0 ∧
  W (Proc.devRef .tc main_v17) = val_main_v17 (F := F) x1 ∧
  W (Proc.devRef .tc main_call3_v5) = val_main_call3_v5 (F := F) x1 ∧
  W (Proc.devRef .tc main_call3_v7) = val_main_call3_v7 (F := F) x1 ∧
  W (Proc.devRef .tc main_call3_v9) = val_main_call3_v9 (F := F)

/-- What the arguments and the buffers still to be read hold after the first 64 operations. -/
abbrev Inv64 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v16) = val_main_v16 (F := F) x0 ∧
  W (Proc.devRef .tc main_v17) = val_main_v17 (F := F) x1 ∧
  W (Proc.devRef .tc main_call3_v5) = val_main_call3_v5 (F := F) x1 ∧
  W (Proc.devRef .tc main_call3_v7) = val_main_call3_v7 (F := F) x1 ∧
  W (Proc.devRef .tc main_call3_v10) = val_main_call3_v10 (F := F) x1

/-- What the arguments and the buffers still to be read hold after the first 65 operations. -/
abbrev Inv65 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v16) = val_main_v16 (F := F) x0 ∧
  W (Proc.devRef .tc main_v17) = val_main_v17 (F := F) x1 ∧
  W (Proc.devRef .tc main_call3_v5) = val_main_call3_v5 (F := F) x1 ∧
  W (Proc.devRef .tc main_call3_v11) = val_main_call3_v11 (F := F) x1

/-- What the arguments and the buffers still to be read hold after the first 66 operations. -/
abbrev Inv66 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v16) = val_main_v16 (F := F) x0 ∧
  W (Proc.devRef .tc main_v17) = val_main_v17 (F := F) x1 ∧
  W (Proc.devRef .tc main_call3_v5) = val_main_call3_v5 (F := F) x1 ∧
  W (Proc.devRef .tc main_call3_v11) = val_main_call3_v11 (F := F) x1 ∧
  W (Proc.devRef .tc main_call3_c_3) = val_main_call3_c_3 (F := F)

/-- What the arguments and the buffers still to be read hold after the first 67 operations. -/
abbrev Inv67 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v16) = val_main_v16 (F := F) x0 ∧
  W (Proc.devRef .tc main_v17) = val_main_v17 (F := F) x1 ∧
  W (Proc.devRef .tc main_call3_v5) = val_main_call3_v5 (F := F) x1 ∧
  W (Proc.devRef .tc main_call3_v12) = val_main_call3_v12 (F := F) x1

/-- What the arguments and the buffers still to be read hold after the first 68 operations. -/
abbrev Inv68 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v17) = val_main_v17 (F := F) x1 ∧
  W (Proc.devRef .tc main_call3_v12) = val_main_call3_v12 (F := F) x1 ∧
  W (Proc.devRef .tc main_call3_v13) = val_main_call3_v13 (F := F) x0 x1

/-- What the arguments and the buffers still to be read hold after the first 69 operations. -/
abbrev Inv69 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v17) = val_main_v17 (F := F) x1 ∧
  W (Proc.devRef .tc main_call3_v12) = val_main_call3_v12 (F := F) x1 ∧
  W (Proc.devRef .tc main_call3_v13) = val_main_call3_v13 (F := F) x0 x1 ∧
  W (Proc.devRef .tc main_call3_cst) = val_main_call3_cst (F := F)

/-- What the arguments and the buffers still to be read hold after the first 70 operations. -/
abbrev Inv70 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v17) = val_main_v17 (F := F) x1 ∧
  W (Proc.devRef .tc main_call3_v12) = val_main_call3_v12 (F := F) x1 ∧
  W (Proc.devRef .tc main_call3_v13) = val_main_call3_v13 (F := F) x0 x1 ∧
  W (Proc.devRef .tc main_call3_v14) = val_main_call3_v14 (F := F)

/-- What the arguments and the buffers still to be read hold after the first 71 operations. -/
abbrev Inv71 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v17) = val_main_v17 (F := F) x1 ∧
  W (Proc.devRef .tc main_v19) = val_main_v19 (F := F) x0 x1

/-- What the arguments and the buffers still to be read hold after the first 72 operations. -/
abbrev Inv72 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v17) = val_main_v17 (F := F) x1 ∧
  W (Proc.devRef .tc main_v20) = val_main_v20 (F := F) x0 x1

/-- What the arguments and the buffers still to be read hold after the first 73 operations. -/
abbrev Inv73 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v17) = val_main_v17 (F := F) x1 ∧
  W (Proc.devRef .tc main_v20) = val_main_v20 (F := F) x0 x1 ∧
  W (Proc.devRef .tc main_c_7) = val_main_c_7 (F := F)

/-- What the arguments and the buffers still to be read hold after the first 74 operations. -/
abbrev Inv74 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v17) = val_main_v17 (F := F) x1 ∧
  W (Proc.devRef .tc main_v20) = val_main_v20 (F := F) x0 x1 ∧
  W (Proc.devRef .tc main_v21) = val_main_v21 (F := F)

/-- What the arguments and the buffers still to be read hold after the first 75 operations. -/
abbrev Inv75 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v17) = val_main_v17 (F := F) x1 ∧
  W (Proc.devRef .tc main_v20) = val_main_v20 (F := F) x0 x1 ∧
  W (Proc.devRef .tc main_v22) = val_main_v22 (F := F) x1

/-- What the arguments and the buffers still to be read hold after the first 76 operations. -/
abbrev Inv76 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v17) = val_main_v17 (F := F) x1 ∧
  W (Proc.devRef .tc main_v20) = val_main_v20 (F := F) x0 x1 ∧
  W (Proc.devRef .tc main_v23) = val_main_v23 (F := F) x1

/-- What the arguments and the buffers still to be read hold after the first 77 operations. -/
abbrev Inv77 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v17) = val_main_v17 (F := F) x1 ∧
  W (Proc.devRef .tc main_v20) = val_main_v20 (F := F) x0 x1 ∧
  W (Proc.devRef .tc main_v23) = val_main_v23 (F := F) x1 ∧
  W (Proc.devRef .tc main_c_8) = val_main_c_8 (F := F)

/-- What the arguments and the buffers still to be read hold after the first 78 operations. -/
abbrev Inv78 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v17) = val_main_v17 (F := F) x1 ∧
  W (Proc.devRef .tc main_v20) = val_main_v20 (F := F) x0 x1 ∧
  W (Proc.devRef .tc main_v23) = val_main_v23 (F := F) x1 ∧
  W (Proc.devRef .tc main_v24) = val_main_v24 (F := F)

/-- What the arguments and the buffers still to be read hold after the first 79 operations. -/
abbrev Inv79 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v17) = val_main_v17 (F := F) x1 ∧
  W (Proc.devRef .tc main_v20) = val_main_v20 (F := F) x0 x1 ∧
  W (Proc.devRef .tc main_v23) = val_main_v23 (F := F) x1 ∧
  W (Proc.devRef .tc main_v25) = val_main_v25 (F := F) x1

/-- What the arguments and the buffers still to be read hold after the first 80 operations. -/
abbrev Inv80 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v17) = val_main_v17 (F := F) x1 ∧
  W (Proc.devRef .tc main_v20) = val_main_v20 (F := F) x0 x1 ∧
  W (Proc.devRef .tc main_v23) = val_main_v23 (F := F) x1 ∧
  W (Proc.devRef .tc main_v25) = val_main_v25 (F := F) x1 ∧
  W (Proc.devRef .tc main_c_9) = val_main_c_9 (F := F)

/-- What the arguments and the buffers still to be read hold after the first 81 operations. -/
abbrev Inv81 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v17) = val_main_v17 (F := F) x1 ∧
  W (Proc.devRef .tc main_v20) = val_main_v20 (F := F) x0 x1 ∧
  W (Proc.devRef .tc main_v23) = val_main_v23 (F := F) x1 ∧
  W (Proc.devRef .tc main_v25) = val_main_v25 (F := F) x1 ∧
  W (Proc.devRef .tc main_v26) = val_main_v26 (F := F)

/-- What the arguments and the buffers still to be read hold after the first 82 operations. -/
abbrev Inv82 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v17) = val_main_v17 (F := F) x1 ∧
  W (Proc.devRef .tc main_v20) = val_main_v20 (F := F) x0 x1 ∧
  W (Proc.devRef .tc main_v23) = val_main_v23 (F := F) x1 ∧
  W (Proc.devRef .tc main_v25) = val_main_v25 (F := F) x1 ∧
  W (Proc.devRef .tc main_v27) = val_main_v27 (F := F) x1

/-- What the arguments and the buffers still to be read hold after the first 83 operations. -/
abbrev Inv83 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v20) = val_main_v20 (F := F) x0 x1 ∧
  W (Proc.devRef .tc main_v23) = val_main_v23 (F := F) x1 ∧
  W (Proc.devRef .tc main_v28) = val_main_v28 (F := F) x1

/-- What the arguments and the buffers still to be read hold after the first 84 operations. -/
abbrev Inv84 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v15) = val_main_v15 (F := F) x1 ∧
  W (Proc.devRef .tc main_v20) = val_main_v20 (F := F) x0 x1 ∧
  W (Proc.devRef .tc main_v23) = val_main_v23 (F := F) x1 ∧
  W (Proc.devRef .tc main_v29) = val_main_v29 (F := F) x1

/-- What the arguments and the buffers still to be read hold after the first 85 operations. -/
abbrev Inv85 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v20) = val_main_v20 (F := F) x0 x1 ∧
  W (Proc.devRef .tc main_v23) = val_main_v23 (F := F) x1 ∧
  W (Proc.devRef .tc main_v30) = val_main_v30 (F := F) x1

/-- What the arguments and the buffers still to be read hold after the first 86 operations. -/
abbrev Inv86 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v20) = val_main_v20 (F := F) x0 x1 ∧
  W (Proc.devRef .tc main_v31) = val_main_v31 (F := F) x1

/-- What the arguments and the buffers still to be read hold after the first 87 operations. -/
abbrev Inv87 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v31) = val_main_v31 (F := F) x1 ∧
  W (Proc.devRef .tc main_v32) = val_main_v32 (F := F) x0 x1

/-- What the arguments and the buffers still to be read hold after the first 88 operations. -/
abbrev Inv88 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v31) = val_main_v31 (F := F) x1 ∧
  W (Proc.devRef .tc main_v32) = val_main_v32 (F := F) x0 x1 ∧
  W (Proc.devRef .tc main_cst_10) = val_main_cst_10 (F := F)

/-- What the arguments and the buffers still to be read hold after the first 89 operations. -/
abbrev Inv89 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v31) = val_main_v31 (F := F) x1 ∧
  W (Proc.devRef .tc main_v33) = val_main_v33 (F := F) x0 x1

/-- What the arguments and the buffers still to be read hold after the first 90 operations. -/
abbrev Inv90 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v31) = val_main_v31 (F := F) x1 ∧
  W (Proc.devRef .tc main_v34) = val_main_v34 (F := F) x0 x1

/-- What the arguments and the buffers still to be read hold after the first 91 operations. -/
abbrev Inv91 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v31) = val_main_v31 (F := F) x1 ∧
  W (Proc.devRef .tc main_v34) = val_main_v34 (F := F) x0 x1 ∧
  W (Proc.devRef .tc main_cst_11) = val_main_cst_11 (F := F)

/-- What the arguments and the buffers still to be read hold after the first 92 operations. -/
abbrev Inv92 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v34) = val_main_v34 (F := F) x0 x1 ∧
  W (Proc.devRef .tc main_v35) = val_main_v35 (F := F) x1

/-- What the arguments and the buffers still to be read hold after the first 93 operations. -/
abbrev Inv93 (x0 : (⟨S8x19x512x1024, .f32⟩ : BufTy).Contents (Elt F)) (x1 : (⟨S8x512x1024, .i32⟩ : BufTy).Contents (Elt F)) (W : Valuation τ sig (Elt F)) : Prop :=
  W (Proc.devRef .tc main_arg0) = x0 ∧
  W (Proc.devRef .tc main_arg1) = x1 ∧
  W (Proc.devRef .tc main_v36) = val_main_v36 (F := F) x0 x1

theorem step0 (x0 : (⟨S8x19x512x1024, .f32⟩ : BufTy).Contents (Elt F)) (x1 : (⟨S8x512x1024, .i32⟩ : BufTy).Contents (Elt F)) (W : Valuation τ sig (Elt F)) :
    Inv0 x0 x1 W → Inv1 x0 x1 (HloOp.result (reshape main_arg1 main_v0 rfl shapeCasts_S8x512x1024_S4194304 : HloOp τ sig (Elt F)) W) := by
  rintro ⟨h_main_arg0, h_main_arg1⟩
  refine ⟨?_, ?_, ?_⟩
  · rw [reshape_result_ne]; exact h_main_arg0; decide
  · rw [reshape_result_ne]; exact h_main_arg1; decide
  · rw [reshape_result, h_main_arg1]; rfl

theorem step1 (x0 : (⟨S8x19x512x1024, .f32⟩ : BufTy).Contents (Elt F)) (x1 : (⟨S8x512x1024, .i32⟩ : BufTy).Contents (Elt F)) (W : Valuation τ sig (Elt F)) :
    Inv1 x0 x1 W → Inv2 x0 x1 (HloOp.result (nullary main_c (constantI S_ 32 0#32) : HloOp τ sig (Elt F)) W) := by
  rintro ⟨h_main_arg0, h_main_arg1, h_main_v0⟩
  refine ⟨?_, ?_, ?_, ?_⟩
  · rw [nullary_result_ne]; exact h_main_arg0; decide
  · rw [nullary_result_ne]; exact h_main_arg1; decide
  · rw [nullary_result_ne]; exact h_main_v0; decide
  · rw [nullary_result]; rfl

theorem step2 (x0 : (⟨S8x19x512x1024, .f32⟩ : BufTy).Contents (Elt F)) (x1 : (⟨S8x512x1024, .i32⟩ : BufTy).Contents (Elt F)) (W : Valuation τ sig (Elt F)) :
    Inv2 x0 x1 W → Inv3 x0 x1 (HloOp.result (unary main_c main_v1 (broadcastInDim S19 ![] bcast_S_S19 : (⟨S_, .i32⟩ : BufTy).Contents (Elt F) → (⟨S19, .i32⟩ : BufTy).Contents (Elt F)) : HloOp τ sig (Elt F)) W) := by
  rintro ⟨h_main_arg0, h_main_arg1, h_main_v0, h_main_c⟩
  refine ⟨?_, ?_, ?_, ?_⟩
  · rw [unary_result_ne]; exact h_main_arg0; decide
  · rw [unary_result_ne]; exact h_main_arg1; decide
  · rw [unary_result_ne]; exact h_main_v0; decide
  · rw [unary_result, h_main_c]; rfl

theorem step3 (x0 : (⟨S8x19x512x1024, .f32⟩ : BufTy).Contents (Elt F)) (x1 : (⟨S8x512x1024, .i32⟩ : BufTy).Contents (Elt F)) (W : Valuation τ sig (Elt F)) :
    Inv3 x0 x1 W → Inv4 x0 x1 (HloOp.result (nullary main_c_0 (constantI S_ 32 0#32) : HloOp τ sig (Elt F)) W) := by
  rintro ⟨h_main_arg0, h_main_arg1, h_main_v0, h_main_v1⟩
  refine ⟨?_, ?_, ?_, ?_, ?_⟩
  · rw [nullary_result_ne]; exact h_main_arg0; decide
  · rw [nullary_result_ne]; exact h_main_arg1; decide
  · rw [nullary_result_ne]; exact h_main_v0; decide
  · rw [nullary_result_ne]; exact h_main_v1; decide
  · rw [nullary_result]; rfl

theorem step4 (x0 : (⟨S8x19x512x1024, .f32⟩ : BufTy).Contents (Elt F)) (x1 : (⟨S8x512x1024, .i32⟩ : BufTy).Contents (Elt F)) (W : Valuation τ sig (Elt F)) :
    Inv4 x0 x1 W → Inv5 x0 x1 (HloOp.result (TRef.unary (TRef.of (T := ⟨S_, .i32⟩) main_c_0) (TRef.of (T := ⟨S_, .i32⟩) main_call0_v0) id : HloOp τ sig (Elt F)) W) := by
  rintro ⟨h_main_arg0, h_main_arg1, h_main_v0, h_main_v1, h_main_c_0⟩
  refine ⟨?_, ?_, ?_, ?_, ?_⟩
  · rw [unary_result_ne]; exact h_main_arg0; decide
  · rw [unary_result_ne]; exact h_main_arg1; decide
  · rw [unary_result_ne]; exact h_main_v0; decide
  · rw [unary_result_ne]; exact h_main_v1; decide
  · have e : (TRef.unary (TRef.of (T := ⟨S_, .i32⟩) main_c_0) (TRef.of (T := ⟨S_, .i32⟩) main_call0_v0) id : HloOp τ sig (Elt F)) = unary main_c_0 main_call0_v0 (id : (⟨S_, .i32⟩ : BufTy).Contents (Elt F) → (⟨S_, .i32⟩ : BufTy).Contents (Elt F)) :=
      (tunary_eq _ _ _).trans rfl
    rw [e, unary_result, h_main_c_0]; rfl

theorem step5 (x0 : (⟨S8x19x512x1024, .f32⟩ : BufTy).Contents (Elt F)) (x1 : (⟨S8x512x1024, .i32⟩ : BufTy).Contents (Elt F)) (W : Valuation τ sig (Elt F)) :
    Inv5 x0 x1 W → Inv6 x0 x1 (HloOp.result (TRef.unary (TRef.of (T := ⟨S_, .i32⟩) main_call0_v0) (TRef.of (T := ⟨S4194304, .i32⟩) main_call0_v1) (broadcastInDim S4194304 ![] bcast_S_S4194304) : HloOp τ sig (Elt F)) W) := by
  rintro ⟨h_main_arg0, h_main_arg1, h_main_v0, h_main_v1, h_main_call0_v0⟩
  refine ⟨?_, ?_, ?_, ?_, ?_⟩
  · rw [unary_result_ne]; exact h_main_arg0; decide
  · rw [unary_result_ne]; exact h_main_arg1; decide
  · rw [unary_result_ne]; exact h_main_v0; decide
  · rw [unary_result_ne]; exact h_main_v1; decide
  · have e : (TRef.unary (TRef.of (T := ⟨S_, .i32⟩) main_call0_v0) (TRef.of (T := ⟨S4194304, .i32⟩) main_call0_v1) (broadcastInDim S4194304 ![] bcast_S_S4194304) : HloOp τ sig (Elt F)) = unary main_call0_v0 main_call0_v1 ((broadcastInDim S4194304 ![] bcast_S_S4194304) : (⟨S_, .i32⟩ : BufTy).Contents (Elt F) → (⟨S4194304, .i32⟩ : BufTy).Contents (Elt F)) :=
      (tunary_eq _ _ _).trans rfl
    rw [e, unary_result, h_main_call0_v0]; rfl

theorem step6 (x0 : (⟨S8x19x512x1024, .f32⟩ : BufTy).Contents (Elt F)) (x1 : (⟨S8x512x1024, .i32⟩ : BufTy).Contents (Elt F)) (W : Valuation τ sig (Elt F)) :
    Inv6 x0 x1 W → Inv7 x0 x1 (HloOp.result (TRef.binary (TRef.of (T := ⟨S4194304, .i32⟩) main_call0_v1) (TRef.of (T := ⟨S4194304, .i32⟩) main_v0) (TRef.of (T := ⟨S4194304, .i32⟩) main_v2) maxsi : HloOp τ sig (Elt F)) W) := by
  rintro ⟨h_main_arg0, h_main_arg1, h_main_v0, h_main_v1, h_main_call0_v1⟩
  refine ⟨?_, ?_, ?_, ?_⟩
  · rw [binary_result_ne]; exact h_main_arg0; decide
  · rw [binary_result_ne]; exact h_main_arg1; decide
  · rw [binary_result_ne]; exact h_main_v1; decide
  · have e : (TRef.binary (TRef.of (T := ⟨S4194304, .i32⟩) main_call0_v1) (TRef.of (T := ⟨S4194304, .i32⟩) main_v0) (TRef.of (T := ⟨S4194304, .i32⟩) main_v2) maxsi : HloOp τ sig (Elt F)) = binary main_call0_v1 main_v0 main_v2 (maxsi : (⟨S4194304, .i32⟩ : BufTy).Contents (Elt F) → (⟨S4194304, .i32⟩ : BufTy).Contents (Elt F) → (⟨S4194304, .i32⟩ : BufTy).Contents (Elt F)) :=
      (tbinary_eq _ _ _ _).trans rfl
    rw [e, binary_result, h_main_call0_v1, h_main_v0]; rfl

theorem step7 (x0 : (⟨S8x19x512x1024, .f32⟩ : BufTy).Contents (Elt F)) (x1 : (⟨S8x512x1024, .i32⟩ : BufTy).Contents (Elt F)) (W : Valuation τ sig (Elt F)) :
    Inv7 x0 x1 W → Inv8 x0 x1 (HloOp.result (nullary main_c_1 (constantI S_ 32 0#32) : HloOp τ sig (Elt F)) W) := by
  rintro ⟨h_main_arg0, h_main_arg1, h_main_v1, h_main_v2⟩
  refine ⟨?_, ?_, ?_, ?_, ?_⟩
  · rw [nullary_result_ne]; exact h_main_arg0; decide
  · rw [nullary_result_ne]; exact h_main_arg1; decide
  · rw [nullary_result_ne]; exact h_main_v1; decide
  · rw [nullary_result_ne]; exact h_main_v2; decide
  · rw [nullary_result]; rfl

theorem step8 (x0 : (⟨S8x19x512x1024, .f32⟩ : BufTy).Contents (Elt F)) (x1 : (⟨S8x512x1024, .i32⟩ : BufTy).Contents (Elt F)) (W : Valuation τ sig (Elt F)) :
    Inv8 x0 x1 W → Inv9 x0 x1 (HloOp.result (unary main_c_1 main_v3 (broadcastInDim S4194304 ![] bcast_S_S4194304 : (⟨S_, .i32⟩ : BufTy).Contents (Elt F) → (⟨S4194304, .i32⟩ : BufTy).Contents (Elt F)) : HloOp τ sig (Elt F)) W) := by
  rintro ⟨h_main_arg0, h_main_arg1, h_main_v1, h_main_v2, h_main_c_1⟩
  refine ⟨?_, ?_, ?_, ?_, ?_⟩
  · rw [unary_result_ne]; exact h_main_arg0; decide
  · rw [unary_result_ne]; exact h_main_arg1; decide
  · rw [unary_result_ne]; exact h_main_v1; decide
  · rw [unary_result_ne]; exact h_main_v2; decide
  · rw [unary_result, h_main_c_1]; rfl

theorem step9 (x0 : (⟨S8x19x512x1024, .f32⟩ : BufTy).Contents (Elt F)) (x1 : (⟨S8x512x1024, .i32⟩ : BufTy).Contents (Elt F)) (W : Valuation τ sig (Elt F)) :
    Inv9 x0 x1 W → Inv10 x0 x1 (HloOp.result (binary main_v2 main_v3 main_v4 (cmpi .slt : (⟨S4194304, .i32⟩ : BufTy).Contents (Elt F) → (⟨S4194304, .i32⟩ : BufTy).Contents (Elt F) → (⟨S4194304, .i1⟩ : BufTy).Contents (Elt F)) : HloOp τ sig (Elt F)) W) := by
  rintro ⟨h_main_arg0, h_main_arg1, h_main_v1, h_main_v2, h_main_v3⟩
  refine ⟨?_, ?_, ?_, ?_, ?_⟩
  · rw [binary_result_ne]; exact h_main_arg0; decide
  · rw [binary_result_ne]; exact h_main_arg1; decide
  · rw [binary_result_ne]; exact h_main_v1; decide
  · rw [binary_result_ne]; exact h_main_v2; decide
  · rw [binary_result, h_main_v2, h_main_v3]; rfl

theorem step10 (x0 : (⟨S8x19x512x1024, .f32⟩ : BufTy).Contents (Elt F)) (x1 : (⟨S8x512x1024, .i32⟩ : BufTy).Contents (Elt F)) (W : Valuation τ sig (Elt F)) :
    Inv10 x0 x1 W → Inv11 x0 x1 (HloOp.result (nullary main_c_2 (constantI S_ 32 19#32) : HloOp τ sig (Elt F)) W) := by
  rintro ⟨h_main_arg0, h_main_arg1, h_main_v1, h_main_v2, h_main_v4⟩
  refine ⟨?_, ?_, ?_, ?_, ?_, ?_⟩
  · rw [nullary_result_ne]; exact h_main_arg0; decide
  · rw [nullary_result_ne]; exact h_main_arg1; decide
  · rw [nullary_result_ne]; exact h_main_v1; decide
  · rw [nullary_result_ne]; exact h_main_v2; decide
  · rw [nullary_result_ne]; exact h_main_v4; decide
  · rw [nullary_result]; rfl

theorem step11 (x0 : (⟨S8x19x512x1024, .f32⟩ : BufTy).Contents (Elt F)) (x1 : (⟨S8x512x1024, .i32⟩ : BufTy).Contents (Elt F)) (W : Valuation τ sig (Elt F)) :
    Inv11 x0 x1 W → Inv12 x0 x1 (HloOp.result (unary main_c_2 main_v5 (broadcastInDim S4194304 ![] bcast_S_S4194304 : (⟨S_, .i32⟩ : BufTy).Contents (Elt F) → (⟨S4194304, .i32⟩ : BufTy).Contents (Elt F)) : HloOp τ sig (Elt F)) W) := by
  rintro ⟨h_main_arg0, h_main_arg1, h_main_v1, h_main_v2, h_main_v4, h_main_c_2⟩
  refine ⟨?_, ?_, ?_, ?_, ?_, ?_⟩
  · rw [unary_result_ne]; exact h_main_arg0; decide
  · rw [unary_result_ne]; exact h_main_arg1; decide
  · rw [unary_result_ne]; exact h_main_v1; decide
  · rw [unary_result_ne]; exact h_main_v2; decide
  · rw [unary_result_ne]; exact h_main_v4; decide
  · rw [unary_result, h_main_c_2]; rfl

theorem step12 (x0 : (⟨S8x19x512x1024, .f32⟩ : BufTy).Contents (Elt F)) (x1 : (⟨S8x512x1024, .i32⟩ : BufTy).Contents (Elt F)) (W : Valuation τ sig (Elt F)) :
    Inv12 x0 x1 W → Inv13 x0 x1 (HloOp.result (binary main_v2 main_v5 main_v6 (addi : (⟨S4194304, .i32⟩ : BufTy).Contents (Elt F) → (⟨S4194304, .i32⟩ : BufTy).Contents (Elt F) → (⟨S4194304, .i32⟩ : BufTy).Contents (Elt F)) : HloOp τ sig (Elt F)) W) := by
  rintro ⟨h_main_arg0, h_main_arg1, h_main_v1, h_main_v2, h_main_v4, h_main_v5⟩
  refine ⟨?_, ?_, ?_, ?_, ?_, ?_⟩
  · rw [binary_result_ne]; exact h_main_arg0; decide
  · rw [binary_result_ne]; exact h_main_arg1; decide
  · rw [binary_result_ne]; exact h_main_v1; decide
  · rw [binary_result_ne]; exact h_main_v2; decide
  · rw [binary_result_ne]; exact h_main_v4; decide
  · rw [binary_result, h_main_v2, h_main_v5]; rfl

theorem step13 (x0 : (⟨S8x19x512x1024, .f32⟩ : BufTy).Contents (Elt F)) (x1 : (⟨S8x512x1024, .i32⟩ : BufTy).Contents (Elt F)) (W : Valuation τ sig (Elt F)) :
    Inv13 x0 x1 W → Inv14 x0 x1 (HloOp.result (ternary main_v4 main_v6 main_v2 main_v7 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) : HloOp τ sig (Elt F)) W) := by
  rintro ⟨h_main_arg0, h_main_arg1, h_main_v1, h_main_v2, h_main_v4, h_main_v6⟩
  refine ⟨?_, ?_, ?_, ?_⟩
  · rw [ternary_result_ne]; exact h_main_arg0; decide
  · rw [ternary_result_ne]; exact h_main_arg1; decide
  · rw [ternary_result_ne]; exact h_main_v1; decide
  · rw [ternary_result, h_main_v4, h_main_v6, h_main_v2]; rfl

theorem step14 (x0 : (⟨S8x19x512x1024, .f32⟩ : BufTy).Contents (Elt F)) (x1 : (⟨S8x512x1024, .i32⟩ : BufTy).Contents (Elt F)) (W : Valuation τ sig (Elt F)) :
    Inv14 x0 x1 W → Inv15 x0 x1 (HloOp.result (unary main_v7 main_v8 (broadcastInDim S4194304x1 ![0] bcast_S4194304_S4194304x1_0 : (⟨S4194304, .i32⟩ : BufTy).Contents (Elt F) → (⟨S4194304x1, .i32⟩ : BufTy).Contents (Elt F)) : HloOp τ sig (Elt F)) W) := by
  rintro ⟨h_main_arg0, h_main_arg1, h_main_v1, h_main_v7⟩
  refine ⟨?_, ?_, ?_, ?_⟩
  · rw [unary_result_ne]; exact h_main_arg0; decide
  · rw [unary_result_ne]; exact h_main_arg1; decide
  · rw [unary_result_ne]; exact h_main_v1; decide
  · rw [unary_result, h_main_v7]; rfl

theorem step15 (x0 : (⟨S8x19x512x1024, .f32⟩ : BufTy).Contents (Elt F)) (x1 : (⟨S8x512x1024, .i32⟩ : BufTy).Contents (Elt F)) (W : Valuation τ sig (Elt F)) :
    Inv15 x0 x1 W → Inv16 x0 x1 (HloOp.result (nullary main_c_3 (constantI S_ 32 1#32) : HloOp τ sig (Elt F)) W) := by
  rintro ⟨h_main_arg0, h_main_arg1, h_main_v1, h_main_v8⟩
  refine ⟨?_, ?_, ?_, ?_, ?_⟩
  · rw [nullary_result_ne]; exact h_main_arg0; decide
  · rw [nullary_result_ne]; exact h_main_arg1; decide
  · rw [nullary_result_ne]; exact h_main_v1; decide
  · rw [nullary_result_ne]; exact h_main_v8; decide
  · rw [nullary_result]; rfl

theorem step16 (x0 : (⟨S8x19x512x1024, .f32⟩ : BufTy).Contents (Elt F)) (x1 : (⟨S8x512x1024, .i32⟩ : BufTy).Contents (Elt F)) (W : Valuation τ sig (Elt F)) :
    Inv16 x0 x1 W → Inv17 x0 x1 (HloOp.result (unary main_c_3 main_v9 (broadcastInDim S4194304 ![] bcast_S_S4194304 : (⟨S_, .i32⟩ : BufTy).Contents (Elt F) → (⟨S4194304, .i32⟩ : BufTy).Contents (Elt F)) : HloOp τ sig (Elt F)) W) := by
  rintro ⟨h_main_arg0, h_main_arg1, h_main_v1, h_main_v8, h_main_c_3⟩
  refine ⟨?_, ?_, ?_, ?_, ?_⟩
  · rw [unary_result_ne]; exact h_main_arg0; decide
  · rw [unary_result_ne]; exact h_main_arg1; decide
  · rw [unary_result_ne]; exact h_main_v1; decide
  · rw [unary_result_ne]; exact h_main_v8; decide
  · rw [unary_result, h_main_c_3]; rfl

theorem step17 (x0 : (⟨S8x19x512x1024, .f32⟩ : BufTy).Contents (Elt F)) (x1 : (⟨S8x512x1024, .i32⟩ : BufTy).Contents (Elt F)) (W : Valuation τ sig (Elt F)) :
    Inv17 x0 x1 W → Inv18 x0 x1 (HloOp.result (ternary main_v1 main_v8 main_v9 main_v10 ((fun x i u => Host.scatter scatter_S19_S4194304x1_S4194304_n_0_0_1 IntOp.addi x i u) : (⟨S19, .i32⟩ : BufTy).Contents (Elt F) → (⟨S4194304x1, .i32⟩ : BufTy).Contents (Elt F) → (⟨S4194304, .i32⟩ : BufTy).Contents (Elt F) → (⟨S19, .i32⟩ : BufTy).Contents (Elt F)) : HloOp τ sig (Elt F)) W) := by
  rintro ⟨h_main_arg0, h_main_arg1, h_main_v1, h_main_v8, h_main_v9⟩
  refine ⟨?_, ?_, ?_⟩
  · rw [ternary_result_ne]; exact h_main_arg0; decide
  · rw [ternary_result_ne]; exact h_main_arg1; decide
  · rw [ternary_result, h_main_v1, h_main_v8, h_main_v9]; rfl

theorem step18 (x0 : (⟨S8x19x512x1024, .f32⟩ : BufTy).Contents (Elt F)) (x1 : (⟨S8x512x1024, .i32⟩ : BufTy).Contents (Elt F)) (W : Valuation τ sig (Elt F)) :
    Inv18 x0 x1 W → Inv19 x0 x1 (HloOp.result (unary main_v10 main_v11 (sitofp .f32 : (⟨S19, .i32⟩ : BufTy).Contents (Elt F) → (⟨S19, .f32⟩ : BufTy).Contents (Elt F)) : HloOp τ sig (Elt F)) W) := by
  rintro ⟨h_main_arg0, h_main_arg1, h_main_v10⟩
  refine ⟨?_, ?_, ?_⟩
  · rw [unary_result_ne]; exact h_main_arg0; decide
  · rw [unary_result_ne]; exact h_main_arg1; decide
  · rw [unary_result, h_main_v10]; rfl

theorem step19 (x0 : (⟨S8x19x512x1024, .f32⟩ : BufTy).Contents (Elt F)) (x1 : (⟨S8x512x1024, .i32⟩ : BufTy).Contents (Elt F)) (W : Valuation τ sig (Elt F)) :
    Inv19 x0 x1 W → Inv20 x0 x1 (HloOp.result (nullary main_cst (constant S_ .f32 0x4A800000#32) : HloOp τ sig (Elt F)) W) := by
  rintro ⟨h_main_arg0, h_main_arg1, h_main_v11⟩
  refine ⟨?_, ?_, ?_, ?_⟩
  · rw [nullary_result_ne]; exact h_main_arg0; decide
  · rw [nullary_result_ne]; exact h_main_arg1; decide
  · rw [nullary_result_ne]; exact h_main_v11; decide
  · rw [nullary_result]; rfl

theorem step20 (x0 : (⟨S8x19x512x1024, .f32⟩ : BufTy).Contents (Elt F)) (x1 : (⟨S8x512x1024, .i32⟩ : BufTy).Contents (Elt F)) (W : Valuation τ sig (Elt F)) :
    Inv20 x0 x1 W → Inv21 x0 x1 (HloOp.result (unary main_cst main_v12 (broadcastInDim S19 ![] bcast_S_S19 : (⟨S_, .f32⟩ : BufTy).Contents (Elt F) → (⟨S19, .f32⟩ : BufTy).Contents (Elt F)) : HloOp τ sig (Elt F)) W) := by
  rintro ⟨h_main_arg0, h_main_arg1, h_main_v11, h_main_cst⟩
  refine ⟨?_, ?_, ?_, ?_⟩
  · rw [unary_result_ne]; exact h_main_arg0; decide
  · rw [unary_result_ne]; exact h_main_arg1; decide
  · rw [unary_result_ne]; exact h_main_v11; decide
  · rw [unary_result, h_main_cst]; rfl

theorem step21 (x0 : (⟨S8x19x512x1024, .f32⟩ : BufTy).Contents (Elt F)) (x1 : (⟨S8x512x1024, .i32⟩ : BufTy).Contents (Elt F)) (W : Valuation τ sig (Elt F)) :
    Inv21 x0 x1 W → Inv22 x0 x1 (HloOp.result (binary main_v11 main_v12 main_v13 (Host.divf : (⟨S19, .f32⟩ : BufTy).Contents (Elt F) → (⟨S19, .f32⟩ : BufTy).Contents (Elt F) → (⟨S19, .f32⟩ : BufTy).Contents (Elt F)) : HloOp τ sig (Elt F)) W) := by
  rintro ⟨h_main_arg0, h_main_arg1, h_main_v11, h_main_v12⟩
  refine ⟨?_, ?_, ?_⟩
  · rw [binary_result_ne]; exact h_main_arg0; decide
  · rw [binary_result_ne]; exact h_main_arg1; decide
  · rw [binary_result, h_main_v11, h_main_v12]; rfl

theorem step22 (x0 : (⟨S8x19x512x1024, .f32⟩ : BufTy).Contents (Elt F)) (x1 : (⟨S8x512x1024, .i32⟩ : BufTy).Contents (Elt F)) (W : Valuation τ sig (Elt F)) :
    Inv22 x0 x1 W → Inv23 x0 x1 (HloOp.result (nullary main_cst_4 (constant S_ .f32 0x3F800000#32) : HloOp τ sig (Elt F)) W) := by
  rintro ⟨h_main_arg0, h_main_arg1, h_main_v13⟩
  refine ⟨?_, ?_, ?_, ?_⟩
  · rw [nullary_result_ne]; exact h_main_arg0; decide
  · rw [nullary_result_ne]; exact h_main_arg1; decide
  · rw [nullary_result_ne]; exact h_main_v13; decide
  · rw [nullary_result]; rfl

theorem step23 (x0 : (⟨S8x19x512x1024, .f32⟩ : BufTy).Contents (Elt F)) (x1 : (⟨S8x512x1024, .i32⟩ : BufTy).Contents (Elt F)) (W : Valuation τ sig (Elt F)) :
    Inv23 x0 x1 W → Inv24 x0 x1 (HloOp.result (unary main_cst_4 main_v14 (broadcastInDim S19 ![] bcast_S_S19 : (⟨S_, .f32⟩ : BufTy).Contents (Elt F) → (⟨S19, .f32⟩ : BufTy).Contents (Elt F)) : HloOp τ sig (Elt F)) W) := by
  rintro ⟨h_main_arg0, h_main_arg1, h_main_v13, h_main_cst_4⟩
  refine ⟨?_, ?_, ?_, ?_⟩
  · rw [unary_result_ne]; exact h_main_arg0; decide
  · rw [unary_result_ne]; exact h_main_arg1; decide
  · rw [unary_result_ne]; exact h_main_v13; decide
  · rw [unary_result, h_main_cst_4]; rfl

theorem step24 (x0 : (⟨S8x19x512x1024, .f32⟩ : BufTy).Contents (Elt F)) (x1 : (⟨S8x512x1024, .i32⟩ : BufTy).Contents (Elt F)) (W : Valuation τ sig (Elt F)) :
    Inv24 x0 x1 W → Inv25 x0 x1 (HloOp.result (binary main_v14 main_v13 main_v15 (subf : (⟨S19, .f32⟩ : BufTy).Contents (Elt F) → (⟨S19, .f32⟩ : BufTy).Contents (Elt F) → (⟨S19, .f32⟩ : BufTy).Contents (Elt F)) : HloOp τ sig (Elt F)) W) := by
  rintro ⟨h_main_arg0, h_main_arg1, h_main_v13, h_main_v14⟩
  refine ⟨?_, ?_, ?_⟩
  · rw [binary_result_ne]; exact h_main_arg0; decide
  · rw [binary_result_ne]; exact h_main_arg1; decide
  · rw [binary_result, h_main_v14, h_main_v13]; rfl

theorem step25 (x0 : (⟨S8x19x512x1024, .f32⟩ : BufTy).Contents (Elt F)) (x1 : (⟨S8x512x1024, .i32⟩ : BufTy).Contents (Elt F)) (W : Valuation τ sig (Elt F)) :
    Inv25 x0 x1 W → Inv26 x0 x1 (HloOp.result (TRef.nullary (TRef.of (T := ⟨S_, .f32⟩) main_call1_cst) (constant S_ .f32 0xFF800000#32) : HloOp τ sig (Elt F)) W) := by
  rintro ⟨h_main_arg0, h_main_arg1, h_main_v15⟩
  refine ⟨?_, ?_, ?_, ?_⟩
  · rw [nullary_result_ne]; exact h_main_arg0; decide
  · rw [nullary_result_ne]; exact h_main_arg1; decide
  · rw [nullary_result_ne]; exact h_main_v15; decide
  · rw [nullary_result]; rfl

theorem step26 (x0 : (⟨S8x19x512x1024, .f32⟩ : BufTy).Contents (Elt F)) (x1 : (⟨S8x512x1024, .i32⟩ : BufTy).Contents (Elt F)) (W : Valuation τ sig (Elt F)) :
    Inv26 x0 x1 W → Inv27 x0 x1 (HloOp.result (TRef.binary (TRef.of (T := ⟨S8x19x512x1024, .f32⟩) main_arg0) (TRef.of (T := ⟨S_, .f32⟩) main_call1_cst) (TRef.of (T := ⟨S8x512x1024, .f32⟩) main_call1_v0) (fun x v => Host.reduce FloatOps.maximumf x v reducesTo_S8x19x512x1024_S8x512x1024_d1 h_S_) : HloOp τ sig (Elt F)) W) := by
  rintro ⟨h_main_arg0, h_main_arg1, h_main_v15, h_main_call1_cst⟩
  refine ⟨?_, ?_, ?_, ?_⟩
  · rw [binary_result_ne]; exact h_main_arg0; decide
  · rw [binary_result_ne]; exact h_main_arg1; decide
  · rw [binary_result_ne]; exact h_main_v15; decide
  · have e : (TRef.binary (TRef.of (T := ⟨S8x19x512x1024, .f32⟩) main_arg0) (TRef.of (T := ⟨S_, .f32⟩) main_call1_cst) (TRef.of (T := ⟨S8x512x1024, .f32⟩) main_call1_v0) (fun x v => Host.reduce FloatOps.maximumf x v reducesTo_S8x19x512x1024_S8x512x1024_d1 h_S_) : HloOp τ sig (Elt F)) = binary main_arg0 main_call1_cst main_call1_v0 ((fun x v => Host.reduce FloatOps.maximumf x v reducesTo_S8x19x512x1024_S8x512x1024_d1 h_S_) : (⟨S8x19x512x1024, .f32⟩ : BufTy).Contents (Elt F) → (⟨S_, .f32⟩ : BufTy).Contents (Elt F) → (⟨S8x512x1024, .f32⟩ : BufTy).Contents (Elt F)) :=
      (tbinary_eq _ _ _ _).trans rfl
    rw [e, binary_result, h_main_arg0, h_main_call1_cst]; rfl

theorem step27 (x0 : (⟨S8x19x512x1024, .f32⟩ : BufTy).Contents (Elt F)) (x1 : (⟨S8x512x1024, .i32⟩ : BufTy).Contents (Elt F)) (W : Valuation τ sig (Elt F)) :
    Inv27 x0 x1 W → Inv28 x0 x1 (HloOp.result (TRef.nullary (TRef.of (T := ⟨S_, .f32⟩) main_call1_cst_0) (constant S_ .f32 0xFF800000#32) : HloOp τ sig (Elt F)) W) := by
  rintro ⟨h_main_arg0, h_main_arg1, h_main_v15, h_main_call1_v0⟩
  refine ⟨?_, ?_, ?_, ?_, ?_⟩
  · rw [nullary_result_ne]; exact h_main_arg0; decide
  · rw [nullary_result_ne]; exact h_main_arg1; decide
  · rw [nullary_result_ne]; exact h_main_v15; decide
  · rw [nullary_result_ne]; exact h_main_call1_v0; decide
  · rw [nullary_result]; rfl

theorem step28 (x0 : (⟨S8x19x512x1024, .f32⟩ : BufTy).Contents (Elt F)) (x1 : (⟨S8x512x1024, .i32⟩ : BufTy).Contents (Elt F)) (W : Valuation τ sig (Elt F)) :
    Inv28 x0 x1 W → Inv29 x0 x1 (HloOp.result (TRef.unary (TRef.of (T := ⟨S_, .f32⟩) main_call1_cst_0) (TRef.of (T := ⟨S8x512x1024, .f32⟩) main_call1_v1) (broadcastInDim S8x512x1024 ![] bcast_S_S8x512x1024) : HloOp τ sig (Elt F)) W) := by
  rintro ⟨h_main_arg0, h_main_arg1, h_main_v15, h_main_call1_v0, h_main_call1_cst_0⟩
  refine ⟨?_, ?_, ?_, ?_, ?_⟩
  · rw [unary_result_ne]; exact h_main_arg0; decide
  · rw [unary_result_ne]; exact h_main_arg1; decide
  · rw [unary_result_ne]; exact h_main_v15; decide
  · rw [unary_result_ne]; exact h_main_call1_v0; decide
  · have e : (TRef.unary (TRef.of (T := ⟨S_, .f32⟩) main_call1_cst_0) (TRef.of (T := ⟨S8x512x1024, .f32⟩) main_call1_v1) (broadcastInDim S8x512x1024 ![] bcast_S_S8x512x1024) : HloOp τ sig (Elt F)) = unary main_call1_cst_0 main_call1_v1 ((broadcastInDim S8x512x1024 ![] bcast_S_S8x512x1024) : (⟨S_, .f32⟩ : BufTy).Contents (Elt F) → (⟨S8x512x1024, .f32⟩ : BufTy).Contents (Elt F)) :=
      (tunary_eq _ _ _).trans rfl
    rw [e, unary_result, h_main_call1_cst_0]; rfl

theorem step29 (x0 : (⟨S8x19x512x1024, .f32⟩ : BufTy).Contents (Elt F)) (x1 : (⟨S8x512x1024, .i32⟩ : BufTy).Contents (Elt F)) (W : Valuation τ sig (Elt F)) :
    Inv29 x0 x1 W → Inv30 x0 x1 (HloOp.result (TRef.binary (TRef.of (T := ⟨S8x512x1024, .f32⟩) main_call1_v1) (TRef.of (T := ⟨S8x512x1024, .f32⟩) main_call1_v0) (TRef.of (T := ⟨S8x512x1024, .f32⟩) main_call1_v2) maximumf : HloOp τ sig (Elt F)) W) := by
  rintro ⟨h_main_arg0, h_main_arg1, h_main_v15, h_main_call1_v0, h_main_call1_v1⟩
  refine ⟨?_, ?_, ?_, ?_⟩
  · rw [binary_result_ne]; exact h_main_arg0; decide
  · rw [binary_result_ne]; exact h_main_arg1; decide
  · rw [binary_result_ne]; exact h_main_v15; decide
  · have e : (TRef.binary (TRef.of (T := ⟨S8x512x1024, .f32⟩) main_call1_v1) (TRef.of (T := ⟨S8x512x1024, .f32⟩) main_call1_v0) (TRef.of (T := ⟨S8x512x1024, .f32⟩) main_call1_v2) maximumf : HloOp τ sig (Elt F)) = binary main_call1_v1 main_call1_v0 main_call1_v2 (maximumf : (⟨S8x512x1024, .f32⟩ : BufTy).Contents (Elt F) → (⟨S8x512x1024, .f32⟩ : BufTy).Contents (Elt F) → (⟨S8x512x1024, .f32⟩ : BufTy).Contents (Elt F)) :=
      (tbinary_eq _ _ _ _).trans rfl
    rw [e, binary_result, h_main_call1_v1, h_main_call1_v0]; rfl

theorem step30 (x0 : (⟨S8x19x512x1024, .f32⟩ : BufTy).Contents (Elt F)) (x1 : (⟨S8x512x1024, .i32⟩ : BufTy).Contents (Elt F)) (W : Valuation τ sig (Elt F)) :
    Inv30 x0 x1 W → Inv31 x0 x1 (HloOp.result (TRef.unary (TRef.of (T := ⟨S8x512x1024, .f32⟩) main_call1_v2) (TRef.of (T := ⟨S8x1x512x1024, .f32⟩) main_call1_v3) (broadcastInDim S8x1x512x1024 ![0, 2, 3] bcast_S8x512x1024_S8x1x512x1024_0_2_3) : HloOp τ sig (Elt F)) W) := by
  rintro ⟨h_main_arg0, h_main_arg1, h_main_v15, h_main_call1_v2⟩
  refine ⟨?_, ?_, ?_, ?_⟩
  · rw [unary_result_ne]; exact h_main_arg0; decide
  · rw [unary_result_ne]; exact h_main_arg1; decide
  · rw [unary_result_ne]; exact h_main_v15; decide
  · have e : (TRef.unary (TRef.of (T := ⟨S8x512x1024, .f32⟩) main_call1_v2) (TRef.of (T := ⟨S8x1x512x1024, .f32⟩) main_call1_v3) (broadcastInDim S8x1x512x1024 ![0, 2, 3] bcast_S8x512x1024_S8x1x512x1024_0_2_3) : HloOp τ sig (Elt F)) = unary main_call1_v2 main_call1_v3 ((broadcastInDim S8x1x512x1024 ![0, 2, 3] bcast_S8x512x1024_S8x1x512x1024_0_2_3) : (⟨S8x512x1024, .f32⟩ : BufTy).Contents (Elt F) → (⟨S8x1x512x1024, .f32⟩ : BufTy).Contents (Elt F)) :=
      (tunary_eq _ _ _).trans rfl
    rw [e, unary_result, h_main_call1_v2]; rfl

theorem step31 (x0 : (⟨S8x19x512x1024, .f32⟩ : BufTy).Contents (Elt F)) (x1 : (⟨S8x512x1024, .i32⟩ : BufTy).Contents (Elt F)) (W : Valuation τ sig (Elt F)) :
    Inv31 x0 x1 W → Inv32 x0 x1 (HloOp.result (TRef.unary (TRef.of (T := ⟨S8x1x512x1024, .f32⟩) main_call1_v3) (TRef.of (T := ⟨S8x19x512x1024, .f32⟩) main_call1_v4) (broadcastInDim S8x19x512x1024 ![0, 1, 2, 3] bcast_S8x1x512x1024_S8x19x512x1024_0_1_2_3) : HloOp τ sig (Elt F)) W) := by
  rintro ⟨h_main_arg0, h_main_arg1, h_main_v15, h_main_call1_v3⟩
  refine ⟨?_, ?_, ?_, ?_⟩
  · rw [unary_result_ne]; exact h_main_arg0; decide
  · rw [unary_result_ne]; exact h_main_arg1; decide
  · rw [unary_result_ne]; exact h_main_v15; decide
  · have e : (TRef.unary (TRef.of (T := ⟨S8x1x512x1024, .f32⟩) main_call1_v3) (TRef.of (T := ⟨S8x19x512x1024, .f32⟩) main_call1_v4) (broadcastInDim S8x19x512x1024 ![0, 1, 2, 3] bcast_S8x1x512x1024_S8x19x512x1024_0_1_2_3) : HloOp τ sig (Elt F)) = unary main_call1_v3 main_call1_v4 ((broadcastInDim S8x19x512x1024 ![0, 1, 2, 3] bcast_S8x1x512x1024_S8x19x512x1024_0_1_2_3) : (⟨S8x1x512x1024, .f32⟩ : BufTy).Contents (Elt F) → (⟨S8x19x512x1024, .f32⟩ : BufTy).Contents (Elt F)) :=
      (tunary_eq _ _ _).trans rfl
    rw [e, unary_result, h_main_call1_v3]; rfl

theorem step32 (x0 : (⟨S8x19x512x1024, .f32⟩ : BufTy).Contents (Elt F)) (x1 : (⟨S8x512x1024, .i32⟩ : BufTy).Contents (Elt F)) (W : Valuation τ sig (Elt F)) :
    Inv32 x0 x1 W → Inv33 x0 x1 (HloOp.result (TRef.binary (TRef.of (T := ⟨S8x19x512x1024, .f32⟩) main_arg0) (TRef.of (T := ⟨S8x19x512x1024, .f32⟩) main_call1_v4) (TRef.of (T := ⟨S8x19x512x1024, .f32⟩) main_call1_v5) subf : HloOp τ sig (Elt F)) W) := by
  rintro ⟨h_main_arg0, h_main_arg1, h_main_v15, h_main_call1_v4⟩
  refine ⟨?_, ?_, ?_, ?_⟩
  · rw [binary_result_ne]; exact h_main_arg0; decide
  · rw [binary_result_ne]; exact h_main_arg1; decide
  · rw [binary_result_ne]; exact h_main_v15; decide
  · have e : (TRef.binary (TRef.of (T := ⟨S8x19x512x1024, .f32⟩) main_arg0) (TRef.of (T := ⟨S8x19x512x1024, .f32⟩) main_call1_v4) (TRef.of (T := ⟨S8x19x512x1024, .f32⟩) main_call1_v5) subf : HloOp τ sig (Elt F)) = binary main_arg0 main_call1_v4 main_call1_v5 (subf : (⟨S8x19x512x1024, .f32⟩ : BufTy).Contents (Elt F) → (⟨S8x19x512x1024, .f32⟩ : BufTy).Contents (Elt F) → (⟨S8x19x512x1024, .f32⟩ : BufTy).Contents (Elt F)) :=
      (tbinary_eq _ _ _ _).trans rfl
    rw [e, binary_result, h_main_arg0, h_main_call1_v4]; rfl

theorem step33 (x0 : (⟨S8x19x512x1024, .f32⟩ : BufTy).Contents (Elt F)) (x1 : (⟨S8x512x1024, .i32⟩ : BufTy).Contents (Elt F)) (W : Valuation τ sig (Elt F)) :
    Inv33 x0 x1 W → Inv34 x0 x1 (HloOp.result (TRef.unary (TRef.of (T := ⟨S8x19x512x1024, .f32⟩) main_call1_v5) (TRef.of (T := ⟨S8x19x512x1024, .f32⟩) main_call1_v6) Host.exp : HloOp τ sig (Elt F)) W) := by
  rintro ⟨h_main_arg0, h_main_arg1, h_main_v15, h_main_call1_v5⟩
  refine ⟨?_, ?_, ?_, ?_, ?_⟩
  · rw [unary_result_ne]; exact h_main_arg0; decide
  · rw [unary_result_ne]; exact h_main_arg1; decide
  · rw [unary_result_ne]; exact h_main_v15; decide
  · rw [unary_result_ne]; exact h_main_call1_v5; decide
  · have e : (TRef.unary (TRef.of (T := ⟨S8x19x512x1024, .f32⟩) main_call1_v5) (TRef.of (T := ⟨S8x19x512x1024, .f32⟩) main_call1_v6) Host.exp : HloOp τ sig (Elt F)) = unary main_call1_v5 main_call1_v6 (Host.exp : (⟨S8x19x512x1024, .f32⟩ : BufTy).Contents (Elt F) → (⟨S8x19x512x1024, .f32⟩ : BufTy).Contents (Elt F)) :=
      (tunary_eq _ _ _).trans rfl
    rw [e, unary_result, h_main_call1_v5]; rfl

theorem step34 (x0 : (⟨S8x19x512x1024, .f32⟩ : BufTy).Contents (Elt F)) (x1 : (⟨S8x512x1024, .i32⟩ : BufTy).Contents (Elt F)) (W : Valuation τ sig (Elt F)) :
    Inv34 x0 x1 W → Inv35 x0 x1 (HloOp.result (TRef.nullary (TRef.of (T := ⟨S_, .f32⟩) main_call1_cst_1) (constant S_ .f32 0x00000000#32) : HloOp τ sig (Elt F)) W) := by
  rintro ⟨h_main_arg0, h_main_arg1, h_main_v15, h_main_call1_v5, h_main_call1_v6⟩
  refine ⟨?_, ?_, ?_, ?_, ?_, ?_⟩
  · rw [nullary_result_ne]; exact h_main_arg0; decide
  · rw [nullary_result_ne]; exact h_main_arg1; decide
  · rw [nullary_result_ne]; exact h_main_v15; decide
  · rw [nullary_result_ne]; exact h_main_call1_v5; decide
  · rw [nullary_result_ne]; exact h_main_call1_v6; decide
  · rw [nullary_result]; rfl

theorem step35 (x0 : (⟨S8x19x512x1024, .f32⟩ : BufTy).Contents (Elt F)) (x1 : (⟨S8x512x1024, .i32⟩ : BufTy).Contents (Elt F)) (W : Valuation τ sig (Elt F)) :
    Inv35 x0 x1 W → Inv36 x0 x1 (HloOp.result (TRef.binary (TRef.of (T := ⟨S8x19x512x1024, .f32⟩) main_call1_v6) (TRef.of (T := ⟨S_, .f32⟩) main_call1_cst_1) (TRef.of (T := ⟨S8x512x1024, .f32⟩) main_call1_v7) (fun x v => Host.reduceAdd x v reducesTo_S8x19x512x1024_S8x512x1024_d1 h_S_) : HloOp τ sig (Elt F)) W) := by
  rintro ⟨h_main_arg0, h_main_arg1, h_main_v15, h_main_call1_v5, h_main_call1_v6, h_main_call1_cst_1⟩
  refine ⟨?_, ?_, ?_, ?_, ?_⟩
  · rw [binary_result_ne]; exact h_main_arg0; decide
  · rw [binary_result_ne]; exact h_main_arg1; decide
  · rw [binary_result_ne]; exact h_main_v15; decide
  · rw [binary_result_ne]; exact h_main_call1_v5; decide
  · have e : (TRef.binary (TRef.of (T := ⟨S8x19x512x1024, .f32⟩) main_call1_v6) (TRef.of (T := ⟨S_, .f32⟩) main_call1_cst_1) (TRef.of (T := ⟨S8x512x1024, .f32⟩) main_call1_v7) (fun x v => Host.reduceAdd x v reducesTo_S8x19x512x1024_S8x512x1024_d1 h_S_) : HloOp τ sig (Elt F)) = binary main_call1_v6 main_call1_cst_1 main_call1_v7 ((fun x v => Host.reduceAdd x v reducesTo_S8x19x512x1024_S8x512x1024_d1 h_S_) : (⟨S8x19x512x1024, .f32⟩ : BufTy).Contents (Elt F) → (⟨S_, .f32⟩ : BufTy).Contents (Elt F) → (⟨S8x512x1024, .f32⟩ : BufTy).Contents (Elt F)) :=
      (tbinary_eq _ _ _ _).trans rfl
    rw [e, binary_result, h_main_call1_v6, h_main_call1_cst_1]; rfl

theorem step36 (x0 : (⟨S8x19x512x1024, .f32⟩ : BufTy).Contents (Elt F)) (x1 : (⟨S8x512x1024, .i32⟩ : BufTy).Contents (Elt F)) (W : Valuation τ sig (Elt F)) :
    Inv36 x0 x1 W → Inv37 x0 x1 (HloOp.result (TRef.unary (TRef.of (T := ⟨S8x512x1024, .f32⟩) main_call1_v7) (TRef.of (T := ⟨S8x1x512x1024, .f32⟩) main_call1_v8) (broadcastInDim S8x1x512x1024 ![0, 2, 3] bcast_S8x512x1024_S8x1x512x1024_0_2_3) : HloOp τ sig (Elt F)) W) := by
  rintro ⟨h_main_arg0, h_main_arg1, h_main_v15, h_main_call1_v5, h_main_call1_v7⟩
  refine ⟨?_, ?_, ?_, ?_, ?_⟩
  · rw [unary_result_ne]; exact h_main_arg0; decide
  · rw [unary_result_ne]; exact h_main_arg1; decide
  · rw [unary_result_ne]; exact h_main_v15; decide
  · rw [unary_result_ne]; exact h_main_call1_v5; decide
  · have e : (TRef.unary (TRef.of (T := ⟨S8x512x1024, .f32⟩) main_call1_v7) (TRef.of (T := ⟨S8x1x512x1024, .f32⟩) main_call1_v8) (broadcastInDim S8x1x512x1024 ![0, 2, 3] bcast_S8x512x1024_S8x1x512x1024_0_2_3) : HloOp τ sig (Elt F)) = unary main_call1_v7 main_call1_v8 ((broadcastInDim S8x1x512x1024 ![0, 2, 3] bcast_S8x512x1024_S8x1x512x1024_0_2_3) : (⟨S8x512x1024, .f32⟩ : BufTy).Contents (Elt F) → (⟨S8x1x512x1024, .f32⟩ : BufTy).Contents (Elt F)) :=
      (tunary_eq _ _ _).trans rfl
    rw [e, unary_result, h_main_call1_v7]; rfl

theorem step37 (x0 : (⟨S8x19x512x1024, .f32⟩ : BufTy).Contents (Elt F)) (x1 : (⟨S8x512x1024, .i32⟩ : BufTy).Contents (Elt F)) (W : Valuation τ sig (Elt F)) :
    Inv37 x0 x1 W → Inv38 x0 x1 (HloOp.result (TRef.unary (TRef.of (T := ⟨S8x1x512x1024, .f32⟩) main_call1_v8) (TRef.of (T := ⟨S8x1x512x1024, .f32⟩) main_call1_v9) Host.log : HloOp τ sig (Elt F)) W) := by
  rintro ⟨h_main_arg0, h_main_arg1, h_main_v15, h_main_call1_v5, h_main_call1_v8⟩
  refine ⟨?_, ?_, ?_, ?_, ?_⟩
  · rw [unary_result_ne]; exact h_main_arg0; decide
  · rw [unary_result_ne]; exact h_main_arg1; decide
  · rw [unary_result_ne]; exact h_main_v15; decide
  · rw [unary_result_ne]; exact h_main_call1_v5; decide
  · have e : (TRef.unary (TRef.of (T := ⟨S8x1x512x1024, .f32⟩) main_call1_v8) (TRef.of (T := ⟨S8x1x512x1024, .f32⟩) main_call1_v9) Host.log : HloOp τ sig (Elt F)) = unary main_call1_v8 main_call1_v9 (Host.log : (⟨S8x1x512x1024, .f32⟩ : BufTy).Contents (Elt F) → (⟨S8x1x512x1024, .f32⟩ : BufTy).Contents (Elt F)) :=
      (tunary_eq _ _ _).trans rfl
    rw [e, unary_result, h_main_call1_v8]; rfl

theorem step38 (x0 : (⟨S8x19x512x1024, .f32⟩ : BufTy).Contents (Elt F)) (x1 : (⟨S8x512x1024, .i32⟩ : BufTy).Contents (Elt F)) (W : Valuation τ sig (Elt F)) :
    Inv38 x0 x1 W → Inv39 x0 x1 (HloOp.result (TRef.unary (TRef.of (T := ⟨S8x1x512x1024, .f32⟩) main_call1_v9) (TRef.of (T := ⟨S8x19x512x1024, .f32⟩) main_call1_v10) (broadcastInDim S8x19x512x1024 ![0, 1, 2, 3] bcast_S8x1x512x1024_S8x19x512x1024_0_1_2_3) : HloOp τ sig (Elt F)) W) := by
  rintro ⟨h_main_arg0, h_main_arg1, h_main_v15, h_main_call1_v5, h_main_call1_v9⟩
  refine ⟨?_, ?_, ?_, ?_, ?_⟩
  · rw [unary_result_ne]; exact h_main_arg0; decide
  · rw [unary_result_ne]; exact h_main_arg1; decide
  · rw [unary_result_ne]; exact h_main_v15; decide
  · rw [unary_result_ne]; exact h_main_call1_v5; decide
  · have e : (TRef.unary (TRef.of (T := ⟨S8x1x512x1024, .f32⟩) main_call1_v9) (TRef.of (T := ⟨S8x19x512x1024, .f32⟩) main_call1_v10) (broadcastInDim S8x19x512x1024 ![0, 1, 2, 3] bcast_S8x1x512x1024_S8x19x512x1024_0_1_2_3) : HloOp τ sig (Elt F)) = unary main_call1_v9 main_call1_v10 ((broadcastInDim S8x19x512x1024 ![0, 1, 2, 3] bcast_S8x1x512x1024_S8x19x512x1024_0_1_2_3) : (⟨S8x1x512x1024, .f32⟩ : BufTy).Contents (Elt F) → (⟨S8x19x512x1024, .f32⟩ : BufTy).Contents (Elt F)) :=
      (tunary_eq _ _ _).trans rfl
    rw [e, unary_result, h_main_call1_v9]; rfl

theorem step39 (x0 : (⟨S8x19x512x1024, .f32⟩ : BufTy).Contents (Elt F)) (x1 : (⟨S8x512x1024, .i32⟩ : BufTy).Contents (Elt F)) (W : Valuation τ sig (Elt F)) :
    Inv39 x0 x1 W → Inv40 x0 x1 (HloOp.result (TRef.binary (TRef.of (T := ⟨S8x19x512x1024, .f32⟩) main_call1_v5) (TRef.of (T := ⟨S8x19x512x1024, .f32⟩) main_call1_v10) (TRef.of (T := ⟨S8x19x512x1024, .f32⟩) main_v16) subf : HloOp τ sig (Elt F)) W) := by
  rintro ⟨h_main_arg0, h_main_arg1, h_main_v15, h_main_call1_v5, h_main_call1_v10⟩
  refine ⟨?_, ?_, ?_, ?_⟩
  · rw [binary_result_ne]; exact h_main_arg0; decide
  · rw [binary_result_ne]; exact h_main_arg1; decide
  · rw [binary_result_ne]; exact h_main_v15; decide
  · have e : (TRef.binary (TRef.of (T := ⟨S8x19x512x1024, .f32⟩) main_call1_v5) (TRef.of (T := ⟨S8x19x512x1024, .f32⟩) main_call1_v10) (TRef.of (T := ⟨S8x19x512x1024, .f32⟩) main_v16) subf : HloOp τ sig (Elt F)) = binary main_call1_v5 main_call1_v10 main_v16 (subf : (⟨S8x19x512x1024, .f32⟩ : BufTy).Contents (Elt F) → (⟨S8x19x512x1024, .f32⟩ : BufTy).Contents (Elt F) → (⟨S8x19x512x1024, .f32⟩ : BufTy).Contents (Elt F)) :=
      (tbinary_eq _ _ _ _).trans rfl
    rw [e, binary_result, h_main_call1_v5, h_main_call1_v10]; rfl

theorem step40 (x0 : (⟨S8x19x512x1024, .f32⟩ : BufTy).Contents (Elt F)) (x1 : (⟨S8x512x1024, .i32⟩ : BufTy).Contents (Elt F)) (W : Valuation τ sig (Elt F)) :
    Inv40 x0 x1 W → Inv41 x0 x1 (HloOp.result (nullary main_c_5 (constantI S_ 32 0#32) : HloOp τ sig (Elt F)) W) := by
  rintro ⟨h_main_arg0, h_main_arg1, h_main_v15, h_main_v16⟩
  refine ⟨?_, ?_, ?_, ?_, ?_⟩
  · rw [nullary_result_ne]; exact h_main_arg0; decide
  · rw [nullary_result_ne]; exact h_main_arg1; decide
  · rw [nullary_result_ne]; exact h_main_v15; decide
  · rw [nullary_result_ne]; exact h_main_v16; decide
  · rw [nullary_result]; rfl

theorem step41 (x0 : (⟨S8x19x512x1024, .f32⟩ : BufTy).Contents (Elt F)) (x1 : (⟨S8x512x1024, .i32⟩ : BufTy).Contents (Elt F)) (W : Valuation τ sig (Elt F)) :
    Inv41 x0 x1 W → Inv42 x0 x1 (HloOp.result (nullary main_c_6 (constantI S_ 32 18#32) : HloOp τ sig (Elt F)) W) := by
  rintro ⟨h_main_arg0, h_main_arg1, h_main_v15, h_main_v16, h_main_c_5⟩
  refine ⟨?_, ?_, ?_, ?_, ?_, ?_⟩
  · rw [nullary_result_ne]; exact h_main_arg0; decide
  · rw [nullary_result_ne]; exact h_main_arg1; decide
  · rw [nullary_result_ne]; exact h_main_v15; decide
  · rw [nullary_result_ne]; exact h_main_v16; decide
  · rw [nullary_result_ne]; exact h_main_c_5; decide
  · rw [nullary_result]; rfl

theorem step42 (x0 : (⟨S8x19x512x1024, .f32⟩ : BufTy).Contents (Elt F)) (x1 : (⟨S8x512x1024, .i32⟩ : BufTy).Contents (Elt F)) (W : Valuation τ sig (Elt F)) :
    Inv42 x0 x1 W → Inv43 x0 x1 (HloOp.result (TRef.unary (TRef.of (T := ⟨S_, .i32⟩) main_c_5) (TRef.of (T := ⟨S_, .i32⟩) main_call2_v0) id : HloOp τ sig (Elt F)) W) := by
  rintro ⟨h_main_arg0, h_main_arg1, h_main_v15, h_main_v16, h_main_c_5, h_main_c_6⟩
  refine ⟨?_, ?_, ?_, ?_, ?_, ?_⟩
  · rw [unary_result_ne]; exact h_main_arg0; decide
  · rw [unary_result_ne]; exact h_main_arg1; decide
  · rw [unary_result_ne]; exact h_main_v15; decide
  · rw [unary_result_ne]; exact h_main_v16; decide
  · rw [unary_result_ne]; exact h_main_c_6; decide
  · have e : (TRef.unary (TRef.of (T := ⟨S_, .i32⟩) main_c_5) (TRef.of (T := ⟨S_, .i32⟩) main_call2_v0) id : HloOp τ sig (Elt F)) = unary main_c_5 main_call2_v0 (id : (⟨S_, .i32⟩ : BufTy).Contents (Elt F) → (⟨S_, .i32⟩ : BufTy).Contents (Elt F)) :=
      (tunary_eq _ _ _).trans rfl
    rw [e, unary_result, h_main_c_5]; rfl

theorem step43 (x0 : (⟨S8x19x512x1024, .f32⟩ : BufTy).Contents (Elt F)) (x1 : (⟨S8x512x1024, .i32⟩ : BufTy).Contents (Elt F)) (W : Valuation τ sig (Elt F)) :
    Inv43 x0 x1 W → Inv44 x0 x1 (HloOp.result (TRef.unary (TRef.of (T := ⟨S_, .i32⟩) main_call2_v0) (TRef.of (T := ⟨S8x512x1024, .i32⟩) main_call2_v1) (broadcastInDim S8x512x1024 ![] bcast_S_S8x512x1024) : HloOp τ sig (Elt F)) W) := by
  rintro ⟨h_main_arg0, h_main_arg1, h_main_v15, h_main_v16, h_main_c_6, h_main_call2_v0⟩
  refine ⟨?_, ?_, ?_, ?_, ?_, ?_⟩
  · rw [unary_result_ne]; exact h_main_arg0; decide
  · rw [unary_result_ne]; exact h_main_arg1; decide
  · rw [unary_result_ne]; exact h_main_v15; decide
  · rw [unary_result_ne]; exact h_main_v16; decide
  · rw [unary_result_ne]; exact h_main_c_6; decide
  · have e : (TRef.unary (TRef.of (T := ⟨S_, .i32⟩) main_call2_v0) (TRef.of (T := ⟨S8x512x1024, .i32⟩) main_call2_v1) (broadcastInDim S8x512x1024 ![] bcast_S_S8x512x1024) : HloOp τ sig (Elt F)) = unary main_call2_v0 main_call2_v1 ((broadcastInDim S8x512x1024 ![] bcast_S_S8x512x1024) : (⟨S_, .i32⟩ : BufTy).Contents (Elt F) → (⟨S8x512x1024, .i32⟩ : BufTy).Contents (Elt F)) :=
      (tunary_eq _ _ _).trans rfl
    rw [e, unary_result, h_main_call2_v0]; rfl

theorem step44 (x0 : (⟨S8x19x512x1024, .f32⟩ : BufTy).Contents (Elt F)) (x1 : (⟨S8x512x1024, .i32⟩ : BufTy).Contents (Elt F)) (W : Valuation τ sig (Elt F)) :
    Inv44 x0 x1 W → Inv45 x0 x1 (HloOp.result (TRef.binary (TRef.of (T := ⟨S8x512x1024, .i32⟩) main_call2_v1) (TRef.of (T := ⟨S8x512x1024, .i32⟩) main_arg1) (TRef.of (T := ⟨S8x512x1024, .i32⟩) main_call2_v2) maxsi : HloOp τ sig (Elt F)) W) := by
  rintro ⟨h_main_arg0, h_main_arg1, h_main_v15, h_main_v16, h_main_c_6, h_main_call2_v1⟩
  refine ⟨?_, ?_, ?_, ?_, ?_, ?_⟩
  · rw [binary_result_ne]; exact h_main_arg0; decide
  · rw [binary_result_ne]; exact h_main_arg1; decide
  · rw [binary_result_ne]; exact h_main_v15; decide
  · rw [binary_result_ne]; exact h_main_v16; decide
  · rw [binary_result_ne]; exact h_main_c_6; decide
  · have e : (TRef.binary (TRef.of (T := ⟨S8x512x1024, .i32⟩) main_call2_v1) (TRef.of (T := ⟨S8x512x1024, .i32⟩) main_arg1) (TRef.of (T := ⟨S8x512x1024, .i32⟩) main_call2_v2) maxsi : HloOp τ sig (Elt F)) = binary main_call2_v1 main_arg1 main_call2_v2 (maxsi : (⟨S8x512x1024, .i32⟩ : BufTy).Contents (Elt F) → (⟨S8x512x1024, .i32⟩ : BufTy).Contents (Elt F) → (⟨S8x512x1024, .i32⟩ : BufTy).Contents (Elt F)) :=
      (tbinary_eq _ _ _ _).trans rfl
    rw [e, binary_result, h_main_call2_v1, h_main_arg1]; rfl

theorem step45 (x0 : (⟨S8x19x512x1024, .f32⟩ : BufTy).Contents (Elt F)) (x1 : (⟨S8x512x1024, .i32⟩ : BufTy).Contents (Elt F)) (W : Valuation τ sig (Elt F)) :
    Inv45 x0 x1 W → Inv46 x0 x1 (HloOp.result (TRef.unary (TRef.of (T := ⟨S_, .i32⟩) main_c_6) (TRef.of (T := ⟨S_, .i32⟩) main_call2_v3) id : HloOp τ sig (Elt F)) W) := by
  rintro ⟨h_main_arg0, h_main_arg1, h_main_v15, h_main_v16, h_main_c_6, h_main_call2_v2⟩
  refine ⟨?_, ?_, ?_, ?_, ?_, ?_⟩
  · rw [unary_result_ne]; exact h_main_arg0; decide
  · rw [unary_result_ne]; exact h_main_arg1; decide
  · rw [unary_result_ne]; exact h_main_v15; decide
  · rw [unary_result_ne]; exact h_main_v16; decide
  · rw [unary_result_ne]; exact h_main_call2_v2; decide
  · have e : (TRef.unary (TRef.of (T := ⟨S_, .i32⟩) main_c_6) (TRef.of (T := ⟨S_, .i32⟩) main_call2_v3) id : HloOp τ sig (Elt F)) = unary main_c_6 main_call2_v3 (id : (⟨S_, .i32⟩ : BufTy).Contents (Elt F) → (⟨S_, .i32⟩ : BufTy).Contents (Elt F)) :=
      (tunary_eq _ _ _).trans rfl
    rw [e, unary_result, h_main_c_6]; rfl

theorem step46 (x0 : (⟨S8x19x512x1024, .f32⟩ : BufTy).Contents (Elt F)) (x1 : (⟨S8x512x1024, .i32⟩ : BufTy).Contents (Elt F)) (W : Valuation τ sig (Elt F)) :
    Inv46 x0 x1 W → Inv47 x0 x1 (HloOp.result (TRef.unary (TRef.of (T := ⟨S_, .i32⟩) main_call2_v3) (TRef.of (T := ⟨S8x512x1024, .i32⟩) main_call2_v4) (broadcastInDim S8x512x1024 ![] bcast_S_S8x512x1024) : HloOp τ sig (Elt F)) W) := by
  rintro ⟨h_main_arg0, h_main_arg1, h_main_v15, h_main_v16, h_main_call2_v2, h_main_call2_v3⟩
  refine ⟨?_, ?_, ?_, ?_, ?_, ?_⟩
  · rw [unary_result_ne]; exact h_main_arg0; decide
  · rw [unary_result_ne]; exact h_main_arg1; decide
  · rw [unary_result_ne]; exact h_main_v15; decide
  · rw [unary_result_ne]; exact h_main_v16; decide
  · rw [unary_result_ne]; exact h_main_call2_v2; decide
  · have e : (TRef.unary (TRef.of (T := ⟨S_, .i32⟩) main_call2_v3) (TRef.of (T := ⟨S8x512x1024, .i32⟩) main_call2_v4) (broadcastInDim S8x512x1024 ![] bcast_S_S8x512x1024) : HloOp τ sig (Elt F)) = unary main_call2_v3 main_call2_v4 ((broadcastInDim S8x512x1024 ![] bcast_S_S8x512x1024) : (⟨S_, .i32⟩ : BufTy).Contents (Elt F) → (⟨S8x512x1024, .i32⟩ : BufTy).Contents (Elt F)) :=
      (tunary_eq _ _ _).trans rfl
    rw [e, unary_result, h_main_call2_v3]; rfl

theorem step47 (x0 : (⟨S8x19x512x1024, .f32⟩ : BufTy).Contents (Elt F)) (x1 : (⟨S8x512x1024, .i32⟩ : BufTy).Contents (Elt F)) (W : Valuation τ sig (Elt F)) :
    Inv47 x0 x1 W → Inv48 x0 x1 (HloOp.result (TRef.binary (TRef.of (T := ⟨S8x512x1024, .i32⟩) main_call2_v4) (TRef.of (T := ⟨S8x512x1024, .i32⟩) main_call2_v2) (TRef.of (T := ⟨S8x512x1024, .i32⟩) main_v17) minsi : HloOp τ sig (Elt F)) W) := by
  rintro ⟨h_main_arg0, h_main_arg1, h_main_v15, h_main_v16, h_main_call2_v2, h_main_call2_v4⟩
  refine ⟨?_, ?_, ?_, ?_, ?_⟩
  · rw [binary_result_ne]; exact h_main_arg0; decide
  · rw [binary_result_ne]; exact h_main_arg1; decide
  · rw [binary_result_ne]; exact h_main_v15; decide
  · rw [binary_result_ne]; exact h_main_v16; decide
  · have e : (TRef.binary (TRef.of (T := ⟨S8x512x1024, .i32⟩) main_call2_v4) (TRef.of (T := ⟨S8x512x1024, .i32⟩) main_call2_v2) (TRef.of (T := ⟨S8x512x1024, .i32⟩) main_v17) minsi : HloOp τ sig (Elt F)) = binary main_call2_v4 main_call2_v2 main_v17 (minsi : (⟨S8x512x1024, .i32⟩ : BufTy).Contents (Elt F) → (⟨S8x512x1024, .i32⟩ : BufTy).Contents (Elt F) → (⟨S8x512x1024, .i32⟩ : BufTy).Contents (Elt F)) :=
      (tbinary_eq _ _ _ _).trans rfl
    rw [e, binary_result, h_main_call2_v4, h_main_call2_v2]; rfl

theorem step48 (x0 : (⟨S8x19x512x1024, .f32⟩ : BufTy).Contents (Elt F)) (x1 : (⟨S8x512x1024, .i32⟩ : BufTy).Contents (Elt F)) (W : Valuation τ sig (Elt F)) :
    Inv48 x0 x1 W → Inv49 x0 x1 (HloOp.result (unary main_v17 main_v18 (broadcastInDim S8x1x512x1024 ![0, 2, 3] bcast_S8x512x1024_S8x1x512x1024_0_2_3 : (⟨S8x512x1024, .i32⟩ : BufTy).Contents (Elt F) → (⟨S8x1x512x1024, .i32⟩ : BufTy).Contents (Elt F)) : HloOp τ sig (Elt F)) W) := by
  rintro ⟨h_main_arg0, h_main_arg1, h_main_v15, h_main_v16, h_main_v17⟩
  refine ⟨?_, ?_, ?_, ?_, ?_, ?_⟩
  · rw [unary_result_ne]; exact h_main_arg0; decide
  · rw [unary_result_ne]; exact h_main_arg1; decide
  · rw [unary_result_ne]; exact h_main_v15; decide
  · rw [unary_result_ne]; exact h_main_v16; decide
  · rw [unary_result_ne]; exact h_main_v17; decide
  · rw [unary_result, h_main_v17]; rfl

theorem step49 (x0 : (⟨S8x19x512x1024, .f32⟩ : BufTy).Contents (Elt F)) (x1 : (⟨S8x512x1024, .i32⟩ : BufTy).Contents (Elt F)) (W : Valuation τ sig (Elt F)) :
    Inv49 x0 x1 W → Inv50 x0 x1 (HloOp.result (TRef.nullary (TRef.of (T := ⟨S_, .i32⟩) main_call3_c) (constantI S_ 32 0#32) : HloOp τ sig (Elt F)) W) := by
  rintro ⟨h_main_arg0, h_main_arg1, h_main_v15, h_main_v16, h_main_v17, h_main_v18⟩
  refine ⟨?_, ?_, ?_, ?_, ?_, ?_, ?_⟩
  · rw [nullary_result_ne]; exact h_main_arg0; decide
  · rw [nullary_result_ne]; exact h_main_arg1; decide
  · rw [nullary_result_ne]; exact h_main_v15; decide
  · rw [nullary_result_ne]; exact h_main_v16; decide
  · rw [nullary_result_ne]; exact h_main_v17; decide
  · rw [nullary_result_ne]; exact h_main_v18; decide
  · rw [nullary_result]; rfl

theorem step50 (x0 : (⟨S8x19x512x1024, .f32⟩ : BufTy).Contents (Elt F)) (x1 : (⟨S8x512x1024, .i32⟩ : BufTy).Contents (Elt F)) (W : Valuation τ sig (Elt F)) :
    Inv50 x0 x1 W → Inv51 x0 x1 (HloOp.result (TRef.unary (TRef.of (T := ⟨S_, .i32⟩) main_call3_c) (TRef.of (T := ⟨S8x1x512x1024, .i32⟩) main_call3_v0) (broadcastInDim S8x1x512x1024 ![] bcast_S_S8x1x512x1024) : HloOp τ sig (Elt F)) W) := by
  rintro ⟨h_main_arg0, h_main_arg1, h_main_v15, h_main_v16, h_main_v17, h_main_v18, h_main_call3_c⟩
  refine ⟨?_, ?_, ?_, ?_, ?_, ?_, ?_⟩
  · rw [unary_result_ne]; exact h_main_arg0; decide
  · rw [unary_result_ne]; exact h_main_arg1; decide
  · rw [unary_result_ne]; exact h_main_v15; decide
  · rw [unary_result_ne]; exact h_main_v16; decide
  · rw [unary_result_ne]; exact h_main_v17; decide
  · rw [unary_result_ne]; exact h_main_v18; decide
  · have e : (TRef.unary (TRef.of (T := ⟨S_, .i32⟩) main_call3_c) (TRef.of (T := ⟨S8x1x512x1024, .i32⟩) main_call3_v0) (broadcastInDim S8x1x512x1024 ![] bcast_S_S8x1x512x1024) : HloOp τ sig (Elt F)) = unary main_call3_c main_call3_v0 ((broadcastInDim S8x1x512x1024 ![] bcast_S_S8x1x512x1024) : (⟨S_, .i32⟩ : BufTy).Contents (Elt F) → (⟨S8x1x512x1024, .i32⟩ : BufTy).Contents (Elt F)) :=
      (tunary_eq _ _ _).trans rfl
    rw [e, unary_result, h_main_call3_c]; rfl

theorem step51 (x0 : (⟨S8x19x512x1024, .f32⟩ : BufTy).Contents (Elt F)) (x1 : (⟨S8x512x1024, .i32⟩ : BufTy).Contents (Elt F)) (W : Valuation τ sig (Elt F)) :
    Inv51 x0 x1 W → Inv52 x0 x1 (HloOp.result (TRef.binary (TRef.of (T := ⟨S8x1x512x1024, .i32⟩) main_v18) (TRef.of (T := ⟨S8x1x512x1024, .i32⟩) main_call3_v0) (TRef.of (T := ⟨S8x1x512x1024, .i1⟩) main_call3_v1) (cmpi .slt) : HloOp τ sig (Elt F)) W) := by
  rintro ⟨h_main_arg0, h_main_arg1, h_main_v15, h_main_v16, h_main_v17, h_main_v18, h_main_call3_v0⟩
  refine ⟨?_, ?_, ?_, ?_, ?_, ?_, ?_⟩
  · rw [binary_result_ne]; exact h_main_arg0; decide
  · rw [binary_result_ne]; exact h_main_arg1; decide
  · rw [binary_result_ne]; exact h_main_v15; decide
  · rw [binary_result_ne]; exact h_main_v16; decide
  · rw [binary_result_ne]; exact h_main_v17; decide
  · rw [binary_result_ne]; exact h_main_v18; decide
  · have e : (TRef.binary (TRef.of (T := ⟨S8x1x512x1024, .i32⟩) main_v18) (TRef.of (T := ⟨S8x1x512x1024, .i32⟩) main_call3_v0) (TRef.of (T := ⟨S8x1x512x1024, .i1⟩) main_call3_v1) (cmpi .slt) : HloOp τ sig (Elt F)) = binary main_v18 main_call3_v0 main_call3_v1 ((cmpi .slt) : (⟨S8x1x512x1024, .i32⟩ : BufTy).Contents (Elt F) → (⟨S8x1x512x1024, .i32⟩ : BufTy).Contents (Elt F) → (⟨S8x1x512x1024, .i1⟩ : BufTy).Contents (Elt F)) :=
      (tbinary_eq _ _ _ _).trans rfl
    rw [e, binary_result, h_main_v18, h_main_call3_v0]; rfl

theorem step52 (x0 : (⟨S8x19x512x1024, .f32⟩ : BufTy).Contents (Elt F)) (x1 : (⟨S8x512x1024, .i32⟩ : BufTy).Contents (Elt F)) (W : Valuation τ sig (Elt F)) :
    Inv52 x0 x1 W → Inv53 x0 x1 (HloOp.result (TRef.nullary (TRef.of (T := ⟨S_, .i32⟩) main_call3_c_0) (constantI S_ 32 19#32) : HloOp τ sig (Elt F)) W) := by
  rintro ⟨h_main_arg0, h_main_arg1, h_main_v15, h_main_v16, h_main_v17, h_main_v18, h_main_call3_v1⟩
  refine ⟨?_, ?_, ?_, ?_, ?_, ?_, ?_, ?_⟩
  · rw [nullary_result_ne]; exact h_main_arg0; decide
  · rw [nullary_result_ne]; exact h_main_arg1; decide
  · rw [nullary_result_ne]; exact h_main_v15; decide
  · rw [nullary_result_ne]; exact h_main_v16; decide
  · rw [nullary_result_ne]; exact h_main_v17; decide
  · rw [nullary_result_ne]; exact h_main_v18; decide
  · rw [nullary_result_ne]; exact h_main_call3_v1; decide
  · rw [nullary_result]; rfl

theorem step53 (x0 : (⟨S8x19x512x1024, .f32⟩ : BufTy).Contents (Elt F)) (x1 : (⟨S8x512x1024, .i32⟩ : BufTy).Contents (Elt F)) (W : Valuation τ sig (Elt F)) :
    Inv53 x0 x1 W → Inv54 x0 x1 (HloOp.result (TRef.unary (TRef.of (T := ⟨S_, .i32⟩) main_call3_c_0) (TRef.of (T := ⟨S8x1x512x1024, .i32⟩) main_call3_v2) (broadcastInDim S8x1x512x1024 ![] bcast_S_S8x1x512x1024) : HloOp τ sig (Elt F)) W) := by
  rintro ⟨h_main_arg0, h_main_arg1, h_main_v15, h_main_v16, h_main_v17, h_main_v18, h_main_call3_v1, h_main_call3_c_0⟩
  refine ⟨?_, ?_, ?_, ?_, ?_, ?_, ?_, ?_⟩
  · rw [unary_result_ne]; exact h_main_arg0; decide
  · rw [unary_result_ne]; exact h_main_arg1; decide
  · rw [unary_result_ne]; exact h_main_v15; decide
  · rw [unary_result_ne]; exact h_main_v16; decide
  · rw [unary_result_ne]; exact h_main_v17; decide
  · rw [unary_result_ne]; exact h_main_v18; decide
  · rw [unary_result_ne]; exact h_main_call3_v1; decide
  · have e : (TRef.unary (TRef.of (T := ⟨S_, .i32⟩) main_call3_c_0) (TRef.of (T := ⟨S8x1x512x1024, .i32⟩) main_call3_v2) (broadcastInDim S8x1x512x1024 ![] bcast_S_S8x1x512x1024) : HloOp τ sig (Elt F)) = unary main_call3_c_0 main_call3_v2 ((broadcastInDim S8x1x512x1024 ![] bcast_S_S8x1x512x1024) : (⟨S_, .i32⟩ : BufTy).Contents (Elt F) → (⟨S8x1x512x1024, .i32⟩ : BufTy).Contents (Elt F)) :=
      (tunary_eq _ _ _).trans rfl
    rw [e, unary_result, h_main_call3_c_0]; rfl

theorem step54 (x0 : (⟨S8x19x512x1024, .f32⟩ : BufTy).Contents (Elt F)) (x1 : (⟨S8x512x1024, .i32⟩ : BufTy).Contents (Elt F)) (W : Valuation τ sig (Elt F)) :
    Inv54 x0 x1 W → Inv55 x0 x1 (HloOp.result (TRef.binary (TRef.of (T := ⟨S8x1x512x1024, .i32⟩) main_v18) (TRef.of (T := ⟨S8x1x512x1024, .i32⟩) main_call3_v2) (TRef.of (T := ⟨S8x1x512x1024, .i32⟩) main_call3_v3) addi : HloOp τ sig (Elt F)) W) := by
  rintro ⟨h_main_arg0, h_main_arg1, h_main_v15, h_main_v16, h_main_v17, h_main_v18, h_main_call3_v1, h_main_call3_v2⟩
  refine ⟨?_, ?_, ?_, ?_, ?_, ?_, ?_, ?_⟩
  · rw [binary_result_ne]; exact h_main_arg0; decide
  · rw [binary_result_ne]; exact h_main_arg1; decide
  · rw [binary_result_ne]; exact h_main_v15; decide
  · rw [binary_result_ne]; exact h_main_v16; decide
  · rw [binary_result_ne]; exact h_main_v17; decide
  · rw [binary_result_ne]; exact h_main_v18; decide
  · rw [binary_result_ne]; exact h_main_call3_v1; decide
  · have e : (TRef.binary (TRef.of (T := ⟨S8x1x512x1024, .i32⟩) main_v18) (TRef.of (T := ⟨S8x1x512x1024, .i32⟩) main_call3_v2) (TRef.of (T := ⟨S8x1x512x1024, .i32⟩) main_call3_v3) addi : HloOp τ sig (Elt F)) = binary main_v18 main_call3_v2 main_call3_v3 (addi : (⟨S8x1x512x1024, .i32⟩ : BufTy).Contents (Elt F) → (⟨S8x1x512x1024, .i32⟩ : BufTy).Contents (Elt F) → (⟨S8x1x512x1024, .i32⟩ : BufTy).Contents (Elt F)) :=
      (tbinary_eq _ _ _ _).trans rfl
    rw [e, binary_result, h_main_v18, h_main_call3_v2]; rfl

theorem step55 (x0 : (⟨S8x19x512x1024, .f32⟩ : BufTy).Contents (Elt F)) (x1 : (⟨S8x512x1024, .i32⟩ : BufTy).Contents (Elt F)) (W : Valuation τ sig (Elt F)) :
    Inv55 x0 x1 W → Inv56 x0 x1 (HloOp.result (TRef.ternary (TRef.of (T := ⟨S8x1x512x1024, .i1⟩) main_call3_v1) (TRef.of (T := ⟨S8x1x512x1024, .i32⟩) main_call3_v3) (TRef.of (T := ⟨S8x1x512x1024, .i32⟩) main_v18) (TRef.of (T := ⟨S8x1x512x1024, .i32⟩) main_call3_v4) select : HloOp τ sig (Elt F)) W) := by
  rintro ⟨h_main_arg0, h_main_arg1, h_main_v15, h_main_v16, h_main_v17, h_main_v18, h_main_call3_v1, h_main_call3_v3⟩
  refine ⟨?_, ?_, ?_, ?_, ?_, ?_⟩
  · rw [ternary_result_ne]; exact h_main_arg0; decide
  · rw [ternary_result_ne]; exact h_main_arg1; decide
  · rw [ternary_result_ne]; exact h_main_v15; decide
  · rw [ternary_result_ne]; exact h_main_v16; decide
  · rw [ternary_result_ne]; exact h_main_v17; decide
  · have e : (TRef.ternary (TRef.of (T := ⟨S8x1x512x1024, .i1⟩) main_call3_v1) (TRef.of (T := ⟨S8x1x512x1024, .i32⟩) main_call3_v3) (TRef.of (T := ⟨S8x1x512x1024, .i32⟩) main_v18) (TRef.of (T := ⟨S8x1x512x1024, .i32⟩) main_call3_v4) select : HloOp τ sig (Elt F)) = ternary main_call3_v1 main_call3_v3 main_v18 main_call3_v4 (select : (⟨S8x1x512x1024, .i1⟩ : BufTy).Contents (Elt F) → (⟨S8x1x512x1024, .i32⟩ : BufTy).Contents (Elt F) → (⟨S8x1x512x1024, .i32⟩ : BufTy).Contents (Elt F) → (⟨S8x1x512x1024, .i32⟩ : BufTy).Contents (Elt F)) :=
      (tternary_eq _ _ _ _ _).trans rfl
    rw [e, ternary_result, h_main_call3_v1, h_main_call3_v3, h_main_v18]; rfl

theorem step56 (x0 : (⟨S8x19x512x1024, .f32⟩ : BufTy).Contents (Elt F)) (x1 : (⟨S8x512x1024, .i32⟩ : BufTy).Contents (Elt F)) (W : Valuation τ sig (Elt F)) :
    Inv56 x0 x1 W → Inv57 x0 x1 (HloOp.result (TRef.reshape (TRef.of (T := ⟨S8x1x512x1024, .i32⟩) main_call3_v4) (TRef.of (T := ⟨S8x1x512x1024x1, .i32⟩) main_call3_v5) rfl shapeCasts_S8x1x512x1024_S8x1x512x1024x1 : HloOp τ sig (Elt F)) W) := by
  rintro ⟨h_main_arg0, h_main_arg1, h_main_v15, h_main_v16, h_main_v17, h_main_call3_v4⟩
  refine ⟨?_, ?_, ?_, ?_, ?_, ?_⟩
  · rw [reshape_result_ne]; exact h_main_arg0; decide
  · rw [reshape_result_ne]; exact h_main_arg1; decide
  · rw [reshape_result_ne]; exact h_main_v15; decide
  · rw [reshape_result_ne]; exact h_main_v16; decide
  · rw [reshape_result_ne]; exact h_main_v17; decide
  · rw [reshape_result, h_main_call3_v4]; rfl

theorem step57 (x0 : (⟨S8x19x512x1024, .f32⟩ : BufTy).Contents (Elt F)) (x1 : (⟨S8x512x1024, .i32⟩ : BufTy).Contents (Elt F)) (W : Valuation τ sig (Elt F)) :
    Inv57 x0 x1 W → Inv58 x0 x1 (HloOp.result (TRef.nullary (TRef.of (T := ⟨S1, .i32⟩) main_call3_c_1) (constantI S1 32 18#32) : HloOp τ sig (Elt F)) W) := by
  rintro ⟨h_main_arg0, h_main_arg1, h_main_v15, h_main_v16, h_main_v17, h_main_call3_v5⟩
  refine ⟨?_, ?_, ?_, ?_, ?_, ?_, ?_⟩
  · rw [nullary_result_ne]; exact h_main_arg0; decide
  · rw [nullary_result_ne]; exact h_main_arg1; decide
  · rw [nullary_result_ne]; exact h_main_v15; decide
  · rw [nullary_result_ne]; exact h_main_v16; decide
  · rw [nullary_result_ne]; exact h_main_v17; decide
  · rw [nullary_result_ne]; exact h_main_call3_v5; decide
  · rw [nullary_result]; rfl

theorem step58 (x0 : (⟨S8x19x512x1024, .f32⟩ : BufTy).Contents (Elt F)) (x1 : (⟨S8x512x1024, .i32⟩ : BufTy).Contents (Elt F)) (W : Valuation τ sig (Elt F)) :
    Inv58 x0 x1 W → Inv59 x0 x1 (HloOp.result (TRef.nullary (TRef.of (T := ⟨S_, .i32⟩) main_call3_c_2) (constantI S_ 32 0#32) : HloOp τ sig (Elt F)) W) := by
  rintro ⟨h_main_arg0, h_main_arg1, h_main_v15, h_main_v16, h_main_v17, h_main_call3_v5, h_main_call3_c_1⟩
  refine ⟨?_, ?_, ?_, ?_, ?_, ?_, ?_, ?_⟩
  · rw [nullary_result_ne]; exact h_main_arg0; decide
  · rw [nullary_result_ne]; exact h_main_arg1; decide
  · rw [nullary_result_ne]; exact h_main_v15; decide
  · rw [nullary_result_ne]; exact h_main_v16; decide
  · rw [nullary_result_ne]; exact h_main_v17; decide
  · rw [nullary_result_ne]; exact h_main_call3_v5; decide
  · rw [nullary_result_ne]; exact h_main_call3_c_1; decide
  · rw [nullary_result]; rfl

theorem step59 (x0 : (⟨S8x19x512x1024, .f32⟩ : BufTy).Contents (Elt F)) (x1 : (⟨S8x512x1024, .i32⟩ : BufTy).Contents (Elt F)) (W : Valuation τ sig (Elt F)) :
    Inv59 x0 x1 W → Inv60 x0 x1 (HloOp.result (TRef.unary (TRef.of (T := ⟨S_, .i32⟩) main_call3_c_2) (TRef.of (T := ⟨S8x1x512x1024x1, .i32⟩) main_call3_v6) (broadcastInDim S8x1x512x1024x1 ![] bcast_S_S8x1x512x1024x1) : HloOp τ sig (Elt F)) W) := by
  rintro ⟨h_main_arg0, h_main_arg1, h_main_v15, h_main_v16, h_main_v17, h_main_call3_v5, h_main_call3_c_1, h_main_call3_c_2⟩
  refine ⟨?_, ?_, ?_, ?_, ?_, ?_, ?_, ?_⟩
  · rw [unary_result_ne]; exact h_main_arg0; decide
  · rw [unary_result_ne]; exact h_main_arg1; decide
  · rw [unary_result_ne]; exact h_main_v15; decide
  · rw [unary_result_ne]; exact h_main_v16; decide
  · rw [unary_result_ne]; exact h_main_v17; decide
  · rw [unary_result_ne]; exact h_main_call3_v5; decide
  · rw [unary_result_ne]; exact h_main_call3_c_1; decide
  · have e : (TRef.unary (TRef.of (T := ⟨S_, .i32⟩) main_call3_c_2) (TRef.of (T := ⟨S8x1x512x1024x1, .i32⟩) main_call3_v6) (broadcastInDim S8x1x512x1024x1 ![] bcast_S_S8x1x512x1024x1) : HloOp τ sig (Elt F)) = unary main_call3_c_2 main_call3_v6 ((broadcastInDim S8x1x512x1024x1 ![] bcast_S_S8x1x512x1024x1) : (⟨S_, .i32⟩ : BufTy).Contents (Elt F) → (⟨S8x1x512x1024x1, .i32⟩ : BufTy).Contents (Elt F)) :=
      (tunary_eq _ _ _).trans rfl
    rw [e, unary_result, h_main_call3_c_2]; rfl

theorem step60 (x0 : (⟨S8x19x512x1024, .f32⟩ : BufTy).Contents (Elt F)) (x1 : (⟨S8x512x1024, .i32⟩ : BufTy).Contents (Elt F)) (W : Valuation τ sig (Elt F)) :
    Inv60 x0 x1 W → Inv61 x0 x1 (HloOp.result (TRef.binary (TRef.of (T := ⟨S8x1x512x1024x1, .i32⟩) main_call3_v5) (TRef.of (T := ⟨S8x1x512x1024x1, .i32⟩) main_call3_v6) (TRef.of (T := ⟨S8x1x512x1024x1, .i1⟩) main_call3_v7) (cmpi .sge) : HloOp τ sig (Elt F)) W) := by
  rintro ⟨h_main_arg0, h_main_arg1, h_main_v15, h_main_v16, h_main_v17, h_main_call3_v5, h_main_call3_c_1, h_main_call3_v6⟩
  refine ⟨?_, ?_, ?_, ?_, ?_, ?_, ?_, ?_⟩
  · rw [binary_result_ne]; exact h_main_arg0; decide
  · rw [binary_result_ne]; exact h_main_arg1; decide
  · rw [binary_result_ne]; exact h_main_v15; decide
  · rw [binary_result_ne]; exact h_main_v16; decide
  · rw [binary_result_ne]; exact h_main_v17; decide
  · rw [binary_result_ne]; exact h_main_call3_v5; decide
  · rw [binary_result_ne]; exact h_main_call3_c_1; decide
  · have e : (TRef.binary (TRef.of (T := ⟨S8x1x512x1024x1, .i32⟩) main_call3_v5) (TRef.of (T := ⟨S8x1x512x1024x1, .i32⟩) main_call3_v6) (TRef.of (T := ⟨S8x1x512x1024x1, .i1⟩) main_call3_v7) (cmpi .sge) : HloOp τ sig (Elt F)) = binary main_call3_v5 main_call3_v6 main_call3_v7 ((cmpi .sge) : (⟨S8x1x512x1024x1, .i32⟩ : BufTy).Contents (Elt F) → (⟨S8x1x512x1024x1, .i32⟩ : BufTy).Contents (Elt F) → (⟨S8x1x512x1024x1, .i1⟩ : BufTy).Contents (Elt F)) :=
      (tbinary_eq _ _ _ _).trans rfl
    rw [e, binary_result, h_main_call3_v5, h_main_call3_v6]; rfl

theorem step61 (x0 : (⟨S8x19x512x1024, .f32⟩ : BufTy).Contents (Elt F)) (x1 : (⟨S8x512x1024, .i32⟩ : BufTy).Contents (Elt F)) (W : Valuation τ sig (Elt F)) :
    Inv61 x0 x1 W → Inv62 x0 x1 (HloOp.result (TRef.unary (TRef.of (T := ⟨S1, .i32⟩) main_call3_c_1) (TRef.of (T := ⟨S1x1x1x1x1, .i32⟩) main_call3_v8) (broadcastInDim S1x1x1x1x1 ![4] bcast_S1_S1x1x1x1x1_4) : HloOp τ sig (Elt F)) W) := by
  rintro ⟨h_main_arg0, h_main_arg1, h_main_v15, h_main_v16, h_main_v17, h_main_call3_v5, h_main_call3_c_1, h_main_call3_v7⟩
  refine ⟨?_, ?_, ?_, ?_, ?_, ?_, ?_, ?_⟩
  · rw [unary_result_ne]; exact h_main_arg0; decide
  · rw [unary_result_ne]; exact h_main_arg1; decide
  · rw [unary_result_ne]; exact h_main_v15; decide
  · rw [unary_result_ne]; exact h_main_v16; decide
  · rw [unary_result_ne]; exact h_main_v17; decide
  · rw [unary_result_ne]; exact h_main_call3_v5; decide
  · rw [unary_result_ne]; exact h_main_call3_v7; decide
  · have e : (TRef.unary (TRef.of (T := ⟨S1, .i32⟩) main_call3_c_1) (TRef.of (T := ⟨S1x1x1x1x1, .i32⟩) main_call3_v8) (broadcastInDim S1x1x1x1x1 ![4] bcast_S1_S1x1x1x1x1_4) : HloOp τ sig (Elt F)) = unary main_call3_c_1 main_call3_v8 ((broadcastInDim S1x1x1x1x1 ![4] bcast_S1_S1x1x1x1x1_4) : (⟨S1, .i32⟩ : BufTy).Contents (Elt F) → (⟨S1x1x1x1x1, .i32⟩ : BufTy).Contents (Elt F)) :=
      (tunary_eq _ _ _).trans rfl
    rw [e, unary_result, h_main_call3_c_1]; rfl

theorem step62 (x0 : (⟨S8x19x512x1024, .f32⟩ : BufTy).Contents (Elt F)) (x1 : (⟨S8x512x1024, .i32⟩ : BufTy).Contents (Elt F)) (W : Valuation τ sig (Elt F)) :
    Inv62 x0 x1 W → Inv63 x0 x1 (HloOp.result (TRef.unary (TRef.of (T := ⟨S1x1x1x1x1, .i32⟩) main_call3_v8) (TRef.of (T := ⟨S8x1x512x1024x1, .i32⟩) main_call3_v9) (broadcastInDim S8x1x512x1024x1 ![0, 1, 2, 3, 4] bcast_S1x1x1x1x1_S8x1x512x1024x1_0_1_2_3_4) : HloOp τ sig (Elt F)) W) := by
  rintro ⟨h_main_arg0, h_main_arg1, h_main_v15, h_main_v16, h_main_v17, h_main_call3_v5, h_main_call3_v7, h_main_call3_v8⟩
  refine ⟨?_, ?_, ?_, ?_, ?_, ?_, ?_, ?_⟩
  · rw [unary_result_ne]; exact h_main_arg0; decide
  · rw [unary_result_ne]; exact h_main_arg1; decide
  · rw [unary_result_ne]; exact h_main_v15; decide
  · rw [unary_result_ne]; exact h_main_v16; decide
  · rw [unary_result_ne]; exact h_main_v17; decide
  · rw [unary_result_ne]; exact h_main_call3_v5; decide
  · rw [unary_result_ne]; exact h_main_call3_v7; decide
  · have e : (TRef.unary (TRef.of (T := ⟨S1x1x1x1x1, .i32⟩) main_call3_v8) (TRef.of (T := ⟨S8x1x512x1024x1, .i32⟩) main_call3_v9) (broadcastInDim S8x1x512x1024x1 ![0, 1, 2, 3, 4] bcast_S1x1x1x1x1_S8x1x512x1024x1_0_1_2_3_4) : HloOp τ sig (Elt F)) = unary main_call3_v8 main_call3_v9 ((broadcastInDim S8x1x512x1024x1 ![0, 1, 2, 3, 4] bcast_S1x1x1x1x1_S8x1x512x1024x1_0_1_2_3_4) : (⟨S1x1x1x1x1, .i32⟩ : BufTy).Contents (Elt F) → (⟨S8x1x512x1024x1, .i32⟩ : BufTy).Contents (Elt F)) :=
      (tunary_eq _ _ _).trans rfl
    rw [e, unary_result, h_main_call3_v8]; rfl

theorem step63 (x0 : (⟨S8x19x512x1024, .f32⟩ : BufTy).Contents (Elt F)) (x1 : (⟨S8x512x1024, .i32⟩ : BufTy).Contents (Elt F)) (W : Valuation τ sig (Elt F)) :
    Inv63 x0 x1 W → Inv64 x0 x1 (HloOp.result (TRef.binary (TRef.of (T := ⟨S8x1x512x1024x1, .i32⟩) main_call3_v5) (TRef.of (T := ⟨S8x1x512x1024x1, .i32⟩) main_call3_v9) (TRef.of (T := ⟨S8x1x512x1024x1, .i1⟩) main_call3_v10) (cmpi .sle) : HloOp τ sig (Elt F)) W) := by
  rintro ⟨h_main_arg0, h_main_arg1, h_main_v15, h_main_v16, h_main_v17, h_main_call3_v5, h_main_call3_v7, h_main_call3_v9⟩
  refine ⟨?_, ?_, ?_, ?_, ?_, ?_, ?_, ?_⟩
  · rw [binary_result_ne]; exact h_main_arg0; decide
  · rw [binary_result_ne]; exact h_main_arg1; decide
  · rw [binary_result_ne]; exact h_main_v15; decide
  · rw [binary_result_ne]; exact h_main_v16; decide
  · rw [binary_result_ne]; exact h_main_v17; decide
  · rw [binary_result_ne]; exact h_main_call3_v5; decide
  · rw [binary_result_ne]; exact h_main_call3_v7; decide
  · have e : (TRef.binary (TRef.of (T := ⟨S8x1x512x1024x1, .i32⟩) main_call3_v5) (TRef.of (T := ⟨S8x1x512x1024x1, .i32⟩) main_call3_v9) (TRef.of (T := ⟨S8x1x512x1024x1, .i1⟩) main_call3_v10) (cmpi .sle) : HloOp τ sig (Elt F)) = binary main_call3_v5 main_call3_v9 main_call3_v10 ((cmpi .sle) : (⟨S8x1x512x1024x1, .i32⟩ : BufTy).Contents (Elt F) → (⟨S8x1x512x1024x1, .i32⟩ : BufTy).Contents (Elt F) → (⟨S8x1x512x1024x1, .i1⟩ : BufTy).Contents (Elt F)) :=
      (tbinary_eq _ _ _ _).trans rfl
    rw [e, binary_result, h_main_call3_v5, h_main_call3_v9]; rfl

theorem step64 (x0 : (⟨S8x19x512x1024, .f32⟩ : BufTy).Contents (Elt F)) (x1 : (⟨S8x512x1024, .i32⟩ : BufTy).Contents (Elt F)) (W : Valuation τ sig (Elt F)) :
    Inv64 x0 x1 W → Inv65 x0 x1 (HloOp.result (TRef.binary (TRef.of (T := ⟨S8x1x512x1024x1, .i1⟩) main_call3_v7) (TRef.of (T := ⟨S8x1x512x1024x1, .i1⟩) main_call3_v10) (TRef.of (T := ⟨S8x1x512x1024x1, .i1⟩) main_call3_v11) andi : HloOp τ sig (Elt F)) W) := by
  rintro ⟨h_main_arg0, h_main_arg1, h_main_v15, h_main_v16, h_main_v17, h_main_call3_v5, h_main_call3_v7, h_main_call3_v10⟩
  refine ⟨?_, ?_, ?_, ?_, ?_, ?_, ?_⟩
  · rw [binary_result_ne]; exact h_main_arg0; decide
  · rw [binary_result_ne]; exact h_main_arg1; decide
  · rw [binary_result_ne]; exact h_main_v15; decide
  · rw [binary_result_ne]; exact h_main_v16; decide
  · rw [binary_result_ne]; exact h_main_v17; decide
  · rw [binary_result_ne]; exact h_main_call3_v5; decide
  · have e : (TRef.binary (TRef.of (T := ⟨S8x1x512x1024x1, .i1⟩) main_call3_v7) (TRef.of (T := ⟨S8x1x512x1024x1, .i1⟩) main_call3_v10) (TRef.of (T := ⟨S8x1x512x1024x1, .i1⟩) main_call3_v11) andi : HloOp τ sig (Elt F)) = binary main_call3_v7 main_call3_v10 main_call3_v11 (andi : (⟨S8x1x512x1024x1, .i1⟩ : BufTy).Contents (Elt F) → (⟨S8x1x512x1024x1, .i1⟩ : BufTy).Contents (Elt F) → (⟨S8x1x512x1024x1, .i1⟩ : BufTy).Contents (Elt F)) :=
      (tbinary_eq _ _ _ _).trans rfl
    rw [e, binary_result, h_main_call3_v7, h_main_call3_v10]; rfl

theorem step65 (x0 : (⟨S8x19x512x1024, .f32⟩ : BufTy).Contents (Elt F)) (x1 : (⟨S8x512x1024, .i32⟩ : BufTy).Contents (Elt F)) (W : Valuation τ sig (Elt F)) :
    Inv65 x0 x1 W → Inv66 x0 x1 (HloOp.result (TRef.nullary (TRef.of (T := ⟨S_, .i1⟩) main_call3_c_3) (constantI S_ 1 1#1) : HloOp τ sig (Elt F)) W) := by
  rintro ⟨h_main_arg0, h_main_arg1, h_main_v15, h_main_v16, h_main_v17, h_main_call3_v5, h_main_call3_v11⟩
  refine ⟨?_, ?_, ?_, ?_, ?_, ?_, ?_, ?_⟩
  · rw [nullary_result_ne]; exact h_main_arg0; decide
  · rw [nullary_result_ne]; exact h_main_arg1; decide
  · rw [nullary_result_ne]; exact h_main_v15; decide
  · rw [nullary_result_ne]; exact h_main_v16; decide
  · rw [nullary_result_ne]; exact h_main_v17; decide
  · rw [nullary_result_ne]; exact h_main_call3_v5; decide
  · rw [nullary_result_ne]; exact h_main_call3_v11; decide
  · rw [nullary_result]; rfl

theorem step66 (x0 : (⟨S8x19x512x1024, .f32⟩ : BufTy).Contents (Elt F)) (x1 : (⟨S8x512x1024, .i32⟩ : BufTy).Contents (Elt F)) (W : Valuation τ sig (Elt F)) :
    Inv66 x0 x1 W → Inv67 x0 x1 (HloOp.result (TRef.binary (TRef.of (T := ⟨S8x1x512x1024x1, .i1⟩) main_call3_v11) (TRef.of (T := ⟨S_, .i1⟩) main_call3_c_3) (TRef.of (T := ⟨S8x1x512x1024, .i1⟩) main_call3_v12) (fun x v => Host.reduce IntOp.andi x v reducesTo_S8x1x512x1024x1_S8x1x512x1024_d4 h_S_) : HloOp τ sig (Elt F)) W) := by
  rintro ⟨h_main_arg0, h_main_arg1, h_main_v15, h_main_v16, h_main_v17, h_main_call3_v5, h_main_call3_v11, h_main_call3_c_3⟩
  refine ⟨?_, ?_, ?_, ?_, ?_, ?_, ?_⟩
  · rw [binary_result_ne]; exact h_main_arg0; decide
  · rw [binary_result_ne]; exact h_main_arg1; decide
  · rw [binary_result_ne]; exact h_main_v15; decide
  · rw [binary_result_ne]; exact h_main_v16; decide
  · rw [binary_result_ne]; exact h_main_v17; decide
  · rw [binary_result_ne]; exact h_main_call3_v5; decide
  · have e : (TRef.binary (TRef.of (T := ⟨S8x1x512x1024x1, .i1⟩) main_call3_v11) (TRef.of (T := ⟨S_, .i1⟩) main_call3_c_3) (TRef.of (T := ⟨S8x1x512x1024, .i1⟩) main_call3_v12) (fun x v => Host.reduce IntOp.andi x v reducesTo_S8x1x512x1024x1_S8x1x512x1024_d4 h_S_) : HloOp τ sig (Elt F)) = binary main_call3_v11 main_call3_c_3 main_call3_v12 ((fun x v => Host.reduce IntOp.andi x v reducesTo_S8x1x512x1024x1_S8x1x512x1024_d4 h_S_) : (⟨S8x1x512x1024x1, .i1⟩ : BufTy).Contents (Elt F) → (⟨S_, .i1⟩ : BufTy).Contents (Elt F) → (⟨S8x1x512x1024, .i1⟩ : BufTy).Contents (Elt F)) :=
      (tbinary_eq _ _ _ _).trans rfl
    rw [e, binary_result, h_main_call3_v11, h_main_call3_c_3]; rfl

theorem step67 (x0 : (⟨S8x19x512x1024, .f32⟩ : BufTy).Contents (Elt F)) (x1 : (⟨S8x512x1024, .i32⟩ : BufTy).Contents (Elt F)) (W : Valuation τ sig (Elt F)) :
    Inv67 x0 x1 W → Inv68 x0 x1 (HloOp.result (TRef.binary (TRef.of (T := ⟨S8x19x512x1024, .f32⟩) main_v16) (TRef.of (T := ⟨S8x1x512x1024x1, .i32⟩) main_call3_v5) (TRef.of (T := ⟨S8x1x512x1024, .f32⟩) main_call3_v13) (fun x i => Host.gather gather_S8x19x512x1024_S8x1x512x1024x1_S8x1x512x1024_n_1_023_023_1_4_1111 x i) : HloOp τ sig (Elt F)) W) := by
  rintro ⟨h_main_arg0, h_main_arg1, h_main_v15, h_main_v16, h_main_v17, h_main_call3_v5, h_main_call3_v12⟩
  refine ⟨?_, ?_, ?_, ?_, ?_, ?_⟩
  · rw [binary_result_ne]; exact h_main_arg0; decide
  · rw [binary_result_ne]; exact h_main_arg1; decide
  · rw [binary_result_ne]; exact h_main_v15; decide
  · rw [binary_result_ne]; exact h_main_v17; decide
  · rw [binary_result_ne]; exact h_main_call3_v12; decide
  · have e : (TRef.binary (TRef.of (T := ⟨S8x19x512x1024, .f32⟩) main_v16) (TRef.of (T := ⟨S8x1x512x1024x1, .i32⟩) main_call3_v5) (TRef.of (T := ⟨S8x1x512x1024, .f32⟩) main_call3_v13) (fun x i => Host.gather gather_S8x19x512x1024_S8x1x512x1024x1_S8x1x512x1024_n_1_023_023_1_4_1111 x i) : HloOp τ sig (Elt F)) = binary main_v16 main_call3_v5 main_call3_v13 ((fun x i => Host.gather gather_S8x19x512x1024_S8x1x512x1024x1_S8x1x512x1024_n_1_023_023_1_4_1111 x i) : (⟨S8x19x512x1024, .f32⟩ : BufTy).Contents (Elt F) → (⟨S8x1x512x1024x1, .i32⟩ : BufTy).Contents (Elt F) → (⟨S8x1x512x1024, .f32⟩ : BufTy).Contents (Elt F)) :=
      (tbinary_eq _ _ _ _).trans rfl
    rw [e, binary_result, h_main_v16, h_main_call3_v5]; rfl

theorem step68 (x0 : (⟨S8x19x512x1024, .f32⟩ : BufTy).Contents (Elt F)) (x1 : (⟨S8x512x1024, .i32⟩ : BufTy).Contents (Elt F)) (W : Valuation τ sig (Elt F)) :
    Inv68 x0 x1 W → Inv69 x0 x1 (HloOp.result (TRef.nullary (TRef.of (T := ⟨S_, .f32⟩) main_call3_cst) (constant S_ .f32 0x7FC00000#32) : HloOp τ sig (Elt F)) W) := by
  rintro ⟨h_main_arg0, h_main_arg1, h_main_v15, h_main_v17, h_main_call3_v12, h_main_call3_v13⟩
  refine ⟨?_, ?_, ?_, ?_, ?_, ?_, ?_⟩
  · rw [nullary_result_ne]; exact h_main_arg0; decide
  · rw [nullary_result_ne]; exact h_main_arg1; decide
  · rw [nullary_result_ne]; exact h_main_v15; decide
  · rw [nullary_result_ne]; exact h_main_v17; decide
  · rw [nullary_result_ne]; exact h_main_call3_v12; decide
  · rw [nullary_result_ne]; exact h_main_call3_v13; decide
  · rw [nullary_result]; rfl

theorem step69 (x0 : (⟨S8x19x512x1024, .f32⟩ : BufTy).Contents (Elt F)) (x1 : (⟨S8x512x1024, .i32⟩ : BufTy).Contents (Elt F)) (W : Valuation τ sig (Elt F)) :
    Inv69 x0 x1 W → Inv70 x0 x1 (HloOp.result (TRef.unary (TRef.of (T := ⟨S_, .f32⟩) main_call3_cst) (TRef.of (T := ⟨S8x1x512x1024, .f32⟩) main_call3_v14) (broadcastInDim S8x1x512x1024 ![] bcast_S_S8x1x512x1024) : HloOp τ sig (Elt F)) W) := by
  rintro ⟨h_main_arg0, h_main_arg1, h_main_v15, h_main_v17, h_main_call3_v12, h_main_call3_v13, h_main_call3_cst⟩
  refine ⟨?_, ?_, ?_, ?_, ?_, ?_, ?_⟩
  · rw [unary_result_ne]; exact h_main_arg0; decide
  · rw [unary_result_ne]; exact h_main_arg1; decide
  · rw [unary_result_ne]; exact h_main_v15; decide
  · rw [unary_result_ne]; exact h_main_v17; decide
  · rw [unary_result_ne]; exact h_main_call3_v12; decide
  · rw [unary_result_ne]; exact h_main_call3_v13; decide
  · have e : (TRef.unary (TRef.of (T := ⟨S_, .f32⟩) main_call3_cst) (TRef.of (T := ⟨S8x1x512x1024, .f32⟩) main_call3_v14) (broadcastInDim S8x1x512x1024 ![] bcast_S_S8x1x512x1024) : HloOp τ sig (Elt F)) = unary main_call3_cst main_call3_v14 ((broadcastInDim S8x1x512x1024 ![] bcast_S_S8x1x512x1024) : (⟨S_, .f32⟩ : BufTy).Contents (Elt F) → (⟨S8x1x512x1024, .f32⟩ : BufTy).Contents (Elt F)) :=
      (tunary_eq _ _ _).trans rfl
    rw [e, unary_result, h_main_call3_cst]; rfl

theorem step70 (x0 : (⟨S8x19x512x1024, .f32⟩ : BufTy).Contents (Elt F)) (x1 : (⟨S8x512x1024, .i32⟩ : BufTy).Contents (Elt F)) (W : Valuation τ sig (Elt F)) :
    Inv70 x0 x1 W → Inv71 x0 x1 (HloOp.result (TRef.ternary (TRef.of (T := ⟨S8x1x512x1024, .i1⟩) main_call3_v12) (TRef.of (T := ⟨S8x1x512x1024, .f32⟩) main_call3_v13) (TRef.of (T := ⟨S8x1x512x1024, .f32⟩) main_call3_v14) (TRef.of (T := ⟨S8x1x512x1024, .f32⟩) main_v19) select : HloOp τ sig (Elt F)) W) := by
  rintro ⟨h_main_arg0, h_main_arg1, h_main_v15, h_main_v17, h_main_call3_v12, h_main_call3_v13, h_main_call3_v14⟩
  refine ⟨?_, ?_, ?_, ?_, ?_⟩
  · rw [ternary_result_ne]; exact h_main_arg0; decide
  · rw [ternary_result_ne]; exact h_main_arg1; decide
  · rw [ternary_result_ne]; exact h_main_v15; decide
  · rw [ternary_result_ne]; exact h_main_v17; decide
  · have e : (TRef.ternary (TRef.of (T := ⟨S8x1x512x1024, .i1⟩) main_call3_v12) (TRef.of (T := ⟨S8x1x512x1024, .f32⟩) main_call3_v13) (TRef.of (T := ⟨S8x1x512x1024, .f32⟩) main_call3_v14) (TRef.of (T := ⟨S8x1x512x1024, .f32⟩) main_v19) select : HloOp τ sig (Elt F)) = ternary main_call3_v12 main_call3_v13 main_call3_v14 main_v19 (select : (⟨S8x1x512x1024, .i1⟩ : BufTy).Contents (Elt F) → (⟨S8x1x512x1024, .f32⟩ : BufTy).Contents (Elt F) → (⟨S8x1x512x1024, .f32⟩ : BufTy).Contents (Elt F) → (⟨S8x1x512x1024, .f32⟩ : BufTy).Contents (Elt F)) :=
      (tternary_eq _ _ _ _ _).trans rfl
    rw [e, ternary_result, h_main_call3_v12, h_main_call3_v13, h_main_call3_v14]; rfl

theorem step71 (x0 : (⟨S8x19x512x1024, .f32⟩ : BufTy).Contents (Elt F)) (x1 : (⟨S8x512x1024, .i32⟩ : BufTy).Contents (Elt F)) (W : Valuation τ sig (Elt F)) :
    Inv71 x0 x1 W → Inv72 x0 x1 (HloOp.result (reshape main_v19 main_v20 rfl shapeCasts_S8x1x512x1024_S8x512x1024 : HloOp τ sig (Elt F)) W) := by
  rintro ⟨h_main_arg0, h_main_arg1, h_main_v15, h_main_v17, h_main_v19⟩
  refine ⟨?_, ?_, ?_, ?_, ?_⟩
  · rw [reshape_result_ne]; exact h_main_arg0; decide
  · rw [reshape_result_ne]; exact h_main_arg1; decide
  · rw [reshape_result_ne]; exact h_main_v15; decide
  · rw [reshape_result_ne]; exact h_main_v17; decide
  · rw [reshape_result, h_main_v19]; rfl

theorem step72 (x0 : (⟨S8x19x512x1024, .f32⟩ : BufTy).Contents (Elt F)) (x1 : (⟨S8x512x1024, .i32⟩ : BufTy).Contents (Elt F)) (W : Valuation τ sig (Elt F)) :
    Inv72 x0 x1 W → Inv73 x0 x1 (HloOp.result (nullary main_c_7 (constantI S_ 32 4294967295#32) : HloOp τ sig (Elt F)) W) := by
  rintro ⟨h_main_arg0, h_main_arg1, h_main_v15, h_main_v17, h_main_v20⟩
  refine ⟨?_, ?_, ?_, ?_, ?_, ?_⟩
  · rw [nullary_result_ne]; exact h_main_arg0; decide
  · rw [nullary_result_ne]; exact h_main_arg1; decide
  · rw [nullary_result_ne]; exact h_main_v15; decide
  · rw [nullary_result_ne]; exact h_main_v17; decide
  · rw [nullary_result_ne]; exact h_main_v20; decide
  · rw [nullary_result]; rfl

theorem step73 (x0 : (⟨S8x19x512x1024, .f32⟩ : BufTy).Contents (Elt F)) (x1 : (⟨S8x512x1024, .i32⟩ : BufTy).Contents (Elt F)) (W : Valuation τ sig (Elt F)) :
    Inv73 x0 x1 W → Inv74 x0 x1 (HloOp.result (unary main_c_7 main_v21 (broadcastInDim S8x512x1024 ![] bcast_S_S8x512x1024 : (⟨S_, .i32⟩ : BufTy).Contents (Elt F) → (⟨S8x512x1024, .i32⟩ : BufTy).Contents (Elt F)) : HloOp τ sig (Elt F)) W) := by
  rintro ⟨h_main_arg0, h_main_arg1, h_main_v15, h_main_v17, h_main_v20, h_main_c_7⟩
  refine ⟨?_, ?_, ?_, ?_, ?_, ?_⟩
  · rw [unary_result_ne]; exact h_main_arg0; decide
  · rw [unary_result_ne]; exact h_main_arg1; decide
  · rw [unary_result_ne]; exact h_main_v15; decide
  · rw [unary_result_ne]; exact h_main_v17; decide
  · rw [unary_result_ne]; exact h_main_v20; decide
  · rw [unary_result, h_main_c_7]; rfl

theorem step74 (x0 : (⟨S8x19x512x1024, .f32⟩ : BufTy).Contents (Elt F)) (x1 : (⟨S8x512x1024, .i32⟩ : BufTy).Contents (Elt F)) (W : Valuation τ sig (Elt F)) :
    Inv74 x0 x1 W → Inv75 x0 x1 (HloOp.result (binary main_arg1 main_v21 main_v22 (cmpi .ne : (⟨S8x512x1024, .i32⟩ : BufTy).Contents (Elt F) → (⟨S8x512x1024, .i32⟩ : BufTy).Contents (Elt F) → (⟨S8x512x1024, .i1⟩ : BufTy).Contents (Elt F)) : HloOp τ sig (Elt F)) W) := by
  rintro ⟨h_main_arg0, h_main_arg1, h_main_v15, h_main_v17, h_main_v20, h_main_v21⟩
  refine ⟨?_, ?_, ?_, ?_, ?_, ?_⟩
  · rw [binary_result_ne]; exact h_main_arg0; decide
  · rw [binary_result_ne]; exact h_main_arg1; decide
  · rw [binary_result_ne]; exact h_main_v15; decide
  · rw [binary_result_ne]; exact h_main_v17; decide
  · rw [binary_result_ne]; exact h_main_v20; decide
  · rw [binary_result, h_main_arg1, h_main_v21]; rfl

theorem step75 (x0 : (⟨S8x19x512x1024, .f32⟩ : BufTy).Contents (Elt F)) (x1 : (⟨S8x512x1024, .i32⟩ : BufTy).Contents (Elt F)) (W : Valuation τ sig (Elt F)) :
    Inv75 x0 x1 W → Inv76 x0 x1 (HloOp.result (unary main_v22 main_v23 (uitofp .f32 : (⟨S8x512x1024, .i1⟩ : BufTy).Contents (Elt F) → (⟨S8x512x1024, .f32⟩ : BufTy).Contents (Elt F)) : HloOp τ sig (Elt F)) W) := by
  rintro ⟨h_main_arg0, h_main_arg1, h_main_v15, h_main_v17, h_main_v20, h_main_v22⟩
  refine ⟨?_, ?_, ?_, ?_, ?_, ?_⟩
  · rw [unary_result_ne]; exact h_main_arg0; decide
  · rw [unary_result_ne]; exact h_main_arg1; decide
  · rw [unary_result_ne]; exact h_main_v15; decide
  · rw [unary_result_ne]; exact h_main_v17; decide
  · rw [unary_result_ne]; exact h_main_v20; decide
  · rw [unary_result, h_main_v22]; rfl

theorem step76 (x0 : (⟨S8x19x512x1024, .f32⟩ : BufTy).Contents (Elt F)) (x1 : (⟨S8x512x1024, .i32⟩ : BufTy).Contents (Elt F)) (W : Valuation τ sig (Elt F)) :
    Inv76 x0 x1 W → Inv77 x0 x1 (HloOp.result (nullary main_c_8 (constantI S_ 32 0#32) : HloOp τ sig (Elt F)) W) := by
  rintro ⟨h_main_arg0, h_main_arg1, h_main_v15, h_main_v17, h_main_v20, h_main_v23⟩
  refine ⟨?_, ?_, ?_, ?_, ?_, ?_, ?_⟩
  · rw [nullary_result_ne]; exact h_main_arg0; decide
  · rw [nullary_result_ne]; exact h_main_arg1; decide
  · rw [nullary_result_ne]; exact h_main_v15; decide
  · rw [nullary_result_ne]; exact h_main_v17; decide
  · rw [nullary_result_ne]; exact h_main_v20; decide
  · rw [nullary_result_ne]; exact h_main_v23; decide
  · rw [nullary_result]; rfl

theorem step77 (x0 : (⟨S8x19x512x1024, .f32⟩ : BufTy).Contents (Elt F)) (x1 : (⟨S8x512x1024, .i32⟩ : BufTy).Contents (Elt F)) (W : Valuation τ sig (Elt F)) :
    Inv77 x0 x1 W → Inv78 x0 x1 (HloOp.result (unary main_c_8 main_v24 (broadcastInDim S8x512x1024 ![] bcast_S_S8x512x1024 : (⟨S_, .i32⟩ : BufTy).Contents (Elt F) → (⟨S8x512x1024, .i32⟩ : BufTy).Contents (Elt F)) : HloOp τ sig (Elt F)) W) := by
  rintro ⟨h_main_arg0, h_main_arg1, h_main_v15, h_main_v17, h_main_v20, h_main_v23, h_main_c_8⟩
  refine ⟨?_, ?_, ?_, ?_, ?_, ?_, ?_⟩
  · rw [unary_result_ne]; exact h_main_arg0; decide
  · rw [unary_result_ne]; exact h_main_arg1; decide
  · rw [unary_result_ne]; exact h_main_v15; decide
  · rw [unary_result_ne]; exact h_main_v17; decide
  · rw [unary_result_ne]; exact h_main_v20; decide
  · rw [unary_result_ne]; exact h_main_v23; decide
  · rw [unary_result, h_main_c_8]; rfl

theorem step78 (x0 : (⟨S8x19x512x1024, .f32⟩ : BufTy).Contents (Elt F)) (x1 : (⟨S8x512x1024, .i32⟩ : BufTy).Contents (Elt F)) (W : Valuation τ sig (Elt F)) :
    Inv78 x0 x1 W → Inv79 x0 x1 (HloOp.result (binary main_v17 main_v24 main_v25 (cmpi .slt : (⟨S8x512x1024, .i32⟩ : BufTy).Contents (Elt F) → (⟨S8x512x1024, .i32⟩ : BufTy).Contents (Elt F) → (⟨S8x512x1024, .i1⟩ : BufTy).Contents (Elt F)) : HloOp τ sig (Elt F)) W) := by
  rintro ⟨h_main_arg0, h_main_arg1, h_main_v15, h_main_v17, h_main_v20, h_main_v23, h_main_v24⟩
  refine ⟨?_, ?_, ?_, ?_, ?_, ?_, ?_⟩
  · rw [binary_result_ne]; exact h_main_arg0; decide
  · rw [binary_result_ne]; exact h_main_arg1; decide
  · rw [binary_result_ne]; exact h_main_v15; decide
  · rw [binary_result_ne]; exact h_main_v17; decide
  · rw [binary_result_ne]; exact h_main_v20; decide
  · rw [binary_result_ne]; exact h_main_v23; decide
  · rw [binary_result, h_main_v17, h_main_v24]; rfl

theorem step79 (x0 : (⟨S8x19x512x1024, .f32⟩ : BufTy).Contents (Elt F)) (x1 : (⟨S8x512x1024, .i32⟩ : BufTy).Contents (Elt F)) (W : Valuation τ sig (Elt F)) :
    Inv79 x0 x1 W → Inv80 x0 x1 (HloOp.result (nullary main_c_9 (constantI S_ 32 19#32) : HloOp τ sig (Elt F)) W) := by
  rintro ⟨h_main_arg0, h_main_arg1, h_main_v15, h_main_v17, h_main_v20, h_main_v23, h_main_v25⟩
  refine ⟨?_, ?_, ?_, ?_, ?_, ?_, ?_, ?_⟩
  · rw [nullary_result_ne]; exact h_main_arg0; decide
  · rw [nullary_result_ne]; exact h_main_arg1; decide
  · rw [nullary_result_ne]; exact h_main_v15; decide
  · rw [nullary_result_ne]; exact h_main_v17; decide
  · rw [nullary_result_ne]; exact h_main_v20; decide
  · rw [nullary_result_ne]; exact h_main_v23; decide
  · rw [nullary_result_ne]; exact h_main_v25; decide
  · rw [nullary_result]; rfl

theorem step80 (x0 : (⟨S8x19x512x1024, .f32⟩ : BufTy).Contents (Elt F)) (x1 : (⟨S8x512x1024, .i32⟩ : BufTy).Contents (Elt F)) (W : Valuation τ sig (Elt F)) :
    Inv80 x0 x1 W → Inv81 x0 x1 (HloOp.result (unary main_c_9 main_v26 (broadcastInDim S8x512x1024 ![] bcast_S_S8x512x1024 : (⟨S_, .i32⟩ : BufTy).Contents (Elt F) → (⟨S8x512x1024, .i32⟩ : BufTy).Contents (Elt F)) : HloOp τ sig (Elt F)) W) := by
  rintro ⟨h_main_arg0, h_main_arg1, h_main_v15, h_main_v17, h_main_v20, h_main_v23, h_main_v25, h_main_c_9⟩
  refine ⟨?_, ?_, ?_, ?_, ?_, ?_, ?_, ?_⟩
  · rw [unary_result_ne]; exact h_main_arg0; decide
  · rw [unary_result_ne]; exact h_main_arg1; decide
  · rw [unary_result_ne]; exact h_main_v15; decide
  · rw [unary_result_ne]; exact h_main_v17; decide
  · rw [unary_result_ne]; exact h_main_v20; decide
  · rw [unary_result_ne]; exact h_main_v23; decide
  · rw [unary_result_ne]; exact h_main_v25; decide
  · rw [unary_result, h_main_c_9]; rfl

theorem step81 (x0 : (⟨S8x19x512x1024, .f32⟩ : BufTy).Contents (Elt F)) (x1 : (⟨S8x512x1024, .i32⟩ : BufTy).Contents (Elt F)) (W : Valuation τ sig (Elt F)) :
    Inv81 x0 x1 W → Inv82 x0 x1 (HloOp.result (binary main_v17 main_v26 main_v27 (addi : (⟨S8x512x1024, .i32⟩ : BufTy).Contents (Elt F) → (⟨S8x512x1024, .i32⟩ : BufTy).Contents (Elt F) → (⟨S8x512x1024, .i32⟩ : BufTy).Contents (Elt F)) : HloOp τ sig (Elt F)) W) := by
  rintro ⟨h_main_arg0, h_main_arg1, h_main_v15, h_main_v17, h_main_v20, h_main_v23, h_main_v25, h_main_v26⟩
  refine ⟨?_, ?_, ?_, ?_, ?_, ?_, ?_, ?_⟩
  · rw [binary_result_ne]; exact h_main_arg0; decide
  · rw [binary_result_ne]; exact h_main_arg1; decide
  · rw [binary_result_ne]; exact h_main_v15; decide
  · rw [binary_result_ne]; exact h_main_v17; decide
  · rw [binary_result_ne]; exact h_main_v20; decide
  · rw [binary_result_ne]; exact h_main_v23; decide
  · rw [binary_result_ne]; exact h_main_v25; decide
  · rw [binary_result, h_main_v17, h_main_v26]; rfl

theorem step82 (x0 : (⟨S8x19x512x1024, .f32⟩ : BufTy).Contents (Elt F)) (x1 : (⟨S8x512x1024, .i32⟩ : BufTy).Contents (Elt F)) (W : Valuation τ sig (Elt F)) :
    Inv82 x0 x1 W → Inv83 x0 x1 (HloOp.result (ternary main_v25 main_v27 main_v17 main_v28 (select : (⟨S8x512x1024, .i1⟩ : BufTy).Contents (Elt F) → (⟨S8x512x1024, .i32⟩ : BufTy).Contents (Elt F) → (⟨S8x512x1024, .i32⟩ : BufTy).Contents (Elt F) → (⟨S8x512x1024, .i32⟩ : BufTy).Contents (Elt F)) : HloOp τ sig (Elt F)) W) := by
  rintro ⟨h_main_arg0, h_main_arg1, h_main_v15, h_main_v17, h_main_v20, h_main_v23, h_main_v25, h_main_v27⟩
  refine ⟨?_, ?_, ?_, ?_, ?_, ?_⟩
  · rw [ternary_result_ne]; exact h_main_arg0; decide
  · rw [ternary_result_ne]; exact h_main_arg1; decide
  · rw [ternary_result_ne]; exact h_main_v15; decide
  · rw [ternary_result_ne]; exact h_main_v20; decide
  · rw [ternary_result_ne]; exact h_main_v23; decide
  · rw [ternary_result, h_main_v25, h_main_v27, h_main_v17]; rfl

theorem step83 (x0 : (⟨S8x19x512x1024, .f32⟩ : BufTy).Contents (Elt F)) (x1 : (⟨S8x512x1024, .i32⟩ : BufTy).Contents (Elt F)) (W : Valuation τ sig (Elt F)) :
    Inv83 x0 x1 W → Inv84 x0 x1 (HloOp.result (unary main_v28 main_v29 (broadcastInDim S8x512x1024x1 ![0, 1, 2] bcast_S8x512x1024_S8x512x1024x1_0_1_2 : (⟨S8x512x1024, .i32⟩ : BufTy).Contents (Elt F) → (⟨S8x512x1024x1, .i32⟩ : BufTy).Contents (Elt F)) : HloOp τ sig (Elt F)) W) := by
  rintro ⟨h_main_arg0, h_main_arg1, h_main_v15, h_main_v20, h_main_v23, h_main_v28⟩
  refine ⟨?_, ?_, ?_, ?_, ?_, ?_⟩
  · rw [unary_result_ne]; exact h_main_arg0; decide
  · rw [unary_result_ne]; exact h_main_arg1; decide
  · rw [unary_result_ne]; exact h_main_v15; decide
  · rw [unary_result_ne]; exact h_main_v20; decide
  · rw [unary_result_ne]; exact h_main_v23; decide
  · rw [unary_result, h_main_v28]; rfl

theorem step84 (x0 : (⟨S8x19x512x1024, .f32⟩ : BufTy).Contents (Elt F)) (x1 : (⟨S8x512x1024, .i32⟩ : BufTy).Contents (Elt F)) (W : Valuation τ sig (Elt F)) :
    Inv84 x0 x1 W → Inv85 x0 x1 (HloOp.result (binary main_v15 main_v29 main_v30 ((fun x i => Host.gather gather_S19_S8x512x1024x1_S8x512x1024_n_0_n_n_0_3_1 x i) : (⟨S19, .f32⟩ : BufTy).Contents (Elt F) → (⟨S8x512x1024x1, .i32⟩ : BufTy).Contents (Elt F) → (⟨S8x512x1024, .f32⟩ : BufTy).Contents (Elt F)) : HloOp τ sig (Elt F)) W) := by
  rintro ⟨h_main_arg0, h_main_arg1, h_main_v15, h_main_v20, h_main_v23, h_main_v29⟩
  refine ⟨?_, ?_, ?_, ?_, ?_⟩
  · rw [binary_result_ne]; exact h_main_arg0; decide
  · rw [binary_result_ne]; exact h_main_arg1; decide
  · rw [binary_result_ne]; exact h_main_v20; decide
  · rw [binary_result_ne]; exact h_main_v23; decide
  · rw [binary_result, h_main_v15, h_main_v29]; rfl

theorem step85 (x0 : (⟨S8x19x512x1024, .f32⟩ : BufTy).Contents (Elt F)) (x1 : (⟨S8x512x1024, .i32⟩ : BufTy).Contents (Elt F)) (W : Valuation τ sig (Elt F)) :
    Inv85 x0 x1 W → Inv86 x0 x1 (HloOp.result (binary main_v30 main_v23 main_v31 (mulf : (⟨S8x512x1024, .f32⟩ : BufTy).Contents (Elt F) → (⟨S8x512x1024, .f32⟩ : BufTy).Contents (Elt F) → (⟨S8x512x1024, .f32⟩ : BufTy).Contents (Elt F)) : HloOp τ sig (Elt F)) W) := by
  rintro ⟨h_main_arg0, h_main_arg1, h_main_v20, h_main_v23, h_main_v30⟩
  refine ⟨?_, ?_, ?_, ?_⟩
  · rw [binary_result_ne]; exact h_main_arg0; decide
  · rw [binary_result_ne]; exact h_main_arg1; decide
  · rw [binary_result_ne]; exact h_main_v20; decide
  · rw [binary_result, h_main_v30, h_main_v23]; rfl

theorem step86 (x0 : (⟨S8x19x512x1024, .f32⟩ : BufTy).Contents (Elt F)) (x1 : (⟨S8x512x1024, .i32⟩ : BufTy).Contents (Elt F)) (W : Valuation τ sig (Elt F)) :
    Inv86 x0 x1 W → Inv87 x0 x1 (HloOp.result (binary main_v31 main_v20 main_v32 (mulf : (⟨S8x512x1024, .f32⟩ : BufTy).Contents (Elt F) → (⟨S8x512x1024, .f32⟩ : BufTy).Contents (Elt F) → (⟨S8x512x1024, .f32⟩ : BufTy).Contents (Elt F)) : HloOp τ sig (Elt F)) W) := by
  rintro ⟨h_main_arg0, h_main_arg1, h_main_v20, h_main_v31⟩
  refine ⟨?_, ?_, ?_, ?_⟩
  · rw [binary_result_ne]; exact h_main_arg0; decide
  · rw [binary_result_ne]; exact h_main_arg1; decide
  · rw [binary_result_ne]; exact h_main_v31; decide
  · rw [binary_result, h_main_v31, h_main_v20]; rfl

theorem step87 (x0 : (⟨S8x19x512x1024, .f32⟩ : BufTy).Contents (Elt F)) (x1 : (⟨S8x512x1024, .i32⟩ : BufTy).Contents (Elt F)) (W : Valuation τ sig (Elt F)) :
    Inv87 x0 x1 W → Inv88 x0 x1 (HloOp.result (nullary main_cst_10 (constant S_ .f32 0x00000000#32) : HloOp τ sig (Elt F)) W) := by
  rintro ⟨h_main_arg0, h_main_arg1, h_main_v31, h_main_v32⟩
  refine ⟨?_, ?_, ?_, ?_, ?_⟩
  · rw [nullary_result_ne]; exact h_main_arg0; decide
  · rw [nullary_result_ne]; exact h_main_arg1; decide
  · rw [nullary_result_ne]; exact h_main_v31; decide
  · rw [nullary_result_ne]; exact h_main_v32; decide
  · rw [nullary_result]; rfl

theorem step88 (x0 : (⟨S8x19x512x1024, .f32⟩ : BufTy).Contents (Elt F)) (x1 : (⟨S8x512x1024, .i32⟩ : BufTy).Contents (Elt F)) (W : Valuation τ sig (Elt F)) :
    Inv88 x0 x1 W → Inv89 x0 x1 (HloOp.result (binary main_v32 main_cst_10 main_v33 ((fun x v => Host.reduceAdd x v reducesTo_S8x512x1024_S_d0_1_2 h_S_) : (⟨S8x512x1024, .f32⟩ : BufTy).Contents (Elt F) → (⟨S_, .f32⟩ : BufTy).Contents (Elt F) → (⟨S_, .f32⟩ : BufTy).Contents (Elt F)) : HloOp τ sig (Elt F)) W) := by
  rintro ⟨h_main_arg0, h_main_arg1, h_main_v31, h_main_v32, h_main_cst_10⟩
  refine ⟨?_, ?_, ?_, ?_⟩
  · rw [binary_result_ne]; exact h_main_arg0; decide
  · rw [binary_result_ne]; exact h_main_arg1; decide
  · rw [binary_result_ne]; exact h_main_v31; decide
  · rw [binary_result, h_main_v32, h_main_cst_10]; rfl

theorem step89 (x0 : (⟨S8x19x512x1024, .f32⟩ : BufTy).Contents (Elt F)) (x1 : (⟨S8x512x1024, .i32⟩ : BufTy).Contents (Elt F)) (W : Valuation τ sig (Elt F)) :
    Inv89 x0 x1 W → Inv90 x0 x1 (HloOp.result (unary main_v33 main_v34 (Host.negf : (⟨S_, .f32⟩ : BufTy).Contents (Elt F) → (⟨S_, .f32⟩ : BufTy).Contents (Elt F)) : HloOp τ sig (Elt F)) W) := by
  rintro ⟨h_main_arg0, h_main_arg1, h_main_v31, h_main_v33⟩
  refine ⟨?_, ?_, ?_, ?_⟩
  · rw [unary_result_ne]; exact h_main_arg0; decide
  · rw [unary_result_ne]; exact h_main_arg1; decide
  · rw [unary_result_ne]; exact h_main_v31; decide
  · rw [unary_result, h_main_v33]; rfl

theorem step90 (x0 : (⟨S8x19x512x1024, .f32⟩ : BufTy).Contents (Elt F)) (x1 : (⟨S8x512x1024, .i32⟩ : BufTy).Contents (Elt F)) (W : Valuation τ sig (Elt F)) :
    Inv90 x0 x1 W → Inv91 x0 x1 (HloOp.result (nullary main_cst_11 (constant S_ .f32 0x00000000#32) : HloOp τ sig (Elt F)) W) := by
  rintro ⟨h_main_arg0, h_main_arg1, h_main_v31, h_main_v34⟩
  refine ⟨?_, ?_, ?_, ?_, ?_⟩
  · rw [nullary_result_ne]; exact h_main_arg0; decide
  · rw [nullary_result_ne]; exact h_main_arg1; decide
  · rw [nullary_result_ne]; exact h_main_v31; decide
  · rw [nullary_result_ne]; exact h_main_v34; decide
  · rw [nullary_result]; rfl

theorem step91 (x0 : (⟨S8x19x512x1024, .f32⟩ : BufTy).Contents (Elt F)) (x1 : (⟨S8x512x1024, .i32⟩ : BufTy).Contents (Elt F)) (W : Valuation τ sig (Elt F)) :
    Inv91 x0 x1 W → Inv92 x0 x1 (HloOp.result (binary main_v31 main_cst_11 main_v35 ((fun x v => Host.reduceAdd x v reducesTo_S8x512x1024_S_d0_1_2 h_S_) : (⟨S8x512x1024, .f32⟩ : BufTy).Contents (Elt F) → (⟨S_, .f32⟩ : BufTy).Contents (Elt F) → (⟨S_, .f32⟩ : BufTy).Contents (Elt F)) : HloOp τ sig (Elt F)) W) := by
  rintro ⟨h_main_arg0, h_main_arg1, h_main_v31, h_main_v34, h_main_cst_11⟩
  refine ⟨?_, ?_, ?_, ?_⟩
  · rw [binary_result_ne]; exact h_main_arg0; decide
  · rw [binary_result_ne]; exact h_main_arg1; decide
  · rw [binary_result_ne]; exact h_main_v34; decide
  · rw [binary_result, h_main_v31, h_main_cst_11]; rfl

theorem step92 (x0 : (⟨S8x19x512x1024, .f32⟩ : BufTy).Contents (Elt F)) (x1 : (⟨S8x512x1024, .i32⟩ : BufTy).Contents (Elt F)) (W : Valuation τ sig (Elt F)) :
    Inv92 x0 x1 W → Inv93 x0 x1 (HloOp.result (binary main_v34 main_v35 main_v36 (Host.divf : (⟨S_, .f32⟩ : BufTy).Contents (Elt F) → (⟨S_, .f32⟩ : BufTy).Contents (Elt F) → (⟨S_, .f32⟩ : BufTy).Contents (Elt F)) : HloOp τ sig (Elt F)) W) := by
  rintro ⟨h_main_arg0, h_main_arg1, h_main_v34, h_main_v35⟩
  refine ⟨?_, ?_, ?_⟩
  · rw [binary_result_ne]; exact h_main_arg0; decide
  · rw [binary_result_ne]; exact h_main_arg1; decide
  · rw [binary_result, h_main_v34, h_main_v35]; rfl

/-- The 93 operations in order carry the arguments' contents to the last stage, the arguments kept. -/
theorem stages (x0 : (⟨S8x19x512x1024, .f32⟩ : BufTy).Contents (Elt F)) (x1 : (⟨S8x512x1024, .i32⟩ : BufTy).Contents (Elt F)) (W : Valuation τ sig (Elt F))
    (h : Inv0 x0 x1 W) : Inv93 x0 x1 (after ops W) := by
  simp only [after_cons, after_nil]
  refine step92 x0 x1 _ ?_
  refine step91 x0 x1 _ ?_
  refine step90 x0 x1 _ ?_
  refine step89 x0 x1 _ ?_
  refine step88 x0 x1 _ ?_
  refine step87 x0 x1 _ ?_
  refine step86 x0 x1 _ ?_
  refine step85 x0 x1 _ ?_
  refine step84 x0 x1 _ ?_
  refine step83 x0 x1 _ ?_
  refine step82 x0 x1 _ ?_
  refine step81 x0 x1 _ ?_
  refine step80 x0 x1 _ ?_
  refine step79 x0 x1 _ ?_
  refine step78 x0 x1 _ ?_
  refine step77 x0 x1 _ ?_
  refine step76 x0 x1 _ ?_
  refine step75 x0 x1 _ ?_
  refine step74 x0 x1 _ ?_
  refine step73 x0 x1 _ ?_
  refine step72 x0 x1 _ ?_
  refine step71 x0 x1 _ ?_
  refine step70 x0 x1 _ ?_
  refine step69 x0 x1 _ ?_
  refine step68 x0 x1 _ ?_
  refine step67 x0 x1 _ ?_
  refine step66 x0 x1 _ ?_
  refine step65 x0 x1 _ ?_
  refine step64 x0 x1 _ ?_
  refine step63 x0 x1 _ ?_
  refine step62 x0 x1 _ ?_
  refine step61 x0 x1 _ ?_
  refine step60 x0 x1 _ ?_
  refine step59 x0 x1 _ ?_
  refine step58 x0 x1 _ ?_
  refine step57 x0 x1 _ ?_
  refine step56 x0 x1 _ ?_
  refine step55 x0 x1 _ ?_
  refine step54 x0 x1 _ ?_
  refine step53 x0 x1 _ ?_
  refine step52 x0 x1 _ ?_
  refine step51 x0 x1 _ ?_
  refine step50 x0 x1 _ ?_
  refine step49 x0 x1 _ ?_
  refine step48 x0 x1 _ ?_
  refine step47 x0 x1 _ ?_
  refine step46 x0 x1 _ ?_
  refine step45 x0 x1 _ ?_
  refine step44 x0 x1 _ ?_
  refine step43 x0 x1 _ ?_
  refine step42 x0 x1 _ ?_
  refine step41 x0 x1 _ ?_
  refine step40 x0 x1 _ ?_
  refine step39 x0 x1 _ ?_
  refine step38 x0 x1 _ ?_
  refine step37 x0 x1 _ ?_
  refine step36 x0 x1 _ ?_
  refine step35 x0 x1 _ ?_
  refine step34 x0 x1 _ ?_
  refine step33 x0 x1 _ ?_
  refine step32 x0 x1 _ ?_
  refine step31 x0 x1 _ ?_
  refine step30 x0 x1 _ ?_
  refine step29 x0 x1 _ ?_
  refine step28 x0 x1 _ ?_
  refine step27 x0 x1 _ ?_
  refine step26 x0 x1 _ ?_
  refine step25 x0 x1 _ ?_
  refine step24 x0 x1 _ ?_
  refine step23 x0 x1 _ ?_
  refine step22 x0 x1 _ ?_
  refine step21 x0 x1 _ ?_
  refine step20 x0 x1 _ ?_
  refine step19 x0 x1 _ ?_
  refine step18 x0 x1 _ ?_
  refine step17 x0 x1 _ ?_
  refine step16 x0 x1 _ ?_
  refine step15 x0 x1 _ ?_
  refine step14 x0 x1 _ ?_
  refine step13 x0 x1 _ ?_
  refine step12 x0 x1 _ ?_
  refine step11 x0 x1 _ ?_
  refine step10 x0 x1 _ ?_
  refine step9 x0 x1 _ ?_
  refine step8 x0 x1 _ ?_
  refine step7 x0 x1 _ ?_
  refine step6 x0 x1 _ ?_
  refine step5 x0 x1 _ ?_
  refine step4 x0 x1 _ ?_
  refine step3 x0 x1 _ ?_
  refine step2 x0 x1 _ ?_
  refine step1 x0 x1 _ ?_
  refine step0 x0 x1 _ ?_
  exact h

end Cert.ReferenceIdeal.RefRun

end
-- ==== Proof.RefRun.lean ====
/-
  The reference program's run: every weakly fair execution ends with the result buffer at the last stage's value.
  The run of a line of operations ends with every buffer at the fold of the operations over the launch contents; the
  stages carry the launch contents through that fold to the last stage, the arguments kept.
-/
import proofs.«430136_j16260746182668_3_alg».proof.Proof.RefRead
import proofs.«430136_j16260746182668_3_alg».proof.Proof.RefSteps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36)
          = Cert.ReferenceIdeal.ReadP.val_main_v36 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
      obtain ⟨h0, h1, h36⟩ := stages (m ((c.tc : Thread nD τ).loc main_arg0)) (m ((c.tc : Thread nD τ).loc main_arg1))
        (launchContents m c) ⟨rfl, rfl⟩
      exact ⟨(h c main_v36).trans h36, (h c main_arg0).trans h0, (h c main_arg1).trans h1⟩)
    (run_seq Cert.ReferenceIdeal.ValueP.scopedRefs_eq Cert.ReferenceIdeal.ValueP.scopedSems_eq defs main
      (fun _ => Cert.ReferenceIdeal.ValueP.ops) Cert.ReferenceIdeal.ValueP.main_eq
      (fun _ => Cert.ReferenceIdeal.ValueP.ops_sub) m ρ)

end Cert.ReferenceIdeal.RefRun

end
-- ==== Proof.lean ====
/-
  The certificate of the fused weighted cross-entropy kernel against its jnp reference, over the extended reals, under
  the precondition that every logit is finite and every label is a class in [0, 19).

  Both programs compute the loss -(∑ w · logp) / (∑ w) with class weights w c = 1 - N c / 4194304 from the label
  histogram N. The kernel accumulates, per grid point (batch, tile of 128 rows), the block's per-class counts and
  per-class sums of log-probabilities into a [1, 8, 128] tile, adds the tiles over the row tiles and the batches, and
  forms -(∑ w c · S c) / (∑ w c · N c) over the 19 classes. The reference forms the per-pixel weight w (label p) and the
  per-pixel log-probability of the pixel's own label, and sums over the pixels. Regrouping the pixel sum by label is the
  law that joins the two; it needs every term finite, which the precondition gives (Spec.lean states the mathematics,
  Algebra.lean proves the regrouping).

  The three frames: the kernel's two are the generated frame certificates; the reference's is its run with the result
  dropped. `preserves` is trivial: the ideal pass rewrote nothing.
-/
import proofs.«430136_j16260746182668_3_alg».proof.Defs
import proofs.«430136_j16260746182668_3_alg».proof.Proof.Gen.Kernel
import proofs.«430136_j16260746182668_3_alg».proof.Proof.Gen.Kernel.Skeleton
import proofs.«430136_j16260746182668_3_alg».proof.Proof.Gen.Kernel.Launch
import proofs.«430136_j16260746182668_3_alg».proof.Proof.Gen.Kernel.Points
import proofs.«430136_j16260746182668_3_alg».proof.Proof.Gen.Kernel.Frame
import proofs.«430136_j16260746182668_3_alg».proof.Proof.Gen.KernelIdeal
import proofs.«430136_j16260746182668_3_alg».proof.Proof.Gen.KernelIdeal.Skeleton
import proofs.«430136_j16260746182668_3_alg».proof.Proof.Gen.KernelIdeal.Launch
import proofs.«430136_j16260746182668_3_alg».proof.Proof.Gen.KernelIdeal.Points
import proofs.«430136_j16260746182668_3_alg».proof.Proof.Gen.KernelIdeal.Frame
import proofs.«430136_j16260746182668_3_alg».proof.Proof.Gen.ReferenceIdeal
import proofs.«430136_j16260746182668_3_alg».proof.Proof.Gen.Pre_finite_inputs
import proofs.«430136_j16260746182668_3_alg».proof.Proof.Algebra
import proofs.«430136_j16260746182668_3_alg».proof.Proof.PreDecode
import proofs.«430136_j16260746182668_3_alg».proof.Proof.KTail
import proofs.«430136_j16260746182668_3_alg».proof.Proof.RefLoss
import proofs.«430136_j16260746182668_3_alg».proof.Proof.RefRun
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- At `Ideal`, from memories agreeing on the arguments: the kernel ends at the loss arranged by classes over its blockwise
    totals, the reference at the loss arranged by pixels; the precondition makes the logits reals and the labels classes,
    and then the two arrangements are one number. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hdec := fun c : Dev Cert.KernelIdeal.nD => Cert.PreDecode.decode _ _ (hpre c)
  choose x tc hx ht using hdec
  refine ⟨fun c => fun _ => Cert.Spec.result (Cert.Spec.numR (x c) (tc c)) (Cert.Spec.denR (tc c)), ?_, ?_⟩
  · refine (θ_run Cert.KernelIdeal.defs _ _).mono (fun _ h c => ⟨(h c).1.trans ?_, (h c).2⟩) (Cert.KernelIdeal.KTail.run m ρ x hx)
    rw [Cert.Spec.numK_eq_numR (x c) _ (tc c) (fun p => congrFun (ht c) p),
      Cert.Spec.denK_eq_denR (x c) _ (tc c) (fun p => congrFun (ht c) p)]
  · refine (θ_run Cert.ReferenceIdeal.defs _ _).mono (fun _ h c => ⟨(h c).1.trans ?_, (h c).2⟩)
      (Cert.ReferenceIdeal.RefRun.run (F := Ideal) m' ρ')
    rw [(hagree c).1, (hagree c).2, hx c, ht c]
    exact Cert.ReferenceIdeal.RefLoss.loss (x c) (tc c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
